-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8192x1024 : Shape := ⟨2, ![8192, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S8192x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S8192x1024 : Shape := ⟨2, ![8192, 1024]⟩
abbrev S1024x1024 : Shape := ⟨2, ![1024, 1024]⟩
abbrev S1024x2048 : Shape := ⟨2, ![1024, 2048]⟩
abbrev S8192x2048 : Shape := ⟨2, ![8192, 2048]⟩
abbrev S2048x1024 : Shape := ⟨2, ![2048, 1024]⟩
abbrev S2048x2048 : Shape := ⟨2, ![2048, 2048]⟩
abbrev S1024x1 : Shape := ⟨2, ![1024, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x2048, .f32⟩
  | .hbm, ⟨8, _⟩ => ⟨S1024x2048, .bf16⟩
  | .hbm, ⟨9, _⟩ => ⟨S8192x1024, .bf16⟩
  | .hbm, ⟨10, _⟩ => ⟨S8192x2048, .bf16⟩
  | .hbm, ⟨11, _⟩ => ⟨S8192x1024, .f32⟩
  | .hbm, ⟨12, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S2048x2048, .bf16⟩
  | .local _ .vmem, ⟨4, _⟩ => ⟨S2048x2048, .bf16⟩
  | .local _ .vmem, ⟨5, _⟩ => ⟨S1024x1024, .f32⟩
  | .local _ .vmem, ⟨6, _⟩ => ⟨S1024x1024, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond5 (i : grid1.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_16 : BitVec 32 := 0#32
  let v28 : BitVec 1 := Scalar.cmpi .ne v27 c0_i32_16
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x2048_d1 : Shape.Concatenates [S1024x1024, S1024x1024] S1024x2048 1
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  packedbf16_S2048x2048_S2048x2048_0_0 : (Rect.unit (s := S2048x2048) ![0, 0] S2048x2048.size inb_S2048x2048_S2048x2048_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  reduces_S1024x2048_S1024 : S1024x2048.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  broadcasts_S1024x1_S1024x1024 : S1024x1.Broadcasts S1024x1024
  shapeCasts_S8192x1024_S4x2048x1024 : S8192x1024.ShapeCasts S4x2048x1024
  dot_S2048x1024_S1024x2048_S2048x2048_1_0_0_1_n_n_wf : DotDims.WF S2048x1024 S1024x2048 S2048x2048 [1] [0] [0] [1] [] []
  dot_S1024x1024_S2048x1024_S1024x2048_1_1_0_0_n_n_wf : DotDims.WF S1024x1024 S2048x1024 S1024x2048 [1] [1] [0] [0] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x2048.size a
  hwx0_2 : ∀ i : grid0.Coords, EltTy.bits .bf16 = 32 ∨ (Rect.block (s := S8192x2048) S2048x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x2048.size a
  hwx1_1 : ∀ i : grid1.Coords, EltTy.bits .bf16 = 32 ∨ (Rect.block (s := S8192x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x2048.size a
  hwx1_2 : ∀ i : grid1.Coords, EltTy.bits .bf16 = 32 ∨ (Rect.block (s := S8192x2048) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v5) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond5 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S8192x1024 : Shape := ⟨2, ![8192, 1024]⟩
abbrev S1024x1024 : Shape := ⟨2, ![1024, 1024]⟩
abbrev S4x2048x8192 : Shape := ⟨3, ![4, 2048, 8192]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S4x2048x8192, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048x1, .f32⟩
  | .hbm, ⟨15, _⟩ => ⟨S4x2048x8192, .f32⟩
  | .hbm, ⟨16, _⟩ => ⟨S4x2048x8192, .f32⟩
  | .hbm, ⟨17, _⟩ => ⟨S4x2048x8192, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S4x2048x8192, .f32⟩
  | .hbm, ⟨22, _⟩ => ⟨S4x2048x8192, .f32⟩
  | .hbm, ⟨23, _⟩ => ⟨S4x2048x1024, .f32⟩
  | .hbm, ⟨24, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S1024x1024_S1024x1024_1_0 : S1024x1024.Transposes [1, 0] S1024x1024
  reducesTo_S4x2048x8192_S4x2048_d2 : S4x2048x8192.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x8192_0_1_2 : S4x2048x1.BroadcastsInDim S4x2048x8192 (![0, 1, 2] : Fin 3 → Fin S4x2048x8192.rank)
  dot_S8192x1024_S1024x1024_S8192x1024_1_0_0_1_n_n_wf : DotDims.WF S8192x1024 S1024x1024 S8192x1024 [1] [0] [0] [1] [] []
  dot_S4x2048x1024_S8192x1024_S4x2048x8192_2_1_01_0_n_n_wf : DotDims.WF S4x2048x1024 S8192x1024 S4x2048x8192 [2] [1] [0, 1] [0] [] []
  dot_S4x2048x8192_S8192x1024_S4x2048x1024_2_0_01_1_n_n_wf : DotDims.WF S4x2048x8192 S8192x1024 S4x2048x1024 [2] [0] [0, 1] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S4x2048x1024_S8192x1024_S4x2048x8192_2_1_01_0_n_n : DotDims S4x2048x1024 S8192x1024 S4x2048x8192 where
  lhsContracting := [2]
  rhsContracting := [1]
  lhsNonContracting := [0, 1]
  rhsNonContracting := [0]
  lhsBatch := []
  rhsBatch := []
  wf := dot_S4x2048x1024_S8192x1024_S4x2048x8192_2_1_01_0_n_n_wf
def dot_S4x2048x8192_S8192x1024_S4x2048x1024_2_0_01_1_n_n : DotDims S4x2048x8192 S8192x1024 S4x2048x1024 where
  lhsContracting := [2]
  rhsContracting := [0]
  lhsNonContracting := [0, 1]
  rhsNonContracting := [1]
  lhsBatch := []
  rhsBatch := []
  wf := dot_S4x2048x8192_S8192x1024_S4x2048x1024_2_0_01_1_n_n_wf

class Facts : Prop extends Facts₀ where

variable [Facts]
-- ==== Proof.K.Proj.lean ====
/-
  Region 0 of the kernel program: the fused projection  KV = M · [Wkᵀ | Wvᵀ], one block of 2048 memory rows per grid
  point. Stated at a PARAMETER V, the buffer contents the region is entered with: each window's block at a point, what the
  body leaves in the output's staging buffer (the one whole-block store of the matmul payload), the body's triple, the
  pipeline's proof data and the body obligation at every point.
-/
import proofs.«100357_g33603824124095_fold_wed_c4_546_8_alg».proof.Proof.Gen.Kernel.Launch
import proofs.«100357_g33603824124095_fold_wed_c4_546_8_alg».proof.Proof.Gen.Kernel.Skeleton
import proofs.«100357_g33603824124095_fold_wed_c4_546_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Proj
variable (V : (c : Dev nD) → (b : Ref sig .tc) → Buf (Elt F) ((c : Thread nD τ).loc b))

/-- Window `w`'s block at point `t`: the rows 2048·t … of M (window 0), all of the concatenated weights (window 1),
    read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three whole-buffer accesses. -/
abbrev r0_0 : Rect S2048x1024 := Rect.unit (s := S2048x1024) ![0, 0] S2048x1024.size inb_S2048x1024_S2048x1024_0_0
abbrev r0_1 : Rect S1024x2048 := Rect.unit (s := S1024x2048) ![0, 0] S1024x2048.size inb_S1024x2048_S1024x2048_0_0
abbrev r0_2 : Rect S2048x2048 := Rect.unit (s := S2048x2048) ![0, 0] S2048x2048.size inb_S2048x2048_S2048x2048_0_0

/-- What the body leaves in the output's staging buffer: the product of the two loaded blocks, stored whole. -/
def out0_2 (x0 : Vec F S2048x1024 .bf16) (x1 : Vec F S1024x2048 .bf16) : Vec F S2048x2048 .bf16 :=
  View.canon [⟨r0_2, k0_pay1 (View.ld x0 r0_0) (View.ld x1 r0_1)⟩]

/-- The one store covers the buffer. -/
theorem cover0_2 (p0 : Vec F S2048x2048 .bf16) (y : S2048x2048.Idx) :
    ∃ pc ∈ ([⟨r0_2, p0⟩] : List (View.Piece (Elt F) S2048x2048 .bf16)), y ∈ pc.1.set :=
  View.cover_of_tiled [⟨r0_2, p0⟩] S2048x2048.size (by rfl) y

set_option maxHeartbeats 1000000 in
/-- The projection body on whole staging memrefs: the inputs kept, the output at `out0_2` of them. -/
theorem sound_kernel0 (c : Dev nD) (E : Set ℕ) (i : grid0.Coords) (arg1 : Memref sig .tc .vmem S2048x1024 .bf16) (harg1 : arg1.IsWhole)
    (arg2 : Memref sig .tc .vmem S1024x2048 .bf16) (harg2 : arg2.IsWhole) (arg3 : Memref sig .tc .vmem S2048x2048 .bf16) (harg3 : arg3.IsWhole)
    (x0 : Vec F S2048x1024 .bf16) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection pipeline on core `c`: the arrays as the region finds them; after the body each
    input's buffer at its block, the output's at the product of the two blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Proj

end Cert.Kernel.Hand

end
-- ==== Proof.K.AttnRuns.lean ====
/-
  Region 1 of the kernel program, the attention pipeline over a grid of 8 query blocks × 4 key/value blocks: what its
  three control cases share. The body branches on the key/value coordinate j alone: j = 0 (the query block is narrowed
  into scratch, the first block's row maxima are taken as the exponent shift, the sums start), 0 < j (the sums are added
  to), j = 3 (the output block is stored). Here: the branch conditions in closed form over the grid, where the output
  window is idle, the staging and scratch memrefs by name, and the class invariant with the four scratch buffers named.
-/
import proofs.«100357_g33603824124095_fold_wed_c4_546_8_alg».proof.Proof.Gen.Kernel.Launch
import proofs.«100357_g33603824124095_fold_wed_c4_546_8_alg».proof.Proof.Gen.Kernel.Skeleton
import proofs.«100357_g33603824124095_fold_wed_c4_546_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- j = 0: the condition of the three `scf.if`s that initialise (the narrowed query, the shift, the two sums). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- 0 < j: the condition of the `scf.if` that accumulates. -/
abbrev cond1_4 (i : grid1.Coords) : Prop := (Scalar.cmpi .ne (Scalar.extui (Scalar.cmpi .sgt (BitVec.ofNat 32 (i 1).val) 0#32)) 0#32) = 1#1
theorem hcond1_4 : ∀ t : Fin cfg1.N, cond1_4 (grid1.coords t) ↔ ¬ t.val % 4 = 0 :=
  (by decide +kernel : ∀ t : Fin grid1.N, cond1_4 (grid1.coords t) ↔ ¬ t.val % 4 = 0)

/-- j = 3: the condition of the `scf.if` that stores the output block. -/
abbrev cond1_5 (i : grid1.Coords) : Prop := k1_cond5 i = 1#1
theorem hcond1_5 : ∀ t : Fin cfg1.N, cond1_5 (grid1.coords t) ↔ t.val % 4 = 3 :=
  (by decide +kernel : ∀ t : Fin grid1.N, cond1_5 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off j = 3 the output window is idle: nothing is stored into it, -/
theorem idleAt1_3 : ∀ t : Fin cfg1.N, ¬cond1_5 (grid1.coords t) → cfg1.idle 3 (grid1.coords t) = true := by decide +kernel
/-- and the pipeline does not write it back there; -/
theorem noFlush1_3 : ∀ t : Fin cfg1.N, ¬cond1_5 (grid1.coords t) → (cfg1.win 3).flush t = false := by decide +kernel
/-- at j = 3 it is live. -/
theorem liveAt1_3 : ∀ t : Fin cfg1.N, cond1_5 (grid1.coords t) → cfg1.idle 3 (grid1.coords t) = false := by decide +kernel

/-! ## The memrefs the body is called on -/

abbrev VO1_3 : View sig .tc .vmem S1024x1024 .f32 := (Memref.whole cc1_stg3_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The four scratch operands: the running weighted sum, the exponent shift, the running normaliser, the narrowed query. -/
abbrev scM1_0 : Memref sig .tc .vmem S1024x1024 .f32 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1024 .bf16 := Memref.whole cc1_scratch3
abbrev VS1_0 : View sig .tc .vmem S1024x1024 .f32 := scM1_0.view
abbrev VS1_1 : View sig .tc .vmem S1024x1 .f32 := scM1_1.view
abbrev VS1_2 : View sig .tc .vmem S1024x1 .f32 := scM1_2.view
abbrev VS1_3 : View sig .tc .vmem S1024x1024 .bf16 := scM1_3.view

/-- The other pipeline's staging buffers, which this region never touches: each whole at some contents. -/
abbrev oth1_0 (c : Dev nD) : sProp 𝕄 := iprop(∃ f : Buf (Elt F) ((c : Thread nD τ).loc cc0_stg0_0), ((c : Thread nD τ).loc cc0_stg0_0) ↦{fullShare} f)
abbrev oth1_1 (c : Dev nD) : sProp 𝕄 := iprop(∃ f : Buf (Elt F) ((c : Thread nD τ).loc cc0_stg0_1), ((c : Thread nD τ).loc cc0_stg0_1) ↦{fullShare} f)
abbrev oth1_2 (c : Dev nD) : sProp 𝕄 := iprop(∃ f : Buf (Elt F) ((c : Thread nD τ).loc cc0_stg1_0), ((c : Thread nD τ).loc cc0_stg1_0) ↦{fullShare} f)
abbrev oth1_3 (c : Dev nD) : sProp 𝕄 := iprop(∃ f : Buf (Elt F) ((c : Thread nD τ).loc cc0_stg2_0), ((c : Thread nD τ).loc cc0_stg2_0) ↦{fullShare} f)
abbrev oth1_4 (c : Dev nD) : sProp 𝕄 := iprop(∃ f : Buf (Elt F) ((c : Thread nD τ).loc cc0_stg2_1), ((c : Thread nD τ).loc cc0_stg2_1) ↦{fullShare} f)

/-- The class invariant with the scratch operands as memrefs owned at some contents. -/
theorem PhiA1_eq (c : Dev nD) :
    (Pipeline.ΦA spec1 c : sProp 𝕄)
      = iprop(iprop(oth1_0 c ∗ oth1_1 c ∗ oth1_2 c ∗ oth1_3 c ∗ oth1_4 c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.K.AttnRunA.lean ====
/-
  The attention body at a grid point with j = 0: the query block is narrowed into its scratch, the logits of the
  first key block are formed, their row maxima become the exponent shift, and the normaliser and the weighted sum start
  at this block's contributions. The output window is idle. What each scratch buffer ends with is found, as a list of
  stored pieces, by running the body symbolically.
-/
import proofs.«100357_g33603824124095_fold_wed_c4_546_8_alg».proof.Proof.K.AttnRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case j = 0. On whole memrefs — the three input blocks at `x0 x1 x2`, the idle output at `xi3` handed back
    untouched, the four scratch buffers at anything — the body runs to the continuation with the inputs as they were and
    every scratch buffer with its pieces written. -/
noncomputable def kernelRun1_A (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) :
    Σ' (L3 : List (View.Piece (Elt F) S1024x1024 .f32)) (LS0 : List (View.Piece (Elt F) S1024x1024 .f32)) (LS1 : List (View.Piece (Elt F) S1024x1 .f32)) (LS2 : List (View.Piece (Elt F) S1024x1 .f32)), { LS3 : List (View.Piece (Elt F) S1024x1024 .bf16) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Hand

end
-- ==== Proof.K.AttnRunB.lean ====
/-
  The attention body at a grid point with 0 < j < 3: the logits of this key block are formed from the narrowed query the
  scratch carries, shifted by the carried first-block maxima, and this block's contributions are added to the carried
  normaliser and weighted sum. The shift and the narrowed query are read and left as they are; the output window is idle.
-/
import proofs.«100357_g33603824124095_fold_wed_c4_546_8_alg».proof.Proof.K.AttnRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case 0 < j < 3. On whole memrefs — the input blocks at `x0 x1 x2`, the idle output at `xi3`, the scratch buffers
    at what the point before left (`xs0 … xs3`) — the body runs to the continuation with the inputs, the shift and the
    narrowed query as they were and the two sums with their pieces written. -/
noncomputable def kernelRun1_B (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    Σ' (L3 : List (View.Piece (Elt F) S1024x1024 .f32)) (LS0 : List (View.Piece (Elt F) S1024x1024 .f32)), { LS2 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ owns (c : Thread nD τ) arg7 fullShare xs1
                ∗ (∃ f, arg8.view.loc (c : Thread nD τ) ↦[arg8.view.set]{fullShare} arg8.view.writes (Elt F) f LS2)
                ∗ owns (c : Thread nD τ) arg9 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3
    sl_exec (disch := first | exact hc0 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]
    · iexists _; isplitr; · ipureintro; exact harg7.read_unread _
      iexact HS1
    isplitl [HS2]; · iexists _; iexact HS2
    iexists _; isplitr; · ipureintro; exact harg9.read_unread _
    iexact HS3

end Cert.Kernel.Hand

end
-- ==== Proof.K.AttnRunC.lean ====
/-
  The attention body at a grid point with j = 3, the last key block: as for 0 < j the block's contributions are added to
  the carried sums; then the output block is stored: the query block plus the weighted sum divided, row by row, by the
  normaliser.
-/
import proofs.«100357_g33603824124095_fold_wed_c4_546_8_alg».proof.Proof.K.AttnRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case j = 3. On whole memrefs — the input blocks at `x0 x1 x2`, the output at anything, the scratch buffers at what
    the point before left — the body runs to the continuation with the inputs, the shift and the narrowed query as they
    were, the two sums and the output with their pieces written. -/
noncomputable def kernelRun1_C (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    Σ' (L3 : List (View.Piece (Elt F) S1024x1024 .f32)) (LS0 : List (View.Piece (Elt F) S1024x1024 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ owns (c : Thread nD τ) arg7 fullShare xs1
                ∗ (∃ f, arg8.view.loc (c : Thread nD τ) ↦[arg8.view.set]{fullShare} arg8.view.writes (Elt F) f LS2)
                ∗ owns (c : Thread nD τ) arg9 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3
    sl_exec (disch := first | exact hc0 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]
    · iexists _; isplitr; · ipureintro; exact harg7.read_unread _
      iexact HS1
    isplitl [HS2]; · iexists _; iexact HS2
    iexists _; isplitr; · ipureintro; exact harg9.read_unread _
    iexact HS3

end Cert.Kernel.Hand

end
-- ==== Proof.K.Attn.lean ====
/-
  Region 1, the attention pipeline: what its scratch buffers and its output hold after every grid point, the proof
  data, and the body obligation. After the point (i, j) the scratch holds: the query block i narrowed; the row maxima of
  the logits against key block 0; the normaliser and the weighted sum accumulated over key blocks 0 … j. The output's
  staging buffer is stored at j = 3 only and idle elsewhere. Each case's contents are the pieces its symbolic run found,
  read back; the recursion over the points takes, where a case reads a scratch buffer before storing it, what the point
  before left there.
-/
import proofs.«100357_g33603824124095_fold_wed_c4_546_8_alg».proof.Proof.K.AttnRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves: covers and contents -/

theorem scover1_A_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) (y : S1024x1024.Idx) :
    ∃ pc ∈ (kernelRun1_A c i arg2 harg2 arg3 harg3 arg4 harg4 arg5 harg5 arg6 harg6 arg7 harg7 arg8 harg8 arg9 harg9 hc0 hc4 hc5 x0 x1 x2).2.1, y ∈ pc.1.set :=
  View.cover_of_tiledL (kernelRun1_A c i arg2 harg2 arg3 harg3 arg4 harg4 arg5 harg5 arg6 harg6 arg7 harg7 arg8 harg8 arg9 harg9 hc0 hc4 hc5 x0 x1 x2).2.1 S1024x1024.size (by sl_kernel_rfl) y
def sout1_A_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) : Vec F S1024x1024 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc4 hc5 x0 x1 x2).2.1)
theorem scover1_A_1 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) (y : S1024x1.Idx) :
    ∃ pc ∈ (kernelRun1_A c i arg2 harg2 arg3 harg3 arg4 harg4 arg5 harg5 arg6 harg6 arg7 harg7 arg8 harg8 arg9 harg9 hc0 hc4 hc5 x0 x1 x2).2.2.1, y ∈ pc.1.set :=
  View.cover_of_tiledL (kernelRun1_A c i arg2 harg2 arg3 harg3 arg4 harg4 arg5 harg5 arg6 harg6 arg7 harg7 arg8 harg8 arg9 harg9 hc0 hc4 hc5 x0 x1 x2).2.2.1 S1024x1.size (by sl_kernel_rfl) y
def sout1_A_1 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc4 hc5 x0 x1 x2).2.2.1)
theorem scover1_A_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) (y : S1024x1.Idx) :
    ∃ pc ∈ (kernelRun1_A c i arg2 harg2 arg3 harg3 arg4 harg4 arg5 harg5 arg6 harg6 arg7 harg7 arg8 harg8 arg9 harg9 hc0 hc4 hc5 x0 x1 x2).2.2.2.1, y ∈ pc.1.set :=
  View.cover_of_tiledL (kernelRun1_A c i arg2 harg2 arg3 harg3 arg4 harg4 arg5 harg5 arg6 harg6 arg7 harg7 arg8 harg8 arg9 harg9 hc0 hc4 hc5 x0 x1 x2).2.2.2.1 S1024x1.size (by sl_kernel_rfl) y
def sout1_A_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc4 hc5 x0 x1 x2).2.2.2.1)
theorem scover1_A_3 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) (y : S1024x1024.Idx) :
    ∃ pc ∈ (kernelRun1_A c i arg2 harg2 arg3 harg3 arg4 harg4 arg5 harg5 arg6 harg6 arg7 harg7 arg8 harg8 arg9 harg9 hc0 hc4 hc5 x0 x1 x2).2.2.2.2.1, y ∈ pc.1.set :=
  View.cover_of_tiledL (kernelRun1_A c i arg2 harg2 arg3 harg3 arg4 harg4 arg5 harg5 arg6 harg6 arg7 harg7 arg8 harg8 arg9 harg9 hc0 hc4 hc5 x0 x1 x2).2.2.2.2.1 S1024x1024.size (by sl_kernel_rfl) y
def sout1_A_3 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) : Vec F S1024x1024 .bf16 :=
  VS1_3.read (Elt F) (VS1_3.writes (Elt F) VS1_3.junk (kernelRun1_A c i arg2 harg2 arg3 harg3 arg4 harg4 arg5 harg5 arg6 harg6 arg7 harg7 arg8 harg8 arg9 harg9 hc0 hc4 hc5 x0 x1 x2).2.2.2.2.1)
theorem scover1_B_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1024.Idx) :
    ∃ pc ∈ (kernelRun1_B c i arg2 harg2 arg3 harg3 arg4 harg4 arg5 harg5 arg6 harg6 arg7 harg7 arg8 harg8 arg9 harg9 hc0 hc4 hc5 x0 x1 x2 xs0 xs1 xs2 xs3).2.1, y ∈ pc.1.set :=
  View.cover_of_tiledL (kernelRun1_B c i arg2 harg2 arg3 harg3 arg4 harg4 arg5 harg5 arg6 harg6 arg7 harg7 arg8 harg8 arg9 harg9 hc0 hc4 hc5 x0 x1 x2 xs0 xs1 xs2 xs3).2.1 S1024x1024.size (by sl_kernel_rfl) y
def sout1_B_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1024 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc4 hc5 x0 x1 x2 xs0 xs1 xs2 xs3).2.1)
theorem scover1_B_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1.Idx) :
    ∃ pc ∈ (kernelRun1_B c i arg2 harg2 arg3 harg3 arg4 harg4 arg5 harg5 arg6 harg6 arg7 harg7 arg8 harg8 arg9 harg9 hc0 hc4 hc5 x0 x1 x2 xs0 xs1 xs2 xs3).2.2.1, y ∈ pc.1.set :=
  View.cover_of_tiledL (kernelRun1_B c i arg2 harg2 arg3 harg3 arg4 harg4 arg5 harg5 arg6 harg6 arg7 harg7 arg8 harg8 arg9 harg9 hc0 hc4 hc5 x0 x1 x2 xs0 xs1 xs2 xs3).2.2.1 S1024x1.size (by sl_kernel_rfl) y
def sout1_B_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc4 hc5 x0 x1 x2 xs0 xs1 xs2 xs3).2.2.1)
theorem cover1_C_3 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1024.Idx) :
    ∃ pc ∈ (kernelRun1_C c i arg2 harg2 arg3 harg3 arg4 harg4 arg5 harg5 arg6 harg6 arg7 harg7 arg8 harg8 arg9 harg9 hc0 hc4 hc5 x0 x1 x2 xs0 xs1 xs2 xs3).1, y ∈ pc.1.set :=
  View.cover_of_tiledL (kernelRun1_C c i arg2 harg2 arg3 harg3 arg4 harg4 arg5 harg5 arg6 harg6 arg7 harg7 arg8 harg8 arg9 harg9 hc0 hc4 hc5 x0 x1 x2 xs0 xs1 xs2 xs3).1 S1024x1024.size (by sl_kernel_rfl) y
def out1_C_3 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1024 .f32 :=
  VO1_3.read (Elt F) (VO1_3.writes (Elt F) VO1_3.junk (kernelRun1_C c i arg2 harg2 arg3 harg3 arg4 harg4 arg5 harg5 arg6 harg6 arg7 harg7 arg8 harg8 arg9 harg9 hc0 hc4 hc5 x0 x1 x2 xs0 xs1 xs2 xs3).1)
theorem scover1_C_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1024.Idx) :
    ∃ pc ∈ (kernelRun1_C c i arg2 harg2 arg3 harg3 arg4 harg4 arg5 harg5 arg6 harg6 arg7 harg7 arg8 harg8 arg9 harg9 hc0 hc4 hc5 x0 x1 x2 xs0 xs1 xs2 xs3).2.1, y ∈ pc.1.set :=
  View.cover_of_tiledL (kernelRun1_C c i arg2 harg2 arg3 harg3 arg4 harg4 arg5 harg5 arg6 harg6 arg7 harg7 arg8 harg8 arg9 harg9 hc0 hc4 hc5 x0 x1 x2 xs0 xs1 xs2 xs3).2.1 S1024x1024.size (by sl_kernel_rfl) y
def sout1_C_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1024 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc4 hc5 x0 x1 x2 xs0 xs1 xs2 xs3).2.1)
theorem scover1_C_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1.Idx) :
    ∃ pc ∈ (kernelRun1_C c i arg2 harg2 arg3 harg3 arg4 harg4 arg5 harg5 arg6 harg6 arg7 harg7 arg8 harg8 arg9 harg9 hc0 hc4 hc5 x0 x1 x2 xs0 xs1 xs2 xs3).2.2.1, y ∈ pc.1.set :=
  View.cover_of_tiledL (kernelRun1_C c i arg2 harg2 arg3 harg3 arg4 harg4 arg5 harg5 arg6 harg6 arg7 harg7 arg8 harg8 arg9 harg9 hc0 hc4 hc5 x0 x1 x2 xs0 xs1 xs2 xs3).2.2.1 S1024x1.size (by sl_kernel_rfl) y
def sout1_C_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc4 hc5 x0 x1 x2 xs0 xs1 xs2 xs3).2.2.1)

section Attn
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The contents after a point: the output's staging buffer, then the four scratch buffers (weighted sum, shift,
    normaliser, narrowed query). -/
abbrev St1 : Type := Vec F S1024x1024 .f32 × Vec F S1024x1024 .f32 × Vec F S1024x1 .f32 × Vec F S1024x1 .f32 × Vec F S1024x1024 .bf16

/-- A placeholder for the output's staging buffer where it is idle: nothing consults it. -/
def idleOut : Vec F S1024x1024 .f32 := VO1_3.read (Elt F) VO1_3.junk

/-- After a point with j = 0. -/
def caseA (c : Dev nD) (t : Fin cfg1.N) (h0 : t.val % 4 = 0) : St1 (F := F) :=
  have hc0 : cond1_0 (grid1.coords t) := (hcond1_0 t).mpr h0
  have hc4 : ¬cond1_4 (grid1.coords t) := fun h => (hcond1_4 t).mp h h0
  have hc5 : ¬cond1_5 (grid1.coords t) := fun h => by have := (hcond1_5 t).mp h; omega
  (idleOut,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t),
   sout1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t))

/-- After a point with 0 < j < 3, over what the point before left. -/
def caseB (c : Dev nD) (t : Fin cfg1.N) (h0 : ¬t.val % 4 = 0) (h3 : ¬t.val % 4 = 3) (p : St1 (F := F)) : St1 (F := F) :=
  have hc0 : ¬cond1_0 (grid1.coords t) := fun h => h0 ((hcond1_0 t).mp h)
  have hc4 : cond1_4 (grid1.coords t) := (hcond1_4 t).mpr h0
  have hc5 : ¬cond1_5 (grid1.coords t) := fun h => h3 ((hcond1_5 t).mp h)
  (idleOut,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   p.2.2.1,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   p.2.2.2.2)

/-- After a point with j = 3, over what the point before left. -/
def caseC (c : Dev nD) (t : Fin cfg1.N) (h0 : ¬t.val % 4 = 0) (h3 : t.val % 4 = 3) (p : St1 (F := F)) : St1 (F := F) :=
  have hc0 : ¬cond1_0 (grid1.coords t) := fun h => h0 ((hcond1_0 t).mp h)
  have hc4 : cond1_4 (grid1.coords t) := (hcond1_4 t).mpr h0
  have hc5 : cond1_5 (grid1.coords t) := (hcond1_5 t).mpr h3
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   p.2.2.1,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   p.2.2.2.2)

/-- THE ACCUMULATION: what the output's staging buffer and the scratch buffers hold after the body at position `n`, by
    recursion on the position: the case j selects, over what position `n - 1` left. -/
def outsAt1 (c : Dev nD) : (n : ℕ) → n < cfg1.N → St1 (F := F)
  | 0, hn => caseA V c ⟨0, hn⟩ (Nat.zero_mod _)
  | n + 1, hn =>
    if h0 : (n + 1) % 4 = 0 then caseA V c ⟨n + 1, hn⟩ h0
    else if h3 : (n + 1) % 4 = 3 then caseC V c ⟨n + 1, hn⟩ h0 h3 (outsAt1 c n (Nat.lt_of_succ_lt hn))
    else caseB V c ⟨n + 1, hn⟩ h0 h3 (outsAt1 c n (Nat.lt_of_succ_lt hn))

theorem outsAt1_A (c : Dev nD) (t : Fin cfg1.N) (h0 : t.val % 4 = 0) :
    outsAt1 V c t.val t.isLt = caseA V c t h0 := by
  obtain ⟨n, hn⟩ := t
  cases n with
  | zero => exact rfl
  | succ n => exact (dif_pos h0).trans rfl

theorem outsAt1_B (c : Dev nD) (t : Fin cfg1.N) (h0 : ¬t.val % 4 = 0) (h3 : ¬t.val % 4 = 3) :
    outsAt1 V c t.val t.isLt = caseB V c t h0 h3 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

theorem outsAt1_C (c : Dev nD) (t : Fin cfg1.N) (h0 : ¬t.val % 4 = 0) (h3 : t.val % 4 = 3) :
    outsAt1 V c t.val t.isLt = caseC V c t h0 h3 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- The region invariant before position `n`: before the first point the class's (every scratch at anything);
    afterwards the other pipeline's staging buffers at anything, each scratch buffer at what the point before left in it,
    and the generator register at some state. -/
def PhiS (c : Dev nD) : (n : ℕ) → n ≤ cfg1.N → sProp 𝕄
  | 0, _ => Pipeline.ΦA spec1 c
  | n + 1, hn => iprop(iprop(oth1_0 c ∗ oth1_1 c ∗ oth1_2 c ∗ oth1_3 c ∗ oth1_4 c
      ∗ owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2.1) ∗ owns (c : Thread nD τ) scM1_3 fullShare ((outsAt1 V c n hn).2.2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth1_0 c ∗ oth1_1 c ∗ oth1_2 c ∗ oth1_3 c ∗ oth1_4 c
      ∗ owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS_pos (c : Dev nD) (n : ℕ) (h : n ≤ cfg1.N) (hz : n ≠ 0) :
    PhiS V c n h = iprop(iprop(oth1_0 c ∗ oth1_1 c ∗ oth1_2 c ∗ oth1_3 c ∗ oth1_4 c
      ∗ owns (c : Thread nD τ) scM1_0 fullShare ((outsAt1 V c (n - 1) (by omega)).2.1) ∗ owns (c : Thread nD τ) scM1_1 fullShare ((outsAt1 V c (n - 1) (by omega)).2.2.1)
      ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The pipeline's proof data -/

/-- The proof data of the attention pipeline on core `c`. The key/value array is read through two windows, each
    holding half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Attn

end Cert.Kernel.Hand

end
-- ==== Proof.K.AttnBody.lean ====
/-
  Region 1, the attention pipeline: the body obligation. At every grid point the inputs' staging buffers hold their
  blocks; the coordinate j selects the case; the invariant hands the body the scratch buffers at what the point before
  left (at anything at the very first point) and takes them back at this point's contents.
-/
import proofs.«100357_g33603824124095_fold_wed_c4_546_8_alg».proof.Proof.K.Attn

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section AttnBody
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · by_cases h3 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h3 ((hcond1_5 t).mp h))) (noFlush1_3 t (fun h => h3 ((hcond1_5 t).mp h)))]
      rw [outsAt1_A V c t h0]
      unfold caseA; dsimp only
      unfold sout1_A_0 sout1_A_1 sout1_A_2 sout1_A_3; (try dsimp only)
      by_cases hz : t.val = 0
      · rw [PhiS_castSucc V c t, PhiS_zero V c _ _ hz, PhiA1_eq]
        iintro ⟨⟨⟨Ho0, Ho1, Ho2, Ho3, Ho4, HS0, HS1, HS2, HS3⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => (hcond1_4 t).mp h h0) (fun h => h3 ((hcond1_5 t).mp h)) (iblk1 V c 0 t) (iblk1 V c 1 t) (iblk1 V c 2 t)).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [Ho0 Ho1 Ho2 Ho3 Ho4 HS0 HS1 HS2 HS3 Hg]
        · isplitr [Hg]
          · isplitl [Ho0]; · iexact Ho0
            isplitl [Ho1]; · iexact Ho1
            isplitl [Ho2]; · iexact Ho2
            isplitl [Ho3]; · iexact Ho3
            isplitl [Ho4]; · iexact Ho4
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Ho0, Ho1, Ho2, Ho3, Ho4, HS0, HS1, HS2, HS3⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => (hcond1_4 t).mp h h0) (fun h => h3 ((hcond1_5 t).mp h)) (iblk1 V c 0 t) (iblk1 V c 1 t) (iblk1 V c 2 t)).2.2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%es0, HS0⟩, ⟨%es1, HS1⟩, ⟨%es2, HS2⟩, ⟨%es3, HS3⟩⟩
        isplitl [Ho0 Ho1 Ho2 Ho3 Ho4 HS0 HS1 HS2 HS3 Hg]
        · isplitr [Hg]
          · isplitl [Ho0]; · iexact Ho0
            isplitl [Ho1]; · iexact Ho1
            isplitl [Ho2]; · iexact Ho2
            isplitl [Ho3]; · iexact Ho3
            isplitl [Ho4]; · iexact Ho4
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h3 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_5 t).mpr h3)], after1_3]
      rw [outsAt1_C V c t h0 h3]
      unfold caseC; dsimp only
      unfold out1_C_3 sout1_C_0 sout1_C_2; (try dsimp only)
      rw [PhiS_castSucc V c t, PhiS_pos V c _ _ hz]
      iintro ⟨⟨⟨Ho0, Ho1, Ho2, Ho3, Ho4, HS0, HS1, HS2, HS3⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ _ _ (fun h => h0 ((hcond1_0 t).mp h)) ((hcond1_4 t).mpr h0) ((hcond1_5 t).mpr h3) (iblk1 V c 0 t) (iblk1 V c 1 t) (iblk1 V c 2 t) _ _ _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, ⟨%es0, HS0⟩, HS1, ⟨%es2, HS2⟩, HS3⟩
      isplitl [Ho0 Ho1 Ho2 Ho3 Ho4 HS0 HS1 HS2 HS3 Hg]
      · isplitr [Hg]
        · isplitl [Ho0]; · iexact Ho0
          isplitl [Ho1]; · iexact Ho1
          isplitl [Ho2]; · iexact Ho2
          isplitl [Ho3]; · iexact Ho3
          isplitl [Ho4]; · iexact Ho4
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _)
          isplitl [HS1]; · iexact HS1
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h3 ((hcond1_5 t).mp h))) (noFlush1_3 t (fun h => h3 ((hcond1_5 t).mp h)))]
      rw [outsAt1_B V c t h0 h3]
      unfold caseB; dsimp only
      unfold sout1_B_0 sout1_B_2; (try dsimp only)
      rw [PhiS_castSucc V c t, PhiS_pos V c _ _ hz]
      iintro ⟨⟨⟨Ho0, Ho1, Ho2, Ho3, Ho4, HS0, HS1, HS2, HS3⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ _ _ (fun h => h0 ((hcond1_0 t).mp h)) ((hcond1_4 t).mpr h0) (fun h => h3 ((hcond1_5 t).mp h)) (iblk1 V c 0 t) (iblk1 V c 1 t) (iblk1 V c 2 t) _ _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%es0, HS0⟩, HS1, ⟨%es2, HS2⟩, HS3⟩
      isplitl [Ho0 Ho1 Ho2 Ho3 Ho4 HS0 HS1 HS2 HS3 Hg]
      · isplitr [Hg]
        · isplitl [Ho0]; · iexact Ho0
          isplitl [Ho1]; · iexact Ho1
          isplitl [Ho2]; · iexact Ho2
          isplitl [Ho3]; · iexact Ho3
          isplitl [Ho4]; · iexact Ho4
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _)
          isplitl [HS1]; · iexact HS1
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      iexists _; iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨Ho0, Ho1, Ho2, Ho3, Ho4, HS0, HS1, HS2, HS3⟩, Hg⟩
  isplitr [Hg]
  · isplitl [Ho0]; · iexact Ho0
    isplitl [Ho1]; · iexact Ho1
    isplitl [Ho2]; · iexact Ho2
    isplitl [Ho3]; · iexact Ho3
    isplitl [Ho4]; · iexact Ho4
    isplitl [HS0]; · iexists _; iexact HS0
    isplitl [HS1]; · iexists _; iexact HS1
    isplitl [HS2]; · iexists _; iexact HS2
    iexists _; iexact HS3
  iexact Hg

end AttnBody

end Cert.Kernel.Hand

end
-- ==== Proof.K.Frame.lean ====
/-
  The kernel program as a whole: @main is a stretch of host operations (the reshape of the queries, the two transposes,
  their concatenation, the two narrowings), the projection region, the attention region, and the closing reshape. Here:
  the buffer contents at every boundary (after the first stretch; after the projection wrote the key/value array; after
  the attention wrote its output; after the reshape), the two regions as segments over the thread state "every unscoped
  buffer at the boundary's contents", and the run: every weakly fair execution terminates, the arguments end unchanged,
  and the result buffer ends at the reshape of what the attention pipeline's write-backs leave.
  The key/value array is read by the attention region through TWO windows (its K half and its V half): the region holds it
  as two half shares, split at its entry and joined again at its exit.
-/
import proofs.«100357_g33603824124095_fold_wed_c4_546_8_alg».proof.Proof.K.Proj
import proofs.«100357_g33603824124095_fold_wed_c4_546_8_alg».proof.Proof.K.AttnBody
import proofs.«100357_g33603824124095_fold_wed_c4_546_8_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at the boundaries -/

/-- Core `c`'s buffers when the projection region is entered, read at a TensorCore reference. -/
abbrev Vr1 (c : Dev nD) (b : Ref sig .tc) : Buf (Elt F) ((c : Thread nD τ).loc b) := Gen.V1 m c b

/-- The key/value array as the projection's write-backs leave it. -/
def kvArr (c : Dev nD) : Buf (Elt F) ((c : Thread nD τ).loc main_v6) := (dat0 (Vr1 m) c).arrAt 2 cfg0.N

/-- After the projection region: the key/value array at `kvArr`, every other buffer as entered. -/
abbrev W2 (c : Dev nD) : Valuation τ sig (Elt F) := Function.update (Gen.V1 m c) main_v6 (kvArr m c)
abbrev Vr2 (c : Dev nD) (b : Ref sig .tc) : Buf (Elt F) ((c : Thread nD τ).loc b) := W2 m c b

/-- The attention output array as that region's write-backs leave it. -/
def outArr (c : Dev nD) : Buf (Elt F) ((c : Thread nD τ).loc main_v7) := (dat1 (Vr2 m) c).arrAt 3 cfg1.N

/-- After the attention region. -/
abbrev W3 (c : Dev nD) : Valuation τ sig (Elt F) := Function.update (W2 m c) main_v7 (outArr m c)
abbrev Vr3 (c : Dev nD) (b : Ref sig .tc) : Buf (Elt F) ((c : Thread nD τ).loc b) := W3 m c b

/-- What the regions leave, as the family the conditional frame is stated over. -/
def outs : Gen.Outs (F := F) := fun _ r c =>
  Function.update (Function.update (fun r => m ((c : Thread nD τ).loc r)) main_v6 (kvArr m c)) main_v7 (outArr m c) r

theorem v6_ne_v7 : (main_v6 : Ref sig .tc) ≠ main_v7 := by decide

theorem outs_v6 (J : ℕ) (c : Dev nD) : outs m J main_v6 c = kvArr m c := by
  unfold outs; rw [Function.update_of_ne v6_ne_v7, Function.update_self]
theorem outs_v7 (J : ℕ) (c : Dev nD) : outs m J main_v7 c = outArr m c := by
  unfold outs; rw [Function.update_self]

theorem V2_eq (c : Dev nD) : Gen.V2 m (outs m) c = W2 m c := by
  unfold Gen.V2 W2; rw [outs_v6]
theorem V3_eq (c : Dev nD) : Gen.V3 m (outs m) c = W3 m c := by
  unfold Gen.V3 W3; rw [outs_v7, V2_eq]

theorem W2_v6 (c : Dev nD) : Vr2 m c main_v6 = kvArr m c := Function.update_self ..
theorem W2_of_ne (c : Dev nD) (b : Ref sig .tc) (hb : b ≠ main_v6) : Vr2 m c b = Vr1 m c b :=
  Function.update_of_ne (StableHlo.devRef_ne_of_ne hb) ..
theorem W3_v7 (c : Dev nD) : Vr3 m c main_v7 = outArr m c := Function.update_self ..
theorem W3_of_ne (c : Dev nD) (b : Ref sig .tc) (hb : b ≠ main_v7) : Vr3 m c b = Vr2 m c b :=
  Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem hF0 (c : Dev nD) (w : Fin cfg0.W) : (dat0 (Vr1 m) c).arrAt w cfg0.N = Vr2 m c (Pipeline.arrRef spec0 w) := by
  match w with
  | ⟨0, _⟩ => exact (((dat0 (Vr1 m) c).arrAt_in 0 rfl _).trans (A_eq0 (Vr1 m) c 0)).trans (W2_of_ne m c _ (by decide)).symm
  | ⟨1, _⟩ => exact (((dat0 (Vr1 m) c).arrAt_in 1 rfl _).trans (A_eq0 (Vr1 m) c 1)).trans (W2_of_ne m c _ (by decide)).symm
  | ⟨2, _⟩ => exact (W2_v6 m c).symm
theorem hrest0 (c : Dev nD) : ∀ b, b ∉ Finset.univ.image (Pipeline.arrRef spec0) → Vr2 m c b = Vr1 m c b :=
  fun b hb => W2_of_ne m c b fun e => hb (Finset.mem_image.mpr ⟨2, Finset.mem_univ _, e.symm⟩)

set_option backward.isDefEq.respectTransparency.types false in
/-- The projection region as a segment: entered from every unscoped buffer at the contents after the first host stretch,
    left with the key/value array at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's arrays: the key/value array behind two windows -/

/-- The distinct buffers behind the attention region's arrays. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop(((c : Thread nD τ).loc main_v0 ↦{fullShare} V main_v0) ∗ ((c : Thread nD τ).loc main_v6 ↦{fullShare} V main_v6) ∗ ((c : Thread nD τ).loc main_v7 ↦{fullShare} V main_v7)) := by
  unfold Pipeline.arrBufs
  exact bigSep_eq_bigSepL_of_eq [main_v0, main_v6, main_v7] (by decide) (by decide) _

theorem unscopedBufs_split1 (c : Dev nD) (V : (b : Ref sig .tc) → Buf (Elt F) ((c : Thread nD τ).loc b)) :
    (unscopedBufs c V : sProp 𝕄) = iprop((((c : Thread nD τ).loc main_v0 ↦{fullShare} V main_v0) ∗ ((c : Thread nD τ).loc main_v6 ↦{fullShare} V main_v6) ∗ ((c : Thread nD τ).loc main_v7 ↦{fullShare} V main_v7))
      ∗ Pipeline.unscopedRest spec1 c V) := by
  rw [← arrBufs1_eq]
  exact Pipeline.unscopedBufs_split₀ (cfgs := cfgs) (p := 1) (by decide) c V

theorem share1_0 (c : Dev nD) (V : (c : Dev nD) → (b : Ref sig .tc) → Buf (Elt F) ((c : Thread nD τ).loc b)) : (dat1 V c).share 0 = fullShare := rfl
theorem share1_1 (c : Dev nD) (V : (c : Dev nD) → (b : Ref sig .tc) → Buf (Elt F) ((c : Thread nD τ).loc b)) : (dat1 V c).share 1 = fullShare.left := rfl
theorem share1_2 (c : Dev nD) (V : (c : Dev nD) → (b : Ref sig .tc) → Buf (Elt F) ((c : Thread nD τ).loc b)) : (dat1 V c).share 2 = fullShare.right := rfl
theorem share1_3 (c : Dev nD) (V : (c : Dev nD) → (b : Ref sig .tc) → Buf (Elt F) ((c : Thread nD τ).loc b)) : (dat1 V c).share 3 = fullShare := rfl

theorem arrays1_eq0 (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- The region's arrays as its proof data hold them: the queries and the output whole, the key/value array as a left half
    (the K window) and a right half (the V window). -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop(((c : Thread nD τ).loc main_v0 ↦{fullShare} G 0) ∗ ((c : Thread nD τ).loc main_v6 ↦{fullShare.left} G 1) ∗ ((c : Thread nD τ).loc main_v6 ↦{fullShare.right} G 2) ∗ ((c : Thread nD τ).loc main_v7 ↦{fullShare} G 3)) := by
  rw [arrays1_eq0, bigSep_W1, share1_0, share1_1, share1_2, share1_3]

/-- ENTRY: the unscoped buffers at `V` are the region's arrays at `V` — the key/value array split in two halves — and
    the unscoped rest. -/
theorem arrays1_of_unscopedBufs (c : Dev nD) (V : (c : Dev nD) → (b : Ref sig .tc) → Buf (Elt F) ((c : Thread nD τ).loc b)) :
    (unscopedBufs c (V c) : sProp 𝕄) ⊢ iprop((dat1 V c).arrays (dat1 V c).A ∗ Pipeline.unscopedRest spec1 c (V c)) := by
  rw [unscopedBufs_split1, arrays1_eq]
  iintro ⟨⟨H0, H6, H7⟩, Hrest⟩
  ihave H6' := (pointsTo_share (PosShare.mem_left_op_right fullShare)).1 $$ H6
  icases H6' with ⟨H6l, H6r⟩
  isplitr [Hrest]
  · isplitl [H0]; · iexact H0
    isplitl [H6l]; · iexact H6l
    isplitl [H6r]; · iexact H6r
    iexact H7
  iexact Hrest

/-- EXIT: the region's arrays at contents `G` — the two halves of the key/value array at the same contents — and the
    unscoped rest at `V` are the unscoped buffers at any `V'` that has the arrays at `G` and agrees with `V` elsewhere. -/
theorem unscopedBufs_of_arrays1 (c : Dev nD) (V : (c : Dev nD) → (b : Ref sig .tc) → Buf (Elt F) ((c : Thread nD τ).loc b))
    (V' : (b : Ref sig .tc) → Buf (Elt F) ((c : Thread nD τ).loc b))
    (G : (w : Fin cfg1.W) → Buf (Elt F) ((cfg1.win w).arr.view.loc (c : Thread nD τ)))
    (h0 : G 0 = V' main_v0) (h1 : G 1 = V' main_v6) (h2 : G 2 = V' main_v6) (h3 : G 3 = V' main_v7)
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [unscopedBufs_split1, arrays1_eq, h0, h1, h2, h3]
  iintro ⟨⟨H0, H6l, H6r, H7⟩, Hrest⟩
  isplitr [Hrest]
  · isplitl [H0]; · iexact H0
    isplitr [H7]
    · iapply (pointsTo_share (PosShare.mem_left_op_right fullShare)).2
      isplitl [H6l]; · iexact H6l
      iexact H6r
    iexact H7
  iapply (Entails.of_eq (show Pipeline.unscopedRest spec1 c (V c) = (Pipeline.unscopedRest spec1 c V' : sProp 𝕄) from by
    unfold Pipeline.unscopedRest
    exact bigSep_congr fun b hb => by rw [hrest b (Finset.mem_sdiff.mp hb).2]))
  iexact Hrest

theorem hF1_0 (c : Dev nD) : (dat1 (Vr2 m) c).arrAt 0 cfg1.N = Vr3 m c main_v0 :=
  (((dat1 (Vr2 m) c).arrAt_in 0 rfl _).trans (A_eq1 (Vr2 m) c 0)).trans (W3_of_ne m c main_v0 (by decide)).symm
theorem hF1_1 (c : Dev nD) : (dat1 (Vr2 m) c).arrAt 1 cfg1.N = Vr3 m c main_v6 :=
  (((dat1 (Vr2 m) c).arrAt_in 1 rfl _).trans (A_eq1 (Vr2 m) c 1)).trans (W3_of_ne m c main_v6 v6_ne_v7).symm
theorem hF1_2 (c : Dev nD) : (dat1 (Vr2 m) c).arrAt 2 cfg1.N = Vr3 m c main_v6 :=
  (((dat1 (Vr2 m) c).arrAt_in 2 rfl _).trans (A_eq1 (Vr2 m) c 2)).trans (W3_of_ne m c main_v6 v6_ne_v7).symm
theorem hF1_3 (c : Dev nD) : (dat1 (Vr2 m) c).arrAt 3 cfg1.N = Vr3 m c main_v7 := (W3_v7 m c).symm
theorem hrest1 (c : Dev nD) : ∀ b, b ∉ Finset.univ.image (Pipeline.arrRef spec1) → Vr3 m c b = Vr2 m c b :=
  fun b hb => W3_of_ne m c b fun e => hb (Finset.mem_image.mpr ⟨3, Finset.mem_univ _, e.symm⟩)

set_option backward.isDefEq.respectTransparency.types false in
/-- The attention region as a segment: entered from every unscoped buffer at the contents the projection left, left with
    the output array at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := arrays1_of_unscopedBufs c (Vr2 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vr2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vr2 m c))
        ⊢ (unscopedBufs c (Vr3 m c) : sProp 𝕄) :=
      unscopedBufs_of_arrays1 c (Vr2 m) (Vr3 m c) ((pdats m 1 c).arrAt · cfg1.N) (hF1_0 m c) (hF1_1 m c) (hF1_2 m c) (hF1_3 m c) (hrest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/-
  The run of the kernel program with its RESULT: every weakly fair execution of @main terminates, the arguments end
  unchanged, and the result buffer ends at what the closing reshape makes of the attention region's output array.
  First for any choice of the regions' segment records (the launch over the four segments: the host stretch, the two
  regions, the host stretch; the last thread state read against the final memory), then at this certificate's records.
-/
import proofs.«100357_g33603824124095_fold_wed_c4_546_8_alg».proof.Proof.K.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

set_option backward.isDefEq.respectTransparency.types false in
/-- The run, given the regions' records: as the frame, with the result buffer read off the last valuation too. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V2 m outs c) ∗ E 1 c) ⊢ R1.pre c)
    (hpost1 : ∀ c : Dev nD, R1.post c ⊢ iprop(StableHlo.held (c : Thread nD τ) (Pipeline.ucRefs τ sig) (Gen.V3 m outs c) ∗ E 2 c)) :
    θ_run defs (onTc (τ := τ) (main (F := F))) ⟨m, fun _ => 0, ρ⟩ (fun r => ∀ c : Dev nD,
      r.2.mem ((c.tc : Thread nD τ).loc main_v8) = Gen.V4 m outs c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m outs c))
    (hch := fun c => ⟨.rfl, hpre0 c, (hpost0 c).trans (hpre1 c), hpost1 c, sep_mono .rfl (hE2 c)⟩)
    (hinit := ?_) (QY := fun c s => s.mem ((c.tc : Thread nD τ).loc main_v8) = Gen.V4 m outs c main_v8 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V4 m outs c) s') $$ [Hh HSI]
    · isplitl [Hh] <;> iassumption
    icases Hr with ⟨%h, HSI⟩
    imodintro
    isplitr
    · ipureintro
      exact ⟨h (Proc.devRef .tc main_v8) (Finset.mem_filter.mpr ⟨StableHlo.devRef_mem_tcRefs main_v8, by decide⟩),
        (h (Proc.devRef .tc main_arg0) (Finset.mem_filter.mpr ⟨StableHlo.devRef_mem_tcRefs main_arg0, by decide⟩)).trans (Gen.V4_main_arg0 m outs c),
        (h (Proc.devRef .tc main_arg1) (Finset.mem_filter.mpr ⟨StableHlo.devRef_mem_tcRefs main_arg1, by decide⟩)).trans (Gen.V4_main_arg1 m outs c),
        (h (Proc.devRef .tc main_arg2) (Finset.mem_filter.mpr ⟨StableHlo.devRef_mem_tcRefs main_arg2, by decide⟩)).trans (Gen.V4_main_arg2 m outs c),
        (h (Proc.devRef .tc main_arg3) (Finset.mem_filter.mpr ⟨StableHlo.devRef_mem_tcRefs main_arg3, by decide⟩)).trans (Gen.V4_main_arg3 m outs c)⟩
    · iexact HSI

set_option backward.isDefEq.respectTransparency.types false in
/-- THE RUN at this certificate's records: nothing owed at launch, no resources beyond the pipeline library's, the generator
    register and the core's (empty) debts riding along every segment. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v8) = Gen.V4 m (outs m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

/-- THE FRAME of the kernel program: it runs to the end, faults nowhere and leaves its arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Hand

end
-- ==== Proof.KI.Proj.lean ====
/-
  Region 0 of the kernel program: the fused projection  KV = M · [Wkᵀ | Wvᵀ], one block of 2048 memory rows per grid
  point. Stated at a PARAMETER V, the buffer contents the region is entered with: each window's block at a point, what the
  body leaves in the output's staging buffer (the one whole-block store of the matmul payload), the body's triple, the
  pipeline's proof data and the body obligation at every point.
-/
import proofs.«100357_g33603824124095_fold_wed_c4_546_8_alg».proof.Proof.Gen.KernelIdeal.Launch
import proofs.«100357_g33603824124095_fold_wed_c4_546_8_alg».proof.Proof.Gen.KernelIdeal.Skeleton
import proofs.«100357_g33603824124095_fold_wed_c4_546_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Proj
variable (V : (c : Dev nD) → (b : Ref sig .tc) → Buf (Elt F) ((c : Thread nD τ).loc b))

/-- Window `w`'s block at point `t`: the rows 2048·t … of M (window 0), all of the concatenated weights (window 1),
    read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three whole-buffer accesses. -/
abbrev r0_0 : Rect S2048x1024 := Rect.unit (s := S2048x1024) ![0, 0] S2048x1024.size inb_S2048x1024_S2048x1024_0_0
abbrev r0_1 : Rect S1024x2048 := Rect.unit (s := S1024x2048) ![0, 0] S1024x2048.size inb_S1024x2048_S1024x2048_0_0
abbrev r0_2 : Rect S2048x2048 := Rect.unit (s := S2048x2048) ![0, 0] S2048x2048.size inb_S2048x2048_S2048x2048_0_0

/-- What the body leaves in the output's staging buffer: the product of the two loaded blocks, stored whole. -/
def out0_2 (x0 : Vec F S2048x1024 .bf16) (x1 : Vec F S1024x2048 .bf16) : Vec F S2048x2048 .bf16 :=
  View.canon [⟨r0_2, k0_pay1 (View.ld x0 r0_0) (View.ld x1 r0_1)⟩]

/-- The one store covers the buffer. -/
theorem cover0_2 (p0 : Vec F S2048x2048 .bf16) (y : S2048x2048.Idx) :
    ∃ pc ∈ ([⟨r0_2, p0⟩] : List (View.Piece (Elt F) S2048x2048 .bf16)), y ∈ pc.1.set :=
  View.cover_of_tiled [⟨r0_2, p0⟩] S2048x2048.size (by rfl) y

set_option maxHeartbeats 1000000 in
/-- The projection body on whole staging memrefs: the inputs kept, the output at `out0_2` of them. -/
theorem sound_kernel0 (c : Dev nD) (E : Set ℕ) (i : grid0.Coords) (arg1 : Memref sig .tc .vmem S2048x1024 .bf16) (harg1 : arg1.IsWhole)
    (arg2 : Memref sig .tc .vmem S1024x2048 .bf16) (harg2 : arg2.IsWhole) (arg3 : Memref sig .tc .vmem S2048x2048 .bf16) (harg3 : arg3.IsWhole)
    (x0 : Vec F S2048x1024 .bf16) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection pipeline on core `c`: the arrays as the region finds them; after the body each
    input's buffer at its block, the output's at the product of the two blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Proj

end Cert.KernelIdeal.Hand

end
-- ==== Proof.KI.AttnRuns.lean ====
/-
  Region 1 of the kernel program, the attention pipeline over a grid of 8 query blocks × 4 key/value blocks: what its
  three control cases share. The body branches on the key/value coordinate j alone: j = 0 (the query block is narrowed
  into scratch, the first block's row maxima are taken as the exponent shift, the sums start), 0 < j (the sums are added
  to), j = 3 (the output block is stored). Here: the branch conditions in closed form over the grid, where the output
  window is idle, the staging and scratch memrefs by name, and the class invariant with the four scratch buffers named.
-/
import proofs.«100357_g33603824124095_fold_wed_c4_546_8_alg».proof.Proof.Gen.KernelIdeal.Launch
import proofs.«100357_g33603824124095_fold_wed_c4_546_8_alg».proof.Proof.Gen.KernelIdeal.Skeleton
import proofs.«100357_g33603824124095_fold_wed_c4_546_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- j = 0: the condition of the three `scf.if`s that initialise (the narrowed query, the shift, the two sums). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- 0 < j: the condition of the `scf.if` that accumulates. -/
abbrev cond1_4 (i : grid1.Coords) : Prop := (Scalar.cmpi .ne (Scalar.extui (Scalar.cmpi .sgt (BitVec.ofNat 32 (i 1).val) 0#32)) 0#32) = 1#1
theorem hcond1_4 : ∀ t : Fin cfg1.N, cond1_4 (grid1.coords t) ↔ ¬ t.val % 4 = 0 :=
  (by decide +kernel : ∀ t : Fin grid1.N, cond1_4 (grid1.coords t) ↔ ¬ t.val % 4 = 0)

/-- j = 3: the condition of the `scf.if` that stores the output block. -/
abbrev cond1_5 (i : grid1.Coords) : Prop := k1_cond5 i = 1#1
theorem hcond1_5 : ∀ t : Fin cfg1.N, cond1_5 (grid1.coords t) ↔ t.val % 4 = 3 :=
  (by decide +kernel : ∀ t : Fin grid1.N, cond1_5 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off j = 3 the output window is idle: nothing is stored into it, -/
theorem idleAt1_3 : ∀ t : Fin cfg1.N, ¬cond1_5 (grid1.coords t) → cfg1.idle 3 (grid1.coords t) = true := by decide +kernel
/-- and the pipeline does not write it back there; -/
theorem noFlush1_3 : ∀ t : Fin cfg1.N, ¬cond1_5 (grid1.coords t) → (cfg1.win 3).flush t = false := by decide +kernel
/-- at j = 3 it is live. -/
theorem liveAt1_3 : ∀ t : Fin cfg1.N, cond1_5 (grid1.coords t) → cfg1.idle 3 (grid1.coords t) = false := by decide +kernel

/-! ## The memrefs the body is called on -/

abbrev VO1_3 : View sig .tc .vmem S1024x1024 .f32 := (Memref.whole cc1_stg3_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The four scratch operands: the running weighted sum, the exponent shift, the running normaliser, the narrowed query. -/
abbrev scM1_0 : Memref sig .tc .vmem S1024x1024 .f32 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1024 .bf16 := Memref.whole cc1_scratch3
abbrev VS1_0 : View sig .tc .vmem S1024x1024 .f32 := scM1_0.view
abbrev VS1_1 : View sig .tc .vmem S1024x1 .f32 := scM1_1.view
abbrev VS1_2 : View sig .tc .vmem S1024x1 .f32 := scM1_2.view
abbrev VS1_3 : View sig .tc .vmem S1024x1024 .bf16 := scM1_3.view

/-- The other pipeline's staging buffers, which this region never touches: each whole at some contents. -/
abbrev oth1_0 (c : Dev nD) : sProp 𝕄 := iprop(∃ f : Buf (Elt F) ((c : Thread nD τ).loc cc0_stg0_0), ((c : Thread nD τ).loc cc0_stg0_0) ↦{fullShare} f)
abbrev oth1_1 (c : Dev nD) : sProp 𝕄 := iprop(∃ f : Buf (Elt F) ((c : Thread nD τ).loc cc0_stg0_1), ((c : Thread nD τ).loc cc0_stg0_1) ↦{fullShare} f)
abbrev oth1_2 (c : Dev nD) : sProp 𝕄 := iprop(∃ f : Buf (Elt F) ((c : Thread nD τ).loc cc0_stg1_0), ((c : Thread nD τ).loc cc0_stg1_0) ↦{fullShare} f)
abbrev oth1_3 (c : Dev nD) : sProp 𝕄 := iprop(∃ f : Buf (Elt F) ((c : Thread nD τ).loc cc0_stg2_0), ((c : Thread nD τ).loc cc0_stg2_0) ↦{fullShare} f)
abbrev oth1_4 (c : Dev nD) : sProp 𝕄 := iprop(∃ f : Buf (Elt F) ((c : Thread nD τ).loc cc0_stg2_1), ((c : Thread nD τ).loc cc0_stg2_1) ↦{fullShare} f)

/-- The class invariant with the scratch operands as memrefs owned at some contents. -/
theorem PhiA1_eq (c : Dev nD) :
    (Pipeline.ΦA spec1 c : sProp 𝕄)
      = iprop(iprop(oth1_0 c ∗ oth1_1 c ∗ oth1_2 c ∗ oth1_3 c ∗ oth1_4 c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KI.AttnRunA.lean ====
/-
  The attention body at a grid point with j = 0: the query block is narrowed into its scratch, the logits of the
  first key block are formed, their row maxima become the exponent shift, and the normaliser and the weighted sum start
  at this block's contributions. The output window is idle. What each scratch buffer ends with is found, as a list of
  stored pieces, by running the body symbolically.
-/
import proofs.«100357_g33603824124095_fold_wed_c4_546_8_alg».proof.Proof.KI.AttnRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case j = 0. On whole memrefs — the three input blocks at `x0 x1 x2`, the idle output at `xi3` handed back
    untouched, the four scratch buffers at anything — the body runs to the continuation with the inputs as they were and
    every scratch buffer with its pieces written. -/
noncomputable def kernelRun1_A (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) :
    Σ' (L3 : List (View.Piece (Elt F) S1024x1024 .f32)) (LS0 : List (View.Piece (Elt F) S1024x1024 .f32)) (LS1 : List (View.Piece (Elt F) S1024x1 .f32)) (LS2 : List (View.Piece (Elt F) S1024x1 .f32)), { LS3 : List (View.Piece (Elt F) S1024x1024 .bf16) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Hand

end
-- ==== Proof.KI.AttnRunB.lean ====
/-
  The attention body at a grid point with 0 < j < 3: the logits of this key block are formed from the narrowed query the
  scratch carries, shifted by the carried first-block maxima, and this block's contributions are added to the carried
  normaliser and weighted sum. The shift and the narrowed query are read and left as they are; the output window is idle.
-/
import proofs.«100357_g33603824124095_fold_wed_c4_546_8_alg».proof.Proof.KI.AttnRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case 0 < j < 3. On whole memrefs — the input blocks at `x0 x1 x2`, the idle output at `xi3`, the scratch buffers
    at what the point before left (`xs0 … xs3`) — the body runs to the continuation with the inputs, the shift and the
    narrowed query as they were and the two sums with their pieces written. -/
noncomputable def kernelRun1_B (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    Σ' (L3 : List (View.Piece (Elt F) S1024x1024 .f32)) (LS0 : List (View.Piece (Elt F) S1024x1024 .f32)), { LS2 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ owns (c : Thread nD τ) arg7 fullShare xs1
                ∗ (∃ f, arg8.view.loc (c : Thread nD τ) ↦[arg8.view.set]{fullShare} arg8.view.writes (Elt F) f LS2)
                ∗ owns (c : Thread nD τ) arg9 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3
    sl_exec (disch := first | exact hc0 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]
    · iexists _; isplitr; · ipureintro; exact harg7.read_unread _
      iexact HS1
    isplitl [HS2]; · iexists _; iexact HS2
    iexists _; isplitr; · ipureintro; exact harg9.read_unread _
    iexact HS3

end Cert.KernelIdeal.Hand

end
-- ==== Proof.KI.AttnRunC.lean ====
/-
  The attention body at a grid point with j = 3, the last key block: as for 0 < j the block's contributions are added to
  the carried sums; then the output block is stored: the query block plus the weighted sum divided, row by row, by the
  normaliser.
-/
import proofs.«100357_g33603824124095_fold_wed_c4_546_8_alg».proof.Proof.KI.AttnRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case j = 3. On whole memrefs — the input blocks at `x0 x1 x2`, the output at anything, the scratch buffers at what
    the point before left — the body runs to the continuation with the inputs, the shift and the narrowed query as they
    were, the two sums and the output with their pieces written. -/
noncomputable def kernelRun1_C (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    Σ' (L3 : List (View.Piece (Elt F) S1024x1024 .f32)) (LS0 : List (View.Piece (Elt F) S1024x1024 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ owns (c : Thread nD τ) arg7 fullShare xs1
                ∗ (∃ f, arg8.view.loc (c : Thread nD τ) ↦[arg8.view.set]{fullShare} arg8.view.writes (Elt F) f LS2)
                ∗ owns (c : Thread nD τ) arg9 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3
    sl_exec (disch := first | exact hc0 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]
    · iexists _; isplitr; · ipureintro; exact harg7.read_unread _
      iexact HS1
    isplitl [HS2]; · iexists _; iexact HS2
    iexists _; isplitr; · ipureintro; exact harg9.read_unread _
    iexact HS3

end Cert.KernelIdeal.Hand

end
-- ==== Proof.KI.Attn.lean ====
/-
  Region 1, the attention pipeline: what its scratch buffers and its output hold after every grid point, the proof
  data, and the body obligation. After the point (i, j) the scratch holds: the query block i narrowed; the row maxima of
  the logits against key block 0; the normaliser and the weighted sum accumulated over key blocks 0 … j. The output's
  staging buffer is stored at j = 3 only and idle elsewhere. Each case's contents are the pieces its symbolic run found,
  read back; the recursion over the points takes, where a case reads a scratch buffer before storing it, what the point
  before left there.
-/
import proofs.«100357_g33603824124095_fold_wed_c4_546_8_alg».proof.Proof.KI.AttnRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves: covers and contents -/

theorem scover1_A_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) (y : S1024x1024.Idx) :
    ∃ pc ∈ (kernelRun1_A c i arg2 harg2 arg3 harg3 arg4 harg4 arg5 harg5 arg6 harg6 arg7 harg7 arg8 harg8 arg9 harg9 hc0 hc4 hc5 x0 x1 x2).2.1, y ∈ pc.1.set :=
  View.cover_of_tiledL (kernelRun1_A c i arg2 harg2 arg3 harg3 arg4 harg4 arg5 harg5 arg6 harg6 arg7 harg7 arg8 harg8 arg9 harg9 hc0 hc4 hc5 x0 x1 x2).2.1 S1024x1024.size (by sl_kernel_rfl) y
def sout1_A_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) : Vec F S1024x1024 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc4 hc5 x0 x1 x2).2.1)
theorem scover1_A_1 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) (y : S1024x1.Idx) :
    ∃ pc ∈ (kernelRun1_A c i arg2 harg2 arg3 harg3 arg4 harg4 arg5 harg5 arg6 harg6 arg7 harg7 arg8 harg8 arg9 harg9 hc0 hc4 hc5 x0 x1 x2).2.2.1, y ∈ pc.1.set :=
  View.cover_of_tiledL (kernelRun1_A c i arg2 harg2 arg3 harg3 arg4 harg4 arg5 harg5 arg6 harg6 arg7 harg7 arg8 harg8 arg9 harg9 hc0 hc4 hc5 x0 x1 x2).2.2.1 S1024x1.size (by sl_kernel_rfl) y
def sout1_A_1 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc4 hc5 x0 x1 x2).2.2.1)
theorem scover1_A_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) (y : S1024x1.Idx) :
    ∃ pc ∈ (kernelRun1_A c i arg2 harg2 arg3 harg3 arg4 harg4 arg5 harg5 arg6 harg6 arg7 harg7 arg8 harg8 arg9 harg9 hc0 hc4 hc5 x0 x1 x2).2.2.2.1, y ∈ pc.1.set :=
  View.cover_of_tiledL (kernelRun1_A c i arg2 harg2 arg3 harg3 arg4 harg4 arg5 harg5 arg6 harg6 arg7 harg7 arg8 harg8 arg9 harg9 hc0 hc4 hc5 x0 x1 x2).2.2.2.1 S1024x1.size (by sl_kernel_rfl) y
def sout1_A_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc4 hc5 x0 x1 x2).2.2.2.1)
theorem scover1_A_3 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) (y : S1024x1024.Idx) :
    ∃ pc ∈ (kernelRun1_A c i arg2 harg2 arg3 harg3 arg4 harg4 arg5 harg5 arg6 harg6 arg7 harg7 arg8 harg8 arg9 harg9 hc0 hc4 hc5 x0 x1 x2).2.2.2.2.1, y ∈ pc.1.set :=
  View.cover_of_tiledL (kernelRun1_A c i arg2 harg2 arg3 harg3 arg4 harg4 arg5 harg5 arg6 harg6 arg7 harg7 arg8 harg8 arg9 harg9 hc0 hc4 hc5 x0 x1 x2).2.2.2.2.1 S1024x1024.size (by sl_kernel_rfl) y
def sout1_A_3 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) : Vec F S1024x1024 .bf16 :=
  VS1_3.read (Elt F) (VS1_3.writes (Elt F) VS1_3.junk (kernelRun1_A c i arg2 harg2 arg3 harg3 arg4 harg4 arg5 harg5 arg6 harg6 arg7 harg7 arg8 harg8 arg9 harg9 hc0 hc4 hc5 x0 x1 x2).2.2.2.2.1)
theorem scover1_B_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1024.Idx) :
    ∃ pc ∈ (kernelRun1_B c i arg2 harg2 arg3 harg3 arg4 harg4 arg5 harg5 arg6 harg6 arg7 harg7 arg8 harg8 arg9 harg9 hc0 hc4 hc5 x0 x1 x2 xs0 xs1 xs2 xs3).2.1, y ∈ pc.1.set :=
  View.cover_of_tiledL (kernelRun1_B c i arg2 harg2 arg3 harg3 arg4 harg4 arg5 harg5 arg6 harg6 arg7 harg7 arg8 harg8 arg9 harg9 hc0 hc4 hc5 x0 x1 x2 xs0 xs1 xs2 xs3).2.1 S1024x1024.size (by sl_kernel_rfl) y
def sout1_B_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1024 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc4 hc5 x0 x1 x2 xs0 xs1 xs2 xs3).2.1)
theorem scover1_B_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1.Idx) :
    ∃ pc ∈ (kernelRun1_B c i arg2 harg2 arg3 harg3 arg4 harg4 arg5 harg5 arg6 harg6 arg7 harg7 arg8 harg8 arg9 harg9 hc0 hc4 hc5 x0 x1 x2 xs0 xs1 xs2 xs3).2.2.1, y ∈ pc.1.set :=
  View.cover_of_tiledL (kernelRun1_B c i arg2 harg2 arg3 harg3 arg4 harg4 arg5 harg5 arg6 harg6 arg7 harg7 arg8 harg8 arg9 harg9 hc0 hc4 hc5 x0 x1 x2 xs0 xs1 xs2 xs3).2.2.1 S1024x1.size (by sl_kernel_rfl) y
def sout1_B_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc4 hc5 x0 x1 x2 xs0 xs1 xs2 xs3).2.2.1)
theorem cover1_C_3 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1024.Idx) :
    ∃ pc ∈ (kernelRun1_C c i arg2 harg2 arg3 harg3 arg4 harg4 arg5 harg5 arg6 harg6 arg7 harg7 arg8 harg8 arg9 harg9 hc0 hc4 hc5 x0 x1 x2 xs0 xs1 xs2 xs3).1, y ∈ pc.1.set :=
  View.cover_of_tiledL (kernelRun1_C c i arg2 harg2 arg3 harg3 arg4 harg4 arg5 harg5 arg6 harg6 arg7 harg7 arg8 harg8 arg9 harg9 hc0 hc4 hc5 x0 x1 x2 xs0 xs1 xs2 xs3).1 S1024x1024.size (by sl_kernel_rfl) y
def out1_C_3 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1024 .f32 :=
  VO1_3.read (Elt F) (VO1_3.writes (Elt F) VO1_3.junk (kernelRun1_C c i arg2 harg2 arg3 harg3 arg4 harg4 arg5 harg5 arg6 harg6 arg7 harg7 arg8 harg8 arg9 harg9 hc0 hc4 hc5 x0 x1 x2 xs0 xs1 xs2 xs3).1)
theorem scover1_C_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1024.Idx) :
    ∃ pc ∈ (kernelRun1_C c i arg2 harg2 arg3 harg3 arg4 harg4 arg5 harg5 arg6 harg6 arg7 harg7 arg8 harg8 arg9 harg9 hc0 hc4 hc5 x0 x1 x2 xs0 xs1 xs2 xs3).2.1, y ∈ pc.1.set :=
  View.cover_of_tiledL (kernelRun1_C c i arg2 harg2 arg3 harg3 arg4 harg4 arg5 harg5 arg6 harg6 arg7 harg7 arg8 harg8 arg9 harg9 hc0 hc4 hc5 x0 x1 x2 xs0 xs1 xs2 xs3).2.1 S1024x1024.size (by sl_kernel_rfl) y
def sout1_C_0 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1024 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc4 hc5 x0 x1 x2 xs0 xs1 xs2 xs3).2.1)
theorem scover1_C_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) (y : S1024x1.Idx) :
    ∃ pc ∈ (kernelRun1_C c i arg2 harg2 arg3 harg3 arg4 harg4 arg5 harg5 arg6 harg6 arg7 harg7 arg8 harg8 arg9 harg9 hc0 hc4 hc5 x0 x1 x2 xs0 xs1 xs2 xs3).2.2.1, y ∈ pc.1.set :=
  View.cover_of_tiledL (kernelRun1_C c i arg2 harg2 arg3 harg3 arg4 harg4 arg5 harg5 arg6 harg6 arg7 harg7 arg8 harg8 arg9 harg9 hc0 hc4 hc5 x0 x1 x2 xs0 xs1 xs2 xs3).2.2.1 S1024x1.size (by sl_kernel_rfl) y
def sout1_C_2 (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc4 hc5 x0 x1 x2 xs0 xs1 xs2 xs3).2.2.1)

section Attn
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The contents after a point: the output's staging buffer, then the four scratch buffers (weighted sum, shift,
    normaliser, narrowed query). -/
abbrev St1 : Type := Vec F S1024x1024 .f32 × Vec F S1024x1024 .f32 × Vec F S1024x1 .f32 × Vec F S1024x1 .f32 × Vec F S1024x1024 .bf16

/-- A placeholder for the output's staging buffer where it is idle: nothing consults it. -/
def idleOut : Vec F S1024x1024 .f32 := VO1_3.read (Elt F) VO1_3.junk

/-- After a point with j = 0. -/
def caseA (c : Dev nD) (t : Fin cfg1.N) (h0 : t.val % 4 = 0) : St1 (F := F) :=
  have hc0 : cond1_0 (grid1.coords t) := (hcond1_0 t).mpr h0
  have hc4 : ¬cond1_4 (grid1.coords t) := fun h => (hcond1_4 t).mp h h0
  have hc5 : ¬cond1_5 (grid1.coords t) := fun h => by have := (hcond1_5 t).mp h; omega
  (idleOut,
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t),
   sout1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t))

/-- After a point with 0 < j < 3, over what the point before left. -/
def caseB (c : Dev nD) (t : Fin cfg1.N) (h0 : ¬t.val % 4 = 0) (h3 : ¬t.val % 4 = 3) (p : St1 (F := F)) : St1 (F := F) :=
  have hc0 : ¬cond1_0 (grid1.coords t) := fun h => h0 ((hcond1_0 t).mp h)
  have hc4 : cond1_4 (grid1.coords t) := (hcond1_4 t).mpr h0
  have hc5 : ¬cond1_5 (grid1.coords t) := fun h => h3 ((hcond1_5 t).mp h)
  (idleOut,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   p.2.2.1,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   p.2.2.2.2)

/-- After a point with j = 3, over what the point before left. -/
def caseC (c : Dev nD) (t : Fin cfg1.N) (h0 : ¬t.val % 4 = 0) (h3 : t.val % 4 = 3) (p : St1 (F := F)) : St1 (F := F) :=
  have hc0 : ¬cond1_0 (grid1.coords t) := fun h => h0 ((hcond1_0 t).mp h)
  have hc4 : cond1_4 (grid1.coords t) := (hcond1_4 t).mpr h0
  have hc5 : cond1_5 (grid1.coords t) := (hcond1_5 t).mpr h3
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   p.2.2.1,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) hc0 hc4 hc5 (iblk1 V c 0 t) (iblk1 V c 1 t) (iblk1 V c 2 t) p.2.1 p.2.2.1 p.2.2.2.1 p.2.2.2.2,
   p.2.2.2.2)

/-- THE ACCUMULATION: what the output's staging buffer and the scratch buffers hold after the body at position `n`, by
    recursion on the position: the case j selects, over what position `n - 1` left. -/
def outsAt1 (c : Dev nD) : (n : ℕ) → n < cfg1.N → St1 (F := F)
  | 0, hn => caseA V c ⟨0, hn⟩ (Nat.zero_mod _)
  | n + 1, hn =>
    if h0 : (n + 1) % 4 = 0 then caseA V c ⟨n + 1, hn⟩ h0
    else if h3 : (n + 1) % 4 = 3 then caseC V c ⟨n + 1, hn⟩ h0 h3 (outsAt1 c n (Nat.lt_of_succ_lt hn))
    else caseB V c ⟨n + 1, hn⟩ h0 h3 (outsAt1 c n (Nat.lt_of_succ_lt hn))

theorem outsAt1_A (c : Dev nD) (t : Fin cfg1.N) (h0 : t.val % 4 = 0) :
    outsAt1 V c t.val t.isLt = caseA V c t h0 := by
  obtain ⟨n, hn⟩ := t
  cases n with
  | zero => exact rfl
  | succ n => exact (dif_pos h0).trans rfl

theorem outsAt1_B (c : Dev nD) (t : Fin cfg1.N) (h0 : ¬t.val % 4 = 0) (h3 : ¬t.val % 4 = 3) :
    outsAt1 V c t.val t.isLt = caseB V c t h0 h3 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

theorem outsAt1_C (c : Dev nD) (t : Fin cfg1.N) (h0 : ¬t.val % 4 = 0) (h3 : t.val % 4 = 3) :
    outsAt1 V c t.val t.isLt = caseC V c t h0 h3 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- The region invariant before position `n`: before the first point the class's (every scratch at anything);
    afterwards the other pipeline's staging buffers at anything, each scratch buffer at what the point before left in it,
    and the generator register at some state. -/
def PhiS (c : Dev nD) : (n : ℕ) → n ≤ cfg1.N → sProp 𝕄
  | 0, _ => Pipeline.ΦA spec1 c
  | n + 1, hn => iprop(iprop(oth1_0 c ∗ oth1_1 c ∗ oth1_2 c ∗ oth1_3 c ∗ oth1_4 c
      ∗ owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2.1) ∗ owns (c : Thread nD τ) scM1_3 fullShare ((outsAt1 V c n hn).2.2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth1_0 c ∗ oth1_1 c ∗ oth1_2 c ∗ oth1_3 c ∗ oth1_4 c
      ∗ owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS_pos (c : Dev nD) (n : ℕ) (h : n ≤ cfg1.N) (hz : n ≠ 0) :
    PhiS V c n h = iprop(iprop(oth1_0 c ∗ oth1_1 c ∗ oth1_2 c ∗ oth1_3 c ∗ oth1_4 c
      ∗ owns (c : Thread nD τ) scM1_0 fullShare ((outsAt1 V c (n - 1) (by omega)).2.1) ∗ owns (c : Thread nD τ) scM1_1 fullShare ((outsAt1 V c (n - 1) (by omega)).2.2.1)
      ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The pipeline's proof data -/

/-- The proof data of the attention pipeline on core `c`. The key/value array is read through two windows, each
    holding half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Attn

end Cert.KernelIdeal.Hand

end
-- ==== Proof.KI.AttnBody.lean ====
/-
  Region 1, the attention pipeline: the body obligation. At every grid point the inputs' staging buffers hold their
  blocks; the coordinate j selects the case; the invariant hands the body the scratch buffers at what the point before
  left (at anything at the very first point) and takes them back at this point's contents.
-/
import proofs.«100357_g33603824124095_fold_wed_c4_546_8_alg».proof.Proof.KI.Attn

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section AttnBody
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · by_cases h3 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h3 ((hcond1_5 t).mp h))) (noFlush1_3 t (fun h => h3 ((hcond1_5 t).mp h)))]
      rw [outsAt1_A V c t h0]
      unfold caseA; dsimp only
      unfold sout1_A_0 sout1_A_1 sout1_A_2 sout1_A_3; (try dsimp only)
      by_cases hz : t.val = 0
      · rw [PhiS_castSucc V c t, PhiS_zero V c _ _ hz, PhiA1_eq]
        iintro ⟨⟨⟨Ho0, Ho1, Ho2, Ho3, Ho4, HS0, HS1, HS2, HS3⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => (hcond1_4 t).mp h h0) (fun h => h3 ((hcond1_5 t).mp h)) (iblk1 V c 0 t) (iblk1 V c 1 t) (iblk1 V c 2 t)).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [Ho0 Ho1 Ho2 Ho3 Ho4 HS0 HS1 HS2 HS3 Hg]
        · isplitr [Hg]
          · isplitl [Ho0]; · iexact Ho0
            isplitl [Ho1]; · iexact Ho1
            isplitl [Ho2]; · iexact Ho2
            isplitl [Ho3]; · iexact Ho3
            isplitl [Ho4]; · iexact Ho4
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Ho0, Ho1, Ho2, Ho3, Ho4, HS0, HS1, HS2, HS3⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => (hcond1_4 t).mp h h0) (fun h => h3 ((hcond1_5 t).mp h)) (iblk1 V c 0 t) (iblk1 V c 1 t) (iblk1 V c 2 t)).2.2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%es0, HS0⟩, ⟨%es1, HS1⟩, ⟨%es2, HS2⟩, ⟨%es3, HS3⟩⟩
        isplitl [Ho0 Ho1 Ho2 Ho3 Ho4 HS0 HS1 HS2 HS3 Hg]
        · isplitr [Hg]
          · isplitl [Ho0]; · iexact Ho0
            isplitl [Ho1]; · iexact Ho1
            isplitl [Ho2]; · iexact Ho2
            isplitl [Ho3]; · iexact Ho3
            isplitl [Ho4]; · iexact Ho4
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h3 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_5 t).mpr h3)], after1_3]
      rw [outsAt1_C V c t h0 h3]
      unfold caseC; dsimp only
      unfold out1_C_3 sout1_C_0 sout1_C_2; (try dsimp only)
      rw [PhiS_castSucc V c t, PhiS_pos V c _ _ hz]
      iintro ⟨⟨⟨Ho0, Ho1, Ho2, Ho3, Ho4, HS0, HS1, HS2, HS3⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ _ _ (fun h => h0 ((hcond1_0 t).mp h)) ((hcond1_4 t).mpr h0) ((hcond1_5 t).mpr h3) (iblk1 V c 0 t) (iblk1 V c 1 t) (iblk1 V c 2 t) _ _ _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, ⟨%es0, HS0⟩, HS1, ⟨%es2, HS2⟩, HS3⟩
      isplitl [Ho0 Ho1 Ho2 Ho3 Ho4 HS0 HS1 HS2 HS3 Hg]
      · isplitr [Hg]
        · isplitl [Ho0]; · iexact Ho0
          isplitl [Ho1]; · iexact Ho1
          isplitl [Ho2]; · iexact Ho2
          isplitl [Ho3]; · iexact Ho3
          isplitl [Ho4]; · iexact Ho4
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _)
          isplitl [HS1]; · iexact HS1
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h3 ((hcond1_5 t).mp h))) (noFlush1_3 t (fun h => h3 ((hcond1_5 t).mp h)))]
      rw [outsAt1_B V c t h0 h3]
      unfold caseB; dsimp only
      unfold sout1_B_0 sout1_B_2; (try dsimp only)
      rw [PhiS_castSucc V c t, PhiS_pos V c _ _ hz]
      iintro ⟨⟨⟨Ho0, Ho1, Ho2, Ho3, Ho4, HS0, HS1, HS2, HS3⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ _ _ (fun h => h0 ((hcond1_0 t).mp h)) ((hcond1_4 t).mpr h0) (fun h => h3 ((hcond1_5 t).mp h)) (iblk1 V c 0 t) (iblk1 V c 1 t) (iblk1 V c 2 t) _ _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%es0, HS0⟩, HS1, ⟨%es2, HS2⟩, HS3⟩
      isplitl [Ho0 Ho1 Ho2 Ho3 Ho4 HS0 HS1 HS2 HS3 Hg]
      · isplitr [Hg]
        · isplitl [Ho0]; · iexact Ho0
          isplitl [Ho1]; · iexact Ho1
          isplitl [Ho2]; · iexact Ho2
          isplitl [Ho3]; · iexact Ho3
          isplitl [Ho4]; · iexact Ho4
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _)
          isplitl [HS1]; · iexact HS1
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      iexists _; iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨Ho0, Ho1, Ho2, Ho3, Ho4, HS0, HS1, HS2, HS3⟩, Hg⟩
  isplitr [Hg]
  · isplitl [Ho0]; · iexact Ho0
    isplitl [Ho1]; · iexact Ho1
    isplitl [Ho2]; · iexact Ho2
    isplitl [Ho3]; · iexact Ho3
    isplitl [Ho4]; · iexact Ho4
    isplitl [HS0]; · iexists _; iexact HS0
    isplitl [HS1]; · iexists _; iexact HS1
    isplitl [HS2]; · iexists _; iexact HS2
    iexists _; iexact HS3
  iexact Hg

end AttnBody

end Cert.KernelIdeal.Hand

end
-- ==== Proof.KI.Frame.lean ====
/-
  The kernel program as a whole: @main is a stretch of host operations (the reshape of the queries, the two transposes,
  their concatenation, the two narrowings), the projection region, the attention region, and the closing reshape. Here:
  the buffer contents at every boundary (after the first stretch; after the projection wrote the key/value array; after
  the attention wrote its output; after the reshape), the two regions as segments over the thread state "every unscoped
  buffer at the boundary's contents", and the run: every weakly fair execution terminates, the arguments end unchanged,
  and the result buffer ends at the reshape of what the attention pipeline's write-backs leave.
  The key/value array is read by the attention region through TWO windows (its K half and its V half): the region holds it
  as two half shares, split at its entry and joined again at its exit.
-/
import proofs.«100357_g33603824124095_fold_wed_c4_546_8_alg».proof.Proof.KI.Proj
import proofs.«100357_g33603824124095_fold_wed_c4_546_8_alg».proof.Proof.KI.AttnBody
import proofs.«100357_g33603824124095_fold_wed_c4_546_8_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at the boundaries -/

/-- Core `c`'s buffers when the projection region is entered, read at a TensorCore reference. -/
abbrev Vr1 (c : Dev nD) (b : Ref sig .tc) : Buf (Elt F) ((c : Thread nD τ).loc b) := Gen.V1 m c b

/-- The key/value array as the projection's write-backs leave it. -/
def kvArr (c : Dev nD) : Buf (Elt F) ((c : Thread nD τ).loc main_v6) := (dat0 (Vr1 m) c).arrAt 2 cfg0.N

/-- After the projection region: the key/value array at `kvArr`, every other buffer as entered. -/
abbrev W2 (c : Dev nD) : Valuation τ sig (Elt F) := Function.update (Gen.V1 m c) main_v6 (kvArr m c)
abbrev Vr2 (c : Dev nD) (b : Ref sig .tc) : Buf (Elt F) ((c : Thread nD τ).loc b) := W2 m c b

/-- The attention output array as that region's write-backs leave it. -/
def outArr (c : Dev nD) : Buf (Elt F) ((c : Thread nD τ).loc main_v7) := (dat1 (Vr2 m) c).arrAt 3 cfg1.N

/-- After the attention region. -/
abbrev W3 (c : Dev nD) : Valuation τ sig (Elt F) := Function.update (W2 m c) main_v7 (outArr m c)
abbrev Vr3 (c : Dev nD) (b : Ref sig .tc) : Buf (Elt F) ((c : Thread nD τ).loc b) := W3 m c b

/-- What the regions leave, as the family the conditional frame is stated over. -/
def outs : Gen.Outs (F := F) := fun _ r c =>
  Function.update (Function.update (fun r => m ((c : Thread nD τ).loc r)) main_v6 (kvArr m c)) main_v7 (outArr m c) r

theorem v6_ne_v7 : (main_v6 : Ref sig .tc) ≠ main_v7 := by decide

theorem outs_v6 (J : ℕ) (c : Dev nD) : outs m J main_v6 c = kvArr m c := by
  unfold outs; rw [Function.update_of_ne v6_ne_v7, Function.update_self]
theorem outs_v7 (J : ℕ) (c : Dev nD) : outs m J main_v7 c = outArr m c := by
  unfold outs; rw [Function.update_self]

theorem V2_eq (c : Dev nD) : Gen.V2 m (outs m) c = W2 m c := by
  unfold Gen.V2 W2; rw [outs_v6]
theorem V3_eq (c : Dev nD) : Gen.V3 m (outs m) c = W3 m c := by
  unfold Gen.V3 W3; rw [outs_v7, V2_eq]

theorem W2_v6 (c : Dev nD) : Vr2 m c main_v6 = kvArr m c := Function.update_self ..
theorem W2_of_ne (c : Dev nD) (b : Ref sig .tc) (hb : b ≠ main_v6) : Vr2 m c b = Vr1 m c b :=
  Function.update_of_ne (StableHlo.devRef_ne_of_ne hb) ..
theorem W3_v7 (c : Dev nD) : Vr3 m c main_v7 = outArr m c := Function.update_self ..
theorem W3_of_ne (c : Dev nD) (b : Ref sig .tc) (hb : b ≠ main_v7) : Vr3 m c b = Vr2 m c b :=
  Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem hF0 (c : Dev nD) (w : Fin cfg0.W) : (dat0 (Vr1 m) c).arrAt w cfg0.N = Vr2 m c (Pipeline.arrRef spec0 w) := by
  match w with
  | ⟨0, _⟩ => exact (((dat0 (Vr1 m) c).arrAt_in 0 rfl _).trans (A_eq0 (Vr1 m) c 0)).trans (W2_of_ne m c _ (by decide)).symm
  | ⟨1, _⟩ => exact (((dat0 (Vr1 m) c).arrAt_in 1 rfl _).trans (A_eq0 (Vr1 m) c 1)).trans (W2_of_ne m c _ (by decide)).symm
  | ⟨2, _⟩ => exact (W2_v6 m c).symm
theorem hrest0 (c : Dev nD) : ∀ b, b ∉ Finset.univ.image (Pipeline.arrRef spec0) → Vr2 m c b = Vr1 m c b :=
  fun b hb => W2_of_ne m c b fun e => hb (Finset.mem_image.mpr ⟨2, Finset.mem_univ _, e.symm⟩)

set_option backward.isDefEq.respectTransparency.types false in
/-- The projection region as a segment: entered from every unscoped buffer at the contents after the first host stretch,
    left with the key/value array at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's arrays: the key/value array behind two windows -/

/-- The distinct buffers behind the attention region's arrays. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop(((c : Thread nD τ).loc main_v0 ↦{fullShare} V main_v0) ∗ ((c : Thread nD τ).loc main_v6 ↦{fullShare} V main_v6) ∗ ((c : Thread nD τ).loc main_v7 ↦{fullShare} V main_v7)) := by
  unfold Pipeline.arrBufs
  exact bigSep_eq_bigSepL_of_eq [main_v0, main_v6, main_v7] (by decide) (by decide) _

theorem unscopedBufs_split1 (c : Dev nD) (V : (b : Ref sig .tc) → Buf (Elt F) ((c : Thread nD τ).loc b)) :
    (unscopedBufs c V : sProp 𝕄) = iprop((((c : Thread nD τ).loc main_v0 ↦{fullShare} V main_v0) ∗ ((c : Thread nD τ).loc main_v6 ↦{fullShare} V main_v6) ∗ ((c : Thread nD τ).loc main_v7 ↦{fullShare} V main_v7))
      ∗ Pipeline.unscopedRest spec1 c V) := by
  rw [← arrBufs1_eq]
  exact Pipeline.unscopedBufs_split₀ (cfgs := cfgs) (p := 1) (by decide) c V

theorem share1_0 (c : Dev nD) (V : (c : Dev nD) → (b : Ref sig .tc) → Buf (Elt F) ((c : Thread nD τ).loc b)) : (dat1 V c).share 0 = fullShare := rfl
theorem share1_1 (c : Dev nD) (V : (c : Dev nD) → (b : Ref sig .tc) → Buf (Elt F) ((c : Thread nD τ).loc b)) : (dat1 V c).share 1 = fullShare.left := rfl
theorem share1_2 (c : Dev nD) (V : (c : Dev nD) → (b : Ref sig .tc) → Buf (Elt F) ((c : Thread nD τ).loc b)) : (dat1 V c).share 2 = fullShare.right := rfl
theorem share1_3 (c : Dev nD) (V : (c : Dev nD) → (b : Ref sig .tc) → Buf (Elt F) ((c : Thread nD τ).loc b)) : (dat1 V c).share 3 = fullShare := rfl

theorem arrays1_eq0 (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- The region's arrays as its proof data hold them: the queries and the output whole, the key/value array as a left half
    (the K window) and a right half (the V window). -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop(((c : Thread nD τ).loc main_v0 ↦{fullShare} G 0) ∗ ((c : Thread nD τ).loc main_v6 ↦{fullShare.left} G 1) ∗ ((c : Thread nD τ).loc main_v6 ↦{fullShare.right} G 2) ∗ ((c : Thread nD τ).loc main_v7 ↦{fullShare} G 3)) := by
  rw [arrays1_eq0, bigSep_W1, share1_0, share1_1, share1_2, share1_3]

/-- ENTRY: the unscoped buffers at `V` are the region's arrays at `V` — the key/value array split in two halves — and
    the unscoped rest. -/
theorem arrays1_of_unscopedBufs (c : Dev nD) (V : (c : Dev nD) → (b : Ref sig .tc) → Buf (Elt F) ((c : Thread nD τ).loc b)) :
    (unscopedBufs c (V c) : sProp 𝕄) ⊢ iprop((dat1 V c).arrays (dat1 V c).A ∗ Pipeline.unscopedRest spec1 c (V c)) := by
  rw [unscopedBufs_split1, arrays1_eq]
  iintro ⟨⟨H0, H6, H7⟩, Hrest⟩
  ihave H6' := (pointsTo_share (PosShare.mem_left_op_right fullShare)).1 $$ H6
  icases H6' with ⟨H6l, H6r⟩
  isplitr [Hrest]
  · isplitl [H0]; · iexact H0
    isplitl [H6l]; · iexact H6l
    isplitl [H6r]; · iexact H6r
    iexact H7
  iexact Hrest

/-- EXIT: the region's arrays at contents `G` — the two halves of the key/value array at the same contents — and the
    unscoped rest at `V` are the unscoped buffers at any `V'` that has the arrays at `G` and agrees with `V` elsewhere. -/
theorem unscopedBufs_of_arrays1 (c : Dev nD) (V : (c : Dev nD) → (b : Ref sig .tc) → Buf (Elt F) ((c : Thread nD τ).loc b))
    (V' : (b : Ref sig .tc) → Buf (Elt F) ((c : Thread nD τ).loc b))
    (G : (w : Fin cfg1.W) → Buf (Elt F) ((cfg1.win w).arr.view.loc (c : Thread nD τ)))
    (h0 : G 0 = V' main_v0) (h1 : G 1 = V' main_v6) (h2 : G 2 = V' main_v6) (h3 : G 3 = V' main_v7)
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [unscopedBufs_split1, arrays1_eq, h0, h1, h2, h3]
  iintro ⟨⟨H0, H6l, H6r, H7⟩, Hrest⟩
  isplitr [Hrest]
  · isplitl [H0]; · iexact H0
    isplitr [H7]
    · iapply (pointsTo_share (PosShare.mem_left_op_right fullShare)).2
      isplitl [H6l]; · iexact H6l
      iexact H6r
    iexact H7
  iapply (Entails.of_eq (show Pipeline.unscopedRest spec1 c (V c) = (Pipeline.unscopedRest spec1 c V' : sProp 𝕄) from by
    unfold Pipeline.unscopedRest
    exact bigSep_congr fun b hb => by rw [hrest b (Finset.mem_sdiff.mp hb).2]))
  iexact Hrest

theorem hF1_0 (c : Dev nD) : (dat1 (Vr2 m) c).arrAt 0 cfg1.N = Vr3 m c main_v0 :=
  (((dat1 (Vr2 m) c).arrAt_in 0 rfl _).trans (A_eq1 (Vr2 m) c 0)).trans (W3_of_ne m c main_v0 (by decide)).symm
theorem hF1_1 (c : Dev nD) : (dat1 (Vr2 m) c).arrAt 1 cfg1.N = Vr3 m c main_v6 :=
  (((dat1 (Vr2 m) c).arrAt_in 1 rfl _).trans (A_eq1 (Vr2 m) c 1)).trans (W3_of_ne m c main_v6 v6_ne_v7).symm
theorem hF1_2 (c : Dev nD) : (dat1 (Vr2 m) c).arrAt 2 cfg1.N = Vr3 m c main_v6 :=
  (((dat1 (Vr2 m) c).arrAt_in 2 rfl _).trans (A_eq1 (Vr2 m) c 2)).trans (W3_of_ne m c main_v6 v6_ne_v7).symm
theorem hF1_3 (c : Dev nD) : (dat1 (Vr2 m) c).arrAt 3 cfg1.N = Vr3 m c main_v7 := (W3_v7 m c).symm
theorem hrest1 (c : Dev nD) : ∀ b, b ∉ Finset.univ.image (Pipeline.arrRef spec1) → Vr3 m c b = Vr2 m c b :=
  fun b hb => W3_of_ne m c b fun e => hb (Finset.mem_image.mpr ⟨3, Finset.mem_univ _, e.symm⟩)

set_option backward.isDefEq.respectTransparency.types false in
/-- The attention region as a segment: entered from every unscoped buffer at the contents the projection left, left with
    the output array at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := arrays1_of_unscopedBufs c (Vr2 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vr2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vr2 m c))
        ⊢ (unscopedBufs c (Vr3 m c) : sProp 𝕄) :=
      unscopedBufs_of_arrays1 c (Vr2 m) (Vr3 m c) ((pdats m 1 c).arrAt · cfg1.N) (hF1_0 m c) (hF1_1 m c) (hF1_2 m c) (hF1_3 m c) (hrest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the kernel program with its RESULT: every weakly fair execution of @main terminates, the arguments end
  unchanged, and the result buffer ends at what the closing reshape makes of the attention region's output array.
  First for any choice of the regions' segment records (the launch over the four segments: the host stretch, the two
  regions, the host stretch; the last thread state read against the final memory), then at this certificate's records.
-/
import proofs.«100357_g33603824124095_fold_wed_c4_546_8_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

set_option backward.isDefEq.respectTransparency.types false in
/-- The run, given the regions' records: as the frame, with the result buffer read off the last valuation too. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V2 m outs c) ∗ E 1 c) ⊢ R1.pre c)
    (hpost1 : ∀ c : Dev nD, R1.post c ⊢ iprop(StableHlo.held (c : Thread nD τ) (Pipeline.ucRefs τ sig) (Gen.V3 m outs c) ∗ E 2 c)) :
    θ_run defs (onTc (τ := τ) (main (F := F))) ⟨m, fun _ => 0, ρ⟩ (fun r => ∀ c : Dev nD,
      r.2.mem ((c.tc : Thread nD τ).loc main_v8) = Gen.V4 m outs c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m outs c))
    (hch := fun c => ⟨.rfl, hpre0 c, (hpost0 c).trans (hpre1 c), hpost1 c, sep_mono .rfl (hE2 c)⟩)
    (hinit := ?_) (QY := fun c s => s.mem ((c.tc : Thread nD τ).loc main_v8) = Gen.V4 m outs c main_v8 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V4 m outs c) s') $$ [Hh HSI]
    · isplitl [Hh] <;> iassumption
    icases Hr with ⟨%h, HSI⟩
    imodintro
    isplitr
    · ipureintro
      exact ⟨h (Proc.devRef .tc main_v8) (Finset.mem_filter.mpr ⟨StableHlo.devRef_mem_tcRefs main_v8, by decide⟩),
        (h (Proc.devRef .tc main_arg0) (Finset.mem_filter.mpr ⟨StableHlo.devRef_mem_tcRefs main_arg0, by decide⟩)).trans (Gen.V4_main_arg0 m outs c),
        (h (Proc.devRef .tc main_arg1) (Finset.mem_filter.mpr ⟨StableHlo.devRef_mem_tcRefs main_arg1, by decide⟩)).trans (Gen.V4_main_arg1 m outs c),
        (h (Proc.devRef .tc main_arg2) (Finset.mem_filter.mpr ⟨StableHlo.devRef_mem_tcRefs main_arg2, by decide⟩)).trans (Gen.V4_main_arg2 m outs c),
        (h (Proc.devRef .tc main_arg3) (Finset.mem_filter.mpr ⟨StableHlo.devRef_mem_tcRefs main_arg3, by decide⟩)).trans (Gen.V4_main_arg3 m outs c)⟩
    · iexact HSI

set_option backward.isDefEq.respectTransparency.types false in
/-- THE RUN at this certificate's records: nothing owed at launch, no resources beyond the pipeline library's, the generator
    register and the core's (empty) debts riding along every segment. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v8) = Gen.V4 m (outs m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

/-- THE FRAME of the kernel program: it runs to the end, faults nowhere and leaves its arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Hand

end
-- ==== Proof.Spec.lean ====
/-
  The mathematics of the certificate, with no program in sight. Memory attention: keys K = M·Wkᵀ, values V = M·Wvᵀ, logits
  S = H·Kᵀ, and the output row  H_r + Σ_n softmax(S_r)_n · V_n.  Two readings of it over the extended reals:
  * the BLOCKED one: the 8192 keys in four blocks of 2048; the exponent shift of row r is the maximum of its logits over
    the FIRST block only; the normaliser and the weighted sum are accumulated block by block and the quotient is taken
    once at the end;
  * the PLAIN one: the shift is the maximum over all keys, every weight is divided by the normaliser, then summed
    against the values.
  On finite inputs the two agree: every intermediate is a real number, exp(s − c) = exp(s − c′)·exp(c′ − c) takes the
  shift out of both the weighted sum and the normaliser, and the common positive factor cancels in the quotient.
-/
import Idealize.ShloMosaic.PureOps.Ideal
import Idealize.ShloMosaic.Lib.ValueIdx

noncomputable section

open scoped BigOperators

namespace Cert.Spec

open Idealize.ShloMosaic Idealize.ShloMosaic.ValueIdx

/-! ## Finite sums and maxima of real numbers inside the extended reals -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- A finite sum of products of real numbers is a real number. -/
theorem sum_mul_real {ι : Type*} (s : Finset ι) (f g : ι → EReal) (hf : ∀ i, ∃ x : ℝ, f i = (x : EReal))
    (hg : ∀ i, ∃ x : ℝ, g i = (x : EReal)) : ∃ x : ℝ, ∑ i ∈ s, f i * g i = (x : EReal) := by
  choose F hF using hf
  choose G hG using hg
  exact ⟨∑ i ∈ s, F i * G i, by
    rw [coe_sum]; exact Finset.sum_congr rfl (fun i _ => by rw [hF, hG, EReal.coe_mul])⟩

/-- A maximum taken from ⊥ over finitely many real numbers is a real number, unless there are none. -/
theorem fold_max_real {ι : Type*} [DecidableEq ι] (f : ι → ℝ) (s : Finset ι) :
    (∃ x : ℝ, s.fold max ⊥ (fun n => (f n : EReal)) = (x : EReal)) ∨ s = ∅ := by
  induction s using Finset.induction_on with
  | empty => exact Or.inr rfl
  | insert a t ha ih =>
    refine Or.inl ?_
    rw [Finset.fold_insert ha]
    rcases ih with ⟨y, hy⟩ | rfl
    · exact ⟨max (f a) y, by rw [hy]; exact (EReal.coe_strictMono.monotone.map_max).symm⟩
    · exact ⟨f a, by rw [Finset.fold_empty]; exact max_bot_right _⟩

/-- Over a nonempty range of indices the maximum is a real number. -/
theorem fold_max_univ_real {k : Nat} (f : Fin (k + 1) → ℝ) :
    ∃ x : ℝ, (Finset.univ : Finset (Fin (k + 1))).fold max ⊥ (fun n => (f n : EReal)) = (x : EReal) := by
  rcases fold_max_real f Finset.univ with h | h
  · exact h
  · exact absurd h (Finset.univ_nonempty).ne_empty

/-- The real-number heart: exp(s − c) = exp(c′ − c)·exp(s − c′), so moving the shift from c to c′ multiplies the
    weighted sum and the normaliser by the same positive factor, which cancels in the quotient. -/
theorem shift_cancel {ι : Type*} [Fintype ι] [Nonempty ι] (s v : ι → ℝ) (c c' : ℝ) :
    (∑ k, Real.exp (s k - c) * v k) * (1 / ∑ k, Real.exp (s k - c))
      = ∑ k, Real.exp (s k - c') * (1 / ∑ k, Real.exp (s k - c')) * v k := by
  have he : ∀ k, Real.exp (s k - c) = Real.exp (c' - c) * Real.exp (s k - c') := by
    intro k; rw [← Real.exp_add]; congr 1; ring
  have hL : (0 : ℝ) < ∑ k, Real.exp (s k - c') :=
    Finset.sum_pos (fun k _ => Real.exp_pos _) Finset.univ_nonempty
  have hk : (0 : ℝ) < Real.exp (c' - c) := Real.exp_pos _
  have h1 : ∑ k, Real.exp (s k - c) * v k = Real.exp (c' - c) * ∑ k, Real.exp (s k - c') * v k := by
    rw [Finset.mul_sum]; exact Finset.sum_congr rfl (fun k _ => by rw [he k]; ring)
  have h2 : ∑ k, Real.exp (s k - c) = Real.exp (c' - c) * ∑ k, Real.exp (s k - c') := by
    rw [Finset.mul_sum]; exact Finset.sum_congr rfl (fun k _ => he k)
  have h3 : ∑ k, Real.exp (s k - c') * (1 / ∑ k, Real.exp (s k - c')) * v k
      = (1 / ∑ k, Real.exp (s k - c')) * ∑ k, Real.exp (s k - c') * v k := by
    rw [Finset.mul_sum]; exact Finset.sum_congr rfl (fun k _ => by ring)
  rw [h1, h2, h3]
  field_simp

/-- The same over the extended reals: with real logits s, real values v and real shifts c, c′, the quotient taken
    once after summing (shift c) is the sum of the normalised weights against the values (shift c′). Both
    normalisers are sums of exponentials over a nonempty set, hence nonzero real numbers. -/
theorem quotient_eq_weighted {ι : Type*} [Fintype ι] [Nonempty ι] (s v : ι → ℝ) (c c' : ℝ) :
    Ideal.div (∑ k, ((Real.exp (s k - c) : ℝ) : EReal) * (v k : EReal)) (∑ k, ((Real.exp (s k - c) : ℝ) : EReal))
      = ∑ k, Ideal.div ((Real.exp (s k - c') : ℝ) : EReal) (∑ k, ((Real.exp (s k - c') : ℝ) : EReal))
          * (v k : EReal) := by
  have hL : (∑ k, Real.exp (s k - c)) ≠ 0 :=
    (Finset.sum_pos (fun k _ => Real.exp_pos _) Finset.univ_nonempty).ne'
  have hL' : (∑ k, Real.exp (s k - c')) ≠ 0 :=
    (Finset.sum_pos (fun k _ => Real.exp_pos _) Finset.univ_nonempty).ne'
  simp only [← EReal.coe_mul, ← coe_sum]
  rw [Ideal.div_coe hL]
  simp only [Ideal.div_coe hL', ← EReal.coe_mul, ← coe_sum]
  rw [shift_cancel s v c c']

/-! ## The arrays by coordinates -/

/-- The query array [4, 2048, 1024] by flattened row r = 2048·b + s and column. -/
def hOf (x : (⟨3, ![4, 2048, 1024]⟩ : Shape).Idx → EReal) (r : Fin 8192) (d : Fin 1024) : EReal :=
  x (ix3 (⟨r.val / 2048, by omega⟩ : Fin 4) (⟨r.val % 2048, by omega⟩ : Fin 2048) d)
/-- The memory array [8192, 1024] by row and column. -/
def mOf (x : (⟨2, ![8192, 1024]⟩ : Shape).Idx → EReal) (n : Fin 8192) (e : Fin 1024) : EReal := x (ix2 n e)
/-- A weight array [1024, 1024] by output and input feature. -/
def wOf (x : (⟨2, ![1024, 1024]⟩ : Shape).Idx → EReal) (d e : Fin 1024) : EReal := x (ix2 d e)

/-- The flattened row of (batch b, position s). -/
def row (b : Fin 4) (s : Fin 2048) : Fin 8192 := ⟨2048 * b.val + s.val, by omega⟩

/-- The query array at a flattened row is the array at (b, s). -/
theorem hOf_row (x : (⟨3, ![4, 2048, 1024]⟩ : Shape).Idx → EReal) (b : Fin 4) (s : Fin 2048) (d : Fin 1024) :
    hOf x (row b s) d = x (ix3 b s d) := by
  have h1 : (2048 * b.val + s.val) / 2048 = b.val := by omega
  have h2 : (2048 * b.val + s.val) % 2048 = s.val := by omega
  have hb : (⟨(row b s).val / 2048, by omega⟩ : Fin 4) = b := Fin.ext h1
  have hs : (⟨(row b s).val % 2048, by omega⟩ : Fin 2048) = s := Fin.ext h2
  unfold hOf
  rw [hb, hs]

/-- Key n of block j. -/
def blk (j : Fin 4) (n : Fin 2048) : Fin 8192 := ⟨2048 * j.val + n.val, by omega⟩

/-- (block, offset) ↦ key is a bijection of Fin 4 × Fin 2048 with Fin 8192: its inverse is k ↦ (k / 2048, k % 2048). -/
def blkEquiv : Fin 4 × Fin 2048 ≃ Fin 8192 where
  toFun p := blk p.1 p.2
  invFun k := (⟨k.val / 2048, by omega⟩, ⟨k.val % 2048, by omega⟩)
  left_inv p := by
    obtain ⟨⟨j, hj⟩, ⟨n, hn⟩⟩ := p
    simp only [blk, Prod.mk.injEq, Fin.mk.injEq]
    constructor <;> omega
  right_inv k := by
    obtain ⟨k, hk⟩ := k
    simp only [blk, Fin.mk.injEq]
    omega

/-- The four block sums, grouped from the left, are the one sum over all keys. -/
theorem sum_blocks {α : Type*} [AddCommMonoid α] (f : Fin 8192 → α) :
    (((∑ n : Fin 2048, f (blk 0 n)) + ∑ n : Fin 2048, f (blk 1 n)) + ∑ n : Fin 2048, f (blk 2 n))
      + ∑ n : Fin 2048, f (blk 3 n) = ∑ k : Fin 8192, f k := by
  rw [← Fintype.sum_equiv blkEquiv (fun p => f (blk p.1 p.2)) f (fun _ => rfl), Fintype.sum_prod_type,
    Fin.sum_univ_four]

section
variable (h : Fin 8192 → Fin 1024 → EReal) (m : Fin 8192 → Fin 1024 → EReal) (wk wv : Fin 1024 → Fin 1024 → EReal)

/-- K = M·Wkᵀ. -/
def kK (n : Fin 8192) (d : Fin 1024) : EReal := ∑ e : Fin 1024, m n e * wk d e
/-- V = M·Wvᵀ. -/
def kV (n : Fin 8192) (d : Fin 1024) : EReal := ∑ e : Fin 1024, m n e * wv d e
/-- S = H·Kᵀ. -/
def kS (r n : Fin 8192) : EReal := ∑ d : Fin 1024, h r d * kK m wk n d

/-! ### The blocked reading -/

/-- The shift: the maximum of row r's logits over the first key block. -/
def kM0 (r : Fin 8192) : EReal := (Finset.univ : Finset (Fin 2048)).fold max ⊥ (fun n => kS h m wk r (blk 0 n))
/-- The shifted exponential of a logit. -/
def kP (r n : Fin 8192) : EReal := Ideal.exp (kS h m wk r n - kM0 h m wk r)
/-- One block's share of the normaliser, and of the weighted sum. -/
def kLb (r : Fin 8192) (j : Fin 4) : EReal := ∑ n : Fin 2048, kP h m wk r (blk j n)
def kAb (r : Fin 8192) (d : Fin 1024) (j : Fin 4) : EReal := ∑ n : Fin 2048, kP h m wk r (blk j n) * kV m wv (blk j n) d
/-- The blocked output. -/
def kOut (r : Fin 8192) (d : Fin 1024) : EReal :=
  h r d + Ideal.div (((kAb h m wk wv r d 0 + kAb h m wk wv r d 1) + kAb h m wk wv r d 2) + kAb h m wk wv r d 3)
    (((kLb h m wk r 0 + kLb h m wk r 1) + kLb h m wk r 2) + kLb h m wk r 3)

/-! ### The plain reading -/

def rMx (r : Fin 8192) : EReal := max ⊥ ((Finset.univ : Finset (Fin 8192)).fold max ⊥ (fun n => kS h m wk r n))
def rE (r n : Fin 8192) : EReal := Ideal.exp (kS h m wk r n - rMx h m wk r)
def rL (r : Fin 8192) : EReal := ∑ n : Fin 8192, rE h m wk r n
def rOut (r : Fin 8192) (d : Fin 1024) : EReal :=
  h r d + ∑ n : Fin 8192, Ideal.div (rE h m wk r n) (rL h m wk r) * kV m wv n d

/-- THE LAW: on finite inputs the blocked and the plain reading are the same extended real, entry by entry. -/
theorem kOut_eq_rOut (hh : ∀ r d, ∃ x : ℝ, h r d = (x : EReal)) (hm : ∀ n e, ∃ x : ℝ, m n e = (x : EReal))
    (hwk : ∀ d e, ∃ x : ℝ, wk d e = (x : EReal)) (hwv : ∀ d e, ∃ x : ℝ, wv d e = (x : EReal)) (r : Fin 8192) (d : Fin 1024) :
    kOut h m wk wv r d = rOut h m wk wv r d := by
  -- the logits of row r and the values of column d are real numbers
  have hK : ∀ n e, ∃ x : ℝ, kK m wk n e = (x : EReal) := fun n e =>
    sum_mul_real _ _ _ (fun i => hm n i) (fun i => hwk e i)
  obtain ⟨S, hS⟩ : ∃ S : Fin 8192 → ℝ, ∀ n, kS h m wk r n = (S n : EReal) :=
    ⟨_, fun n => (sum_mul_real _ _ _ (fun i => hh r i) (fun i => hK n i)).choose_spec⟩
  obtain ⟨V, hV⟩ : ∃ V : Fin 8192 → ℝ, ∀ n, kV m wv n d = (V n : EReal) :=
    ⟨_, fun n => (sum_mul_real _ _ _ (fun i => hm n i) (fun i => hwv d i)).choose_spec⟩
  -- so are the two shifts
  obtain ⟨c, hc⟩ : ∃ c : ℝ, kM0 h m wk r = (c : EReal) := by
    unfold kM0; simp only [hS]; exact fold_max_univ_real _
  obtain ⟨c', hc'⟩ : ∃ c' : ℝ, rMx h m wk r = (c' : EReal) := by
    unfold rMx; simp only [hS]; rw [max_bot_left]; exact fold_max_univ_real _
  -- the four blocks are one sum over all keys
  have hA : ((kAb h m wk wv r d 0 + kAb h m wk wv r d 1) + kAb h m wk wv r d 2) + kAb h m wk wv r d 3
      = ∑ k : Fin 8192, kP h m wk r k * kV m wv k d :=
    sum_blocks (fun k => kP h m wk r k * kV m wv k d)
  have hLb : ((kLb h m wk r 0 + kLb h m wk r 1) + kLb h m wk r 2) + kLb h m wk r 3
      = ∑ k : Fin 8192, kP h m wk r k :=
    sum_blocks (fun k => kP h m wk r k)
  unfold kOut rOut
  rw [hA, hLb]
  congr 1
  simp only [kP, rE, rL, hS, hV, hc, hc', ← EReal.coe_sub, Ideal.exp_coe]
  exact quotient_eq_weighted S V c c'

end

end Cert.Spec

end
-- ==== Proof.Finite.lean ====
/-
  The precondition read back: where `finite_inputs` of four arrays is all ones, every entry of each array is a real
  number (neither +∞ nor −∞): |x| < +∞ on the extended reals says exactly that.
-/
import proofs.«100357_g33603824124095_fold_wed_c4_546_8_alg».proof.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

variable [Cert.Pre_finite_inputs.Facts]

/-- The f32 pattern 0x7F800000 denotes +∞. -/
theorem inf_lit : Ideal.ofBits .f32 0x7F800000#32 = (⊤ : EReal) := by simp [Ideal.ofBits, Ideal.ieee]

/-- |x| < +∞ on the extended reals: x is neither +∞ (then |x| = x = +∞) nor −∞ (then |x| = −x = +∞), so x is a
    real number. -/
theorem real_of_abs_lt_top (x : EReal) (hx : Ideal.cmp .olt (max x (-x)) ⊤ = 1#1) : ∃ r : ℝ, x = (r : EReal) := by
  have hlt : max x (-x) < ⊤ := by
    by_contra hn
    have h0 : Ideal.cmp .olt (max x (-x)) ⊤ = 0#1 := by simp [Ideal.cmp, hn]
    rw [h0] at hx
    exact absurd hx (by decide)
  obtain ⟨h1, h2⟩ := max_lt_iff.1 hlt
  induction x using EReal.rec with
  | bot => exact absurd h2 (by simp)
  | top => exact absurd h1 (lt_irrefl _)
  | coe r => exact ⟨r, rfl⟩

/-- One entry of the compared array: where the comparison of |a| with the broadcast +∞ is 1 at an index, the
    array's entry there is a real number. -/
theorem real_of_elem {s : Shape} (hb : S_.BroadcastsInDim s (![] : Fin 0 → Fin s.rank)) (a : FVec Ideal s .f32)
    (i : s.Idx)
    (hi : cmpf .olt (Host.absf a) (broadcastInDim s ![] hb (constant S_ .f32 0x7F800000#32)) i = 1#1) :
    ∃ r : ℝ, a i = (r : EReal) := by
  apply real_of_abs_lt_top
  rw [← inf_lit]
  exact hi

/-- The rank-0 shape has one index. -/
instance : Subsingleton S_.Idx := ⟨fun _ _ => funext fun d => d.elim0⟩

/-- Where the printed precondition holds of four arrays read at the ideal values, each of their entries is a real. -/
theorem real_of_pre (a0 : FVec Ideal S4x2048x1024 .f32) (a1 : FVec Ideal S8192x1024 .f32) (a2 a3 : FVec Ideal S1024x1024 .f32)
    (h : Cert.Pre_finite_inputs.fn (F := Ideal) a0 a1 a2 a3 = (fun _ => 1#1)) :
    (∀ i, ∃ x : ℝ, a0 i = (x : EReal)) ∧ (∀ i, ∃ x : ℝ, a1 i = (x : EReal)) ∧ (∀ i, ∃ x : ℝ, a2 i = (x : EReal)) ∧ (∀ i, ∃ x : ℝ, a3 i = (x : EReal)) := by
  -- the predicate at its one index: the conjunction of the four all-reductions
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  -- an all-reduction by "and" that is 1 had a 1 at every index, and a 1 there says the entry is real
  exact ⟨fun i => real_of_elem _ a0 i (Host.reduce_andi_all _ _ _ _ _ h0' i),
    fun i => real_of_elem _ a1 i (Host.reduce_andi_all _ _ _ _ _ h1 i),
    fun i => real_of_elem _ a2 i (Host.reduce_andi_all _ _ _ _ _ h2 i),
    fun i => real_of_elem _ a3 i (Host.reduce_andi_all _ _ _ _ _ h3 i)⟩

end Cert.Finite

end
-- ==== Proof.RefValue.lean ====
/-
  The reference read at an index: the jnp program  H + softmax(H·(M·Wkᵀ)ᵀ)·(M·Wvᵀ)  is, entry by entry, the PLAIN reading
  of the specification (the shift the maximum over all keys, each weight divided by the normaliser before the sum against
  the values).
-/
import proofs.«100357_g33603824124095_fold_wed_c4_546_8_alg».proof.Proof.Gen.ReferenceIdeal.Read
import proofs.«100357_g33603824124095_fold_wed_c4_546_8_alg».proof.Proof.Spec
import Idealize.ShloMosaic.PureOps.Reduce
import Idealize.ShloMosaic.PureOps.Ideal.Laws

noncomputable section

namespace Cert.ReferenceIdeal.RefValue

open Cert.ReferenceIdeal Cert.ReferenceIdeal.Read Cert.Spec Idealize.ShloMosaic Idealize.ShloMosaic.ValueIdx

/-- The bit pattern of minus infinity reads as the bottom of the extended reals. -/
theorem negInf_eq_bot : Ideal.ofBits .f32 0xFF800000#32 = (⊥ : EReal) := by
  simp [Ideal.ofBits, Ideal.ieee]

/-- The keys: the first matrix product at (n, d) is K = M·Wkᵀ there. -/
theorem keys_eq (x1 : (⟨S8192x1024, .f32⟩ : BufTy).Contents (Elt Ideal)) (x2 : (⟨S1024x1024, .f32⟩ : BufTy).Contents (Elt Ideal))
    (n : Fin 8192) (d : Fin 1024) :
    val_main_v1 (F := Ideal) x1 x2 (ix2 n d) = kK (mOf x1) (wOf x2) n d := by
  rw [val_main_v1_apply]
  unfold kK mOf wOf
  refine Finset.sum_congr rfl fun e _ => ?_
  rw [val_main_v0_apply]
  have e1 : lidx_main_v1 (ix2 n d) e = ix2 n e :=
    funext fun a => Fin.ext (by match a with | ⟨0, _⟩ => rfl | ⟨1, _⟩ => rfl)
  have e2 : idx_main_v0 (ridx_main_v1 (ix2 n d) e) = ix2 d e :=
    funext fun a => Fin.ext (by match a with | ⟨0, _⟩ => rfl | ⟨1, _⟩ => rfl)
  rw [e1, e2]

/-- The values: the second matrix product at (n, d) is V = M·Wvᵀ there. -/
theorem values_eq (x1 : (⟨S8192x1024, .f32⟩ : BufTy).Contents (Elt Ideal)) (x3 : (⟨S1024x1024, .f32⟩ : BufTy).Contents (Elt Ideal))
    (n : Fin 8192) (d : Fin 1024) :
    val_main_v3 (F := Ideal) x1 x3 (ix2 n d) = kV (mOf x1) (wOf x3) n d := by
  rw [val_main_v3_apply]
  unfold kV mOf wOf
  refine Finset.sum_congr rfl fun e _ => ?_
  rw [val_main_v2_apply]
  have e1 : lidx_main_v3 (ix2 n d) e = ix2 n e :=
    funext fun a => Fin.ext (by match a with | ⟨0, _⟩ => rfl | ⟨1, _⟩ => rfl)
  have e2 : idx_main_v2 (ridx_main_v3 (ix2 n d) e) = ix2 d e :=
    funext fun a => Fin.ext (by match a with | ⟨0, _⟩ => rfl | ⟨1, _⟩ => rfl)
  rw [e1, e2]

/-- The logits: the third matrix product at (b, s, n) is S = H·Kᵀ at row 2048·b + s and key n. -/
theorem logits_eq (x0 : (⟨S4x2048x1024, .f32⟩ : BufTy).Contents (Elt Ideal)) (x1 : (⟨S8192x1024, .f32⟩ : BufTy).Contents (Elt Ideal))
    (x2 : (⟨S1024x1024, .f32⟩ : BufTy).Contents (Elt Ideal)) (b : Fin 4) (s : Fin 2048) (n : Fin 8192) :
    val_main_v4 (F := Ideal) x0 x1 x2 (ix3 b s n) = kS (hOf x0) (mOf x1) (wOf x2) (row b s) n := by
  rw [val_main_v4_apply]
  unfold kS
  refine Finset.sum_congr rfl fun e _ => ?_
  have e1 : lidx_main_v4 (ix3 b s n) e = ix3 b s e :=
    funext fun a => Fin.ext (by match a with | ⟨0, _⟩ => rfl | ⟨1, _⟩ => rfl | ⟨2, _⟩ => rfl)
  have e2 : ridx_main_v4 (ix3 b s n) e = ix2 n e :=
    funext fun a => Fin.ext (by match a with | ⟨0, _⟩ => rfl | ⟨1, _⟩ => rfl)
  rw [e1, e2, keys_eq, hOf_row]

/-- Inserting the key coordinate n on the last axis of the index (b, s) gives the index (b, s, n). -/
theorem lift_eq (h : S4x2048x8192.Reduces [2] S4x2048) (b : Fin 4) (s : Fin 2048) (n : Fin 8192) :
    h.lift (ix2 b s) n = ix3 b s n :=
  funext fun a => Fin.ext (by match a with | ⟨0, _⟩ => rfl | ⟨1, _⟩ => rfl | ⟨2, _⟩ => rfl)

/-- The row maximum: the maximum stage at (b, s) is the plain reading's shift of row 2048·b + s. -/
theorem rowmax_eq (x0 : (⟨S4x2048x1024, .f32⟩ : BufTy).Contents (Elt Ideal)) (x1 : (⟨S8192x1024, .f32⟩ : BufTy).Contents (Elt Ideal))
    (x2 : (⟨S1024x1024, .f32⟩ : BufTy).Contents (Elt Ideal)) (b : Fin 4) (s : Fin 2048) :
    val_main_v7 (F := Ideal) x0 x1 x2 (ix2 b s) = rMx (hOf x0) (mOf x1) (wOf x2) (row b s) := by
  rw [val_main_v7_apply, val_main_v6_apply, val_main_cst_0_apply]
  unfold val_main_v5 rMx
  rw [Host.reduce_eq_fold_single FloatOps.maximumf _ _ Gen.reducesTo_S4x2048x8192_S4x2048_d2
    (by decide : S4x2048x8192.Reduces [2] S4x2048) Gen.h_S_ (ix2 b s)]
  rw [val_main_cst_apply, Ideal.maximumf_def, Ideal.ofBits_def, negInf_eq_bot]
  refine congrArg (max ⊥) ?_
  refine Finset.fold_congr fun n _ => ?_
  exact (congrArg (val_main_v4 (F := Ideal) x0 x1 x2) (lift_eq _ b s n)).trans (logits_eq x0 x1 x2 b s n)

/-- The shifted exponential: the exponential stage at (b, s, n) is exp(S − shift) at row 2048·b + s and key n. -/
theorem expo_eq (x0 : (⟨S4x2048x1024, .f32⟩ : BufTy).Contents (Elt Ideal)) (x1 : (⟨S8192x1024, .f32⟩ : BufTy).Contents (Elt Ideal))
    (x2 : (⟨S1024x1024, .f32⟩ : BufTy).Contents (Elt Ideal)) (b : Fin 4) (s : Fin 2048) (n : Fin 8192) :
    val_main_v11 (F := Ideal) x0 x1 x2 (ix3 b s n) = rE (hOf x0) (mOf x1) (wOf x2) (row b s) n := by
  rw [val_main_v11_apply, val_main_v10_apply, val_main_v9_apply, val_main_v8_apply]
  have e : idx_main_v8 (idx_main_v9 (ix3 b s n)) = ix2 b s :=
    funext fun a => Fin.ext (by match a with | ⟨0, _⟩ => rfl | ⟨1, _⟩ => rfl)
  rw [e, rowmax_eq, logits_eq, Ideal.hostUnary_exp_def, Ideal.subf_def]
  rfl

/-- The normaliser: the sum stage at (b, s) is the sum of the shifted exponentials of row 2048·b + s over all keys. -/
theorem norm_eq (x0 : (⟨S4x2048x1024, .f32⟩ : BufTy).Contents (Elt Ideal)) (x1 : (⟨S8192x1024, .f32⟩ : BufTy).Contents (Elt Ideal))
    (x2 : (⟨S1024x1024, .f32⟩ : BufTy).Contents (Elt Ideal)) (b : Fin 4) (s : Fin 2048) :
    val_main_v12 (F := Ideal) x0 x1 x2 (ix2 b s) = rL (hOf x0) (mOf x1) (wOf x2) (row b s) := by
  rw [val_main_v12_apply, val_main_cst_1_apply, Ideal.ofBits_def, Ideal.ofBits_zero_f32, zero_add]
  unfold rL
  refine Finset.sum_congr rfl fun n _ => ?_
  have e : idx_main_v12 (ix2 b s) n = ix3 b s n :=
    funext fun a => Fin.ext (by match a with | ⟨0, _⟩ => rfl | ⟨1, _⟩ => rfl | ⟨2, _⟩ => rfl)
  rw [e, expo_eq]

/-- The reference's result at (b, s, d) is the plain reading at row 2048·b + s and column d. -/
theorem ref_eq (x0 : (⟨S4x2048x1024, .f32⟩ : BufTy).Contents (Elt Ideal)) (x1 : (⟨S8192x1024, .f32⟩ : BufTy).Contents (Elt Ideal))
    (x2 x3 : (⟨S1024x1024, .f32⟩ : BufTy).Contents (Elt Ideal)) (b : Fin 4) (s : Fin 2048) (d : Fin 1024) :
    val_main_v17 (F := Ideal) x0 x1 x2 x3 (ix3 b s d) = rOut (hOf x0) (mOf x1) (wOf x2) (wOf x3) (row b s) d := by
  rw [val_main_v17_apply, val_main_v16_apply, Ideal.addf_def]
  unfold rOut
  rw [hOf_row]
  refine congrArg (x0 (ix3 b s d) + ·) (Finset.sum_congr rfl fun n _ => ?_)
  have e1 : lidx_main_v16 (ix3 b s d) n = ix3 b s n :=
    funext fun a => Fin.ext (by match a with | ⟨0, _⟩ => rfl | ⟨1, _⟩ => rfl | ⟨2, _⟩ => rfl)
  have e2 : ridx_main_v16 (ix3 b s d) n = ix2 n d :=
    funext fun a => Fin.ext (by match a with | ⟨0, _⟩ => rfl | ⟨1, _⟩ => rfl)
  have e3 : idx_main_v13 (idx_main_v14 (ix3 b s n)) = ix2 b s :=
    funext fun a => Fin.ext (by match a with | ⟨0, _⟩ => rfl | ⟨1, _⟩ => rfl)
  rw [e1, e2, values_eq, val_main_v15_apply, val_main_v14_apply, val_main_v13_apply, e3, norm_eq, expo_eq,
    Ideal.hostDivf_def]

end Cert.ReferenceIdeal.RefValue

end
-- ==== Proof.HostVals.lean ====
/-
  What the host operations around the two regions compute, read at an index over the extended reals: the queries
  flattened to rows, the memory narrowed (the identity here), the two weight matrices transposed and set side by side,
  and the closing reshape of the output rows back to (batch, position, feature).
-/
import proofs.«100357_g33603824124095_fold_wed_c4_546_8_alg».proof.Proof.Gen.KernelIdeal.Regions
import proofs.«100357_g33603824124095_fold_wed_c4_546_8_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVals

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ) (c : Dev nD)

/-- The flattened queries: row r of the [8192, 1024] array is (batch r / 2048, position r % 2048) of the argument. -/
theorem v0_apply (r : Fin 8192) (d : Fin 1024) :
    Gen.V1 m c main_v0 (ix2 r d) = hOf (m ((c : Thread nD τ).loc main_arg0)) r d := by
  have e : (Gen.V1 m c main_v0 : S8192x1024.Idx → EReal)
      = shapeCast S8192x1024 (m ((c : Thread nD τ).loc main_arg0)) shapeCasts_S4x2048x1024_S8192x1024 := by
    dsimp only [Gen.V1, Gen.V0, hostOps0]; after_results; rfl
  refine (congrFun e (ix2 r d)).trans ?_
  unfold hOf
  -- the two row-major positions: (r / 2048 · 2048 + r % 2048) · 1024 + d  and  r · 1024 + d
  refine shapeCast_apply _ shapeCasts_S4x2048x1024_S8192x1024 (ix2 r d)
    (ix3 (⟨r.val / 2048, by omega⟩ : Fin 4) (⟨r.val % 2048, by omega⟩ : Fin 2048) d) ?_
  rw [Shape.rowMajor_val_three, Shape.rowMajor_val_two]
  show (r.val / 2048 * 2048 + r.val % 2048) * 1024 + d.val = r.val * 1024 + d.val
  omega

/-- The narrowed memory is the memory. -/
theorem v5_apply (n : Fin 8192) (e : Fin 1024) :
    Gen.V1 m c main_v5 (ix2 n e) = mOf (m ((c : Thread nD τ).loc main_arg1)) n e := by
  have h : (Gen.V1 m c main_v5 : S8192x1024.Idx → EReal)
      = truncf (F := Ideal) .bf16 (m ((c : Thread nD τ).loc main_arg1)) bitsLt_bf16_f32 := by
    dsimp only [Gen.V1, Gen.V0, hostOps0]; after_results
  exact congrFun h (ix2 n e)

/-- The array of concatenated weights as a term: the two transposes side by side along the columns, narrowed. -/
theorem v4_term :
    (Gen.V1 m c main_v4 : S1024x2048.Idx → EReal)
      = truncf (F := Ideal) .bf16 (concatenate S1024x2048 1
          [⟨S1024x1024, transpose S1024x1024 [1, 0] (m ((c : Thread nD τ).loc main_arg2)) transposes_S1024x1024_S1024x1024_1_0⟩,
           ⟨S1024x1024, transpose S1024x1024 [1, 0] (m ((c : Thread nD τ).loc main_arg3)) transposes_S1024x1024_S1024x1024_1_0⟩]
          concatenates_S1024x1024_S1024x1024_S1024x2048_d1) bitsLt_bf16_f32 := by
  dsimp only [Gen.V1, Gen.V0, hostOps0]; after_results

/-- The concatenated weights: columns 0 … 1023 are Wkᵀ, -/
theorem v4_apply_k (e d : Fin 1024) :
    Gen.V1 m c main_v4 (ix2 e (⟨d.val, by omega⟩ : Fin 2048)) = wOf (m ((c : Thread nD τ).loc main_arg2)) d e := by
  refine (congrFun (v4_term m c) (ix2 e (⟨d.val, by omega⟩ : Fin 2048))).trans ?_
  rw [truncf_apply]
  -- column d < 1024 falls in the left piece, at (e, d); the transpose reads the argument at (d, e)
  refine (concatenate_pair_apply_left (s₁ := S1024x1024) (s₂ := S1024x1024) (1 : Fin 2) _ _ concatenates_S1024x1024_S1024x1024_S1024x2048_d1
    (ix2 e (⟨d.val, by omega⟩ : Fin 2048)) rfl (ix2 e d)
    (fun b => match b with | ⟨0, _⟩ => rfl | ⟨1, _⟩ => rfl)).trans ?_
  unfold wOf
  exact transpose_apply [1, 0] _ transposes_S1024x1024_S1024x1024_1_0 (ix2 e d) (ix2 d e)
    (fun b => match b with | ⟨0, _⟩ => rfl | ⟨1, _⟩ => rfl)

/-- columns 1024 … 2047 are Wvᵀ. -/
theorem v4_apply_v (e d : Fin 1024) :
    Gen.V1 m c main_v4 (ix2 e (⟨1024 + d.val, by omega⟩ : Fin 2048)) = wOf (m ((c : Thread nD τ).loc main_arg3)) d e := by
  refine (congrFun (v4_term m c) (ix2 e (⟨1024 + d.val, by omega⟩ : Fin 2048))).trans ?_
  rw [truncf_apply]
  -- column 1024 + d falls in the right piece, at (e, d); the transpose reads the argument at (d, e)
  refine (concatenate_pair_apply_right (s₁ := S1024x1024) (s₂ := S1024x1024) (1 : Fin 2) _ _ concatenates_S1024x1024_S1024x1024_S1024x2048_d1
    (ix2 e (⟨1024 + d.val, by omega⟩ : Fin 2048)) rfl rfl (ix2 e d)
    (fun b => match b with | ⟨0, _⟩ => fun _ => rfl | ⟨1, _⟩ => fun hb => absurd rfl hb)
    (by show d.val + 1024 = 1024 + d.val; omega)).trans ?_
  unfold wOf
  exact transpose_apply [1, 0] _ transposes_S1024x1024_S1024x1024_1_0 (ix2 e d) (ix2 d e)
    (fun b => match b with | ⟨0, _⟩ => rfl | ⟨1, _⟩ => rfl)

/-- The closing reshape: entry (b, s, d) of the result is entry (2048·b + s, d) of the output rows, whatever the buffers hold. -/
theorem v8_apply (W : Valuation τ sig (Elt Ideal)) (b : Fin 4) (s : Fin 2048) (d : Fin 1024) :
    StableHlo.after (hostOps2 (F := Ideal)) W main_v8 (ix3 b s d) = W main_v7 (ix2 (row b s) d) := by
  have e : (StableHlo.after (hostOps2 (F := Ideal)) W main_v8 : S4x2048x1024.Idx → EReal)
      = shapeCast S4x2048x1024 (W main_v7) shapeCasts_S8192x1024_S4x2048x1024 := by
    dsimp only [hostOps2]; after_results; rfl
  refine (congrFun e (ix3 b s d)).trans ?_
  -- the two row-major positions: (2048·b + s) · 1024 + d  and  (b · 2048 + s) · 1024 + d
  refine shapeCast_apply _ shapeCasts_S8192x1024_S4x2048x1024 (ix3 b s d) (ix2 (row b s) d) ?_
  rw [Shape.rowMajor_val_three, Shape.rowMajor_val_two]
  show (2048 * b.val + s.val) * 1024 + d.val = (b.val * 2048 + s.val) * 1024 + d.val
  omega

end Cert.KernelIdeal.HostVals

end
-- ==== Proof.KI.AttnPieces.lean ====
/-
  The attention body's found pieces read back as values. With j = 0: the narrowed query block; the row maxima of its
  logits against the key block; the block's row sums of shifted exponentials; its product with the value block. With
  0 < j: the carried normaliser and weighted sum, each plus this block's contribution. With j = 3 also the output block:
  the query block plus the updated weighted sum over the updated normaliser. Each is one covering store's payload whose
  loads read whole buffers — the inputs' blocks, the carried scratch, or what an earlier store of the same run left.
-/
import proofs.«100357_g33603824124095_fold_wed_c4_546_8_alg».proof.Proof.KI.Attn
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- j = 0: the query scratch ends at the narrowed query block. -/
theorem sout1_A_3_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) :
    sout1_A_3 c i arg2 harg2 arg3 harg3 arg4 harg4 arg5 harg5 arg6 harg6 arg7 harg7 arg8 harg8 arg9 harg9 hc0 hc4 hc5 x0 x1 x2 = k1_pay1 x0 := by
  unfold sout1_A_3
  rw [View.read_writes_eq_canon _ _ _ (scover1_A_3 c i arg2 harg2 arg3 harg3 arg4 harg4 arg5 harg5 arg6 harg6 arg7 harg7 arg8 harg8 arg9 harg9 hc0 hc4 hc5 x0 x1 x2)]
  unfold kernelRun1_A
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

/-- j = 0: the shift is the row maxima of the logits against the first key block. -/
theorem sout1_A_1_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) :
    sout1_A_1 c i arg2 harg2 arg3 harg3 arg4 harg4 arg5 harg5 arg6 harg6 arg7 harg7 arg8 harg8 arg9 harg9 hc0 hc4 hc5 x0 x1 x2 = k1_pay3 (k1_pay1 x0) x1 := by
  unfold sout1_A_1
  rw [View.read_writes_eq_canon _ _ _ (scover1_A_1 c i arg2 harg2 arg3 harg3 arg4 harg4 arg5 harg5 arg6 harg6 arg7 harg7 arg8 harg8 arg9 harg9 hc0 hc4 hc5 x0 x1 x2)]
  unfold kernelRun1_A
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

/-- j = 0: the normaliser starts at the first block's row sums. -/
theorem sout1_A_2_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) :
    sout1_A_2 c i arg2 harg2 arg3 harg3 arg4 harg4 arg5 harg5 arg6 harg6 arg7 harg7 arg8 harg8 arg9 harg9 hc0 hc4 hc5 x0 x1 x2 = k1_pay7 (k1_pay1 x0) x1 (k1_pay3 (k1_pay1 x0) x1) := by
  unfold sout1_A_2
  rw [View.read_writes_eq_canon _ _ _ (scover1_A_2 c i arg2 harg2 arg3 harg3 arg4 harg4 arg5 harg5 arg6 harg6 arg7 harg7 arg8 harg8 arg9 harg9 hc0 hc4 hc5 x0 x1 x2)]
  unfold kernelRun1_A
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

/-- j = 0: the weighted sum starts at the first block's product. -/
theorem sout1_A_0_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : cond1_0 i) (hc4 : ¬cond1_4 i) (hc5 : ¬cond1_5 i)
    (x0 : Vec F S1024x1024 .f32) (x1 : Vec F S2048x1024 .bf16) (x2 : Vec F S2048x1024 .bf16) :
    sout1_A_0 c i arg2 harg2 arg3 harg3 arg4 harg4 arg5 harg5 arg6 harg6 arg7 harg7 arg8 harg8 arg9 harg9 hc0 hc4 hc5 x0 x1 x2 = k1_pay8 (k1_pay1 x0) x1 (k1_pay3 (k1_pay1 x0) x1) x2 := by
  unfold sout1_A_0
  rw [View.read_writes_eq_canon _ _ _ (scover1_A_0 c i arg2 harg2 arg3 harg3 arg4 harg4 arg5 harg5 arg6 harg6 arg7 harg7 arg8 harg8 arg9 harg9 hc0 hc4 hc5 x0 x1 x2)]
  unfold kernelRun1_A
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

/-- 0 < j < 3: the weighted sum gains this block's product. -/
theorem sout1_B_0_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    sout1_B_0 c i arg2 harg2 arg3 harg3 arg4 harg4 arg5 harg5 arg6 harg6 arg7 harg7 arg8 harg8 arg9 harg9 hc0 hc4 hc5 x0 x1 x2 xs0 xs1 xs2 xs3 = k1_pay10 xs3 x1 xs1 x2 xs0 := by
  unfold sout1_B_0
  rw [View.read_writes_eq_canon _ _ _ (scover1_B_0 c i arg2 harg2 arg3 harg3 arg4 harg4 arg5 harg5 arg6 harg6 arg7 harg7 arg8 harg8 arg9 harg9 hc0 hc4 hc5 x0 x1 x2 xs0 xs1 xs2 xs3)]
  unfold kernelRun1_B
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

/-- 0 < j < 3: the normaliser gains this block's row sums. -/
theorem sout1_B_2_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : ¬cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    sout1_B_2 c i arg2 harg2 arg3 harg3 arg4 harg4 arg5 harg5 arg6 harg6 arg7 harg7 arg8 harg8 arg9 harg9 hc0 hc4 hc5 x0 x1 x2 xs0 xs1 xs2 xs3 = k1_pay9 xs3 x1 xs1 xs2 := by
  unfold sout1_B_2
  rw [View.read_writes_eq_canon _ _ _ (scover1_B_2 c i arg2 harg2 arg3 harg3 arg4 harg4 arg5 harg5 arg6 harg6 arg7 harg7 arg8 harg8 arg9 harg9 hc0 hc4 hc5 x0 x1 x2 xs0 xs1 xs2 xs3)]
  unfold kernelRun1_B
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

/-- j = 3: the weighted sum gains the last block's product. -/
theorem sout1_C_0_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    sout1_C_0 c i arg2 harg2 arg3 harg3 arg4 harg4 arg5 harg5 arg6 harg6 arg7 harg7 arg8 harg8 arg9 harg9 hc0 hc4 hc5 x0 x1 x2 xs0 xs1 xs2 xs3 = k1_pay10 xs3 x1 xs1 x2 xs0 := by
  unfold sout1_C_0
  rw [View.read_writes_eq_canon _ _ _ (scover1_C_0 c i arg2 harg2 arg3 harg3 arg4 harg4 arg5 harg5 arg6 harg6 arg7 harg7 arg8 harg8 arg9 harg9 hc0 hc4 hc5 x0 x1 x2 xs0 xs1 xs2 xs3)]
  unfold kernelRun1_C
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

/-- j = 3: the normaliser gains the last block's row sums. -/
theorem sout1_C_2_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    sout1_C_2 c i arg2 harg2 arg3 harg3 arg4 harg4 arg5 harg5 arg6 harg6 arg7 harg7 arg8 harg8 arg9 harg9 hc0 hc4 hc5 x0 x1 x2 xs0 xs1 xs2 xs3 = k1_pay9 xs3 x1 xs1 xs2 := by
  unfold sout1_C_2
  rw [View.read_writes_eq_canon _ _ _ (scover1_C_2 c i arg2 harg2 arg3 harg3 arg4 harg4 arg5 harg5 arg6 harg6 arg7 harg7 arg8 harg8 arg9 harg9 hc0 hc4 hc5 x0 x1 x2 xs0 xs1 xs2 xs3)]
  unfold kernelRun1_C
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

/-- j = 3: the output block is the query block plus the final weighted sum over the final normaliser. -/
theorem out1_C_3_eq (c : Dev nD) (i : grid1.Coords) (arg2 : Memref sig .tc .vmem S1024x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .bf16) (harg9 : arg9.IsWhole) (hc0 : ¬cond1_0 i) (hc4 : cond1_4 i) (hc5 : cond1_5 i)
    (x0 : Vec F S1024x1024 .f32) (x1 : Vec F S2048x1024 .bf16) (x2 : Vec F S2048x1024 .bf16)
    (xs0 : Vec F S1024x1024 .f32) (xs1 : Vec F S1024x1 .f32) (xs2 : Vec F S1024x1 .f32) (xs3 : Vec F S1024x1024 .bf16) :
    out1_C_3 c i arg2 harg2 arg3 harg3 arg4 harg4 arg5 harg5 arg6 harg6 arg7 harg7 arg8 harg8 arg9 harg9 hc0 hc4 hc5 x0 x1 x2 xs0 xs1 xs2 xs3 = k1_pay11 x0 (k1_pay10 xs3 x1 xs1 x2 xs0) (k1_pay9 xs3 x1 xs1 xs2) := by
  unfold out1_C_3
  rw [View.read_writes_eq_canon _ _ _ (cover1_C_3 c i arg2 harg2 arg3 harg3 arg4 harg4 arg5 harg5 arg6 harg6 arg7 harg7 arg8 harg8 arg9 harg9 hc0 hc4 hc5 x0 x1 x2 xs0 xs1 xs2 xs3)]
  unfold kernelRun1_C
  dsimp only
  sl_unfold_words
  rw [View.canon_unit_zero hz2]
  simp only [View.readAt_eq_ld, harg2.read_unread, harg3.read_unread, harg4.read_unread, harg6.read_unread, harg7.read_unread,
    harg8.read_unread, harg9.read_unread, View.ld_unit_zero (S := S1024x1024) hz2, View.ld_unit_zero (S := S2048x1024) hz2,
    View.ld_unit_zero (S := S1024x1) hz2, View.readCov_unit_zero (S := S1024x1024) _ hz2, View.readCov_unit_zero (S := S1024x1) _ hz2]

end Cert.KernelIdeal.Hand

end
-- ==== Proof.KI.AttnFold.lean ====
/-
  One query block through its four grid points. The scratch state after a point with j = 0 does not depend on what came
  before it, so each query block i is on its own: after (i, 0) the scratch holds the narrowed query, the shift, and the
  first block's two sums; after (i, 1) and (i, 2) the sums have gained those blocks' contributions; after (i, 3) they have
  gained the last block's, and the output's staging buffer holds the query block plus their quotient. Here this is said in
  the payloads' own terms, for any values.
-/
import proofs.«100357_g33603824124095_fold_wed_c4_546_8_alg».proof.Proof.KI.AttnPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Fold
variable (V : (c : Dev nD) → (b : Ref sig .tc) → Buf (Elt F) ((c : Thread nD τ).loc b)) (c : Dev nD)

/-- The grid point (i, j): position 4·i + j. -/
def pt (i : Fin 8) (j : Fin 4) : Fin cfg1.N := ⟨4 * i.val + j.val, by rw [show cfg1.N = 32 from N_1]; omega⟩

theorem pt_val (i : Fin 8) (j : Fin 4) : (pt i j).val = 4 * i.val + j.val := rfl

theorem outsAt1_congr {n n' : ℕ} (e : n = n') (h : n < cfg1.N) (h' : n' < cfg1.N) : outsAt1 V c n h = outsAt1 V c n' h' := by
  subst e; rfl

/-- The three input blocks at the point (i, j). -/
abbrev hB (i : Fin 8) (j : Fin 4) : Vec F S1024x1024 .f32 := iblk1 V c 0 (pt i j)
abbrev kB (i : Fin 8) (j : Fin 4) : Vec F S2048x1024 .bf16 := iblk1 V c 1 (pt i j)
abbrev vB (i : Fin 8) (j : Fin 4) : Vec F S2048x1024 .bf16 := iblk1 V c 2 (pt i j)

/-- The narrowed query block and the shift, fixed at (i, 0). -/
def q0 (i : Fin 8) : Vec F S1024x1024 .bf16 := k1_pay1 (hB V c i 0)
def m0 (i : Fin 8) : Vec F S1024x1 .f32 := k1_pay3 (q0 V c i) (kB V c i 0)
/-- The normaliser after the points (i, 0) … (i, 3). -/
def l0 (i : Fin 8) : Vec F S1024x1 .f32 := k1_pay7 (q0 V c i) (kB V c i 0) (m0 V c i)
def l1 (i : Fin 8) : Vec F S1024x1 .f32 := k1_pay9 (q0 V c i) (kB V c i 1) (m0 V c i) (l0 V c i)
def l2 (i : Fin 8) : Vec F S1024x1 .f32 := k1_pay9 (q0 V c i) (kB V c i 2) (m0 V c i) (l1 V c i)
def l3 (i : Fin 8) : Vec F S1024x1 .f32 := k1_pay9 (q0 V c i) (kB V c i 3) (m0 V c i) (l2 V c i)
/-- The weighted sum after the points (i, 0) … (i, 3). -/
def a0 (i : Fin 8) : Vec F S1024x1024 .f32 := k1_pay8 (q0 V c i) (kB V c i 0) (m0 V c i) (vB V c i 0)
def a1 (i : Fin 8) : Vec F S1024x1024 .f32 := k1_pay10 (q0 V c i) (kB V c i 1) (m0 V c i) (vB V c i 1) (a0 V c i)
def a2 (i : Fin 8) : Vec F S1024x1024 .f32 := k1_pay10 (q0 V c i) (kB V c i 2) (m0 V c i) (vB V c i 2) (a1 V c i)
def a3 (i : Fin 8) : Vec F S1024x1024 .f32 := k1_pay10 (q0 V c i) (kB V c i 3) (m0 V c i) (vB V c i 3) (a2 V c i)
/-- The output block of query block i. -/
def oB (i : Fin 8) : Vec F S1024x1024 .f32 := k1_pay11 (hB V c i 3) (a3 V c i) (l3 V c i)

theorem state0 (i : Fin 8) :
    outsAt1 V c (pt i 0).val (pt i 0).isLt = (idleOut, a0 V c i, m0 V c i, l0 V c i, q0 V c i) := by
  rw [outsAt1_A V c (pt i 0) (by rw [pt_val]; simp)]
  unfold caseA; dsimp only
  rw [sout1_A_0_eq, sout1_A_1_eq, sout1_A_2_eq, sout1_A_3_eq]
  rfl

theorem state1 (i : Fin 8) :
    outsAt1 V c (pt i 1).val (pt i 1).isLt = (idleOut, a1 V c i, m0 V c i, l1 V c i, q0 V c i) := by
  rw [outsAt1_B V c (pt i 1) (by rw [pt_val]; simp) (by rw [pt_val]; simp),
    outsAt1_congr V c (show (pt i 1).val - 1 = (pt i 0).val from by simp [pt_val]) _ (pt i 0).isLt, state0]
  unfold caseB; dsimp only
  rw [sout1_B_0_eq, sout1_B_2_eq]
  rfl

theorem state2 (i : Fin 8) :
    outsAt1 V c (pt i 2).val (pt i 2).isLt = (idleOut, a2 V c i, m0 V c i, l2 V c i, q0 V c i) := by
  rw [outsAt1_B V c (pt i 2) (by rw [pt_val]; simp) (by rw [pt_val]; simp),
    outsAt1_congr V c (show (pt i 2).val - 1 = (pt i 1).val from by simp [pt_val]) _ (pt i 1).isLt, state1]
  unfold caseB; dsimp only
  rw [sout1_B_0_eq, sout1_B_2_eq]
  rfl

theorem state3 (i : Fin 8) :
    outsAt1 V c (pt i 3).val (pt i 3).isLt = (oB V c i, a3 V c i, m0 V c i, l3 V c i, q0 V c i) := by
  rw [outsAt1_C V c (pt i 3) (by rw [pt_val]; simp) (by rw [pt_val]; simp),
    outsAt1_congr V c (show (pt i 3).val - 1 = (pt i 2).val from by simp [pt_val]) _ (pt i 2).isLt, state2]
  unfold caseC; dsimp only
  rw [sout1_C_0_eq, sout1_C_2_eq, out1_C_3_eq]
  rfl

/-- What the attention pipeline's output window holds after the last point of query block i: the output block. -/
theorem after_flush (i : Fin 8) : (dat1 V c).after 3 (pt i 3) = oB V c i := by
  rw [after1_3, state3]

end Fold

end Cert.KernelIdeal.Hand

end
-- ==== Proof.Pay.lean ====
/-
  The two kernels' arithmetic read at an index, over the extended reals. The projection body is one matrix product. The
  attention body's payloads: the narrowing of the query block (the identity here), the logits q·kᵀ of a query block
  against a key block, their row maxima, the shifted exponentials, their row sums, the product of the exponentials with a
  value block, the two running sums, and the closing  h + acc / l.
-/
import proofs.«100357_g33603824124095_fold_wed_c4_546_8_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen

section Helpers
variable {α : Type}

/-- An [a, 1] column broadcast to [a, b] reads, at (p, c), the column's entry of row p. -/
theorem bcastCol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to the column [a, 1] reads, at (i, u), the operand at i, whatever the unit coordinate u. -/
theorem castCol_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Helpers

/-- The index a lane reduction of a [1024, 2048] block inserts over row r at lane k is (r, k). -/
theorem lift_row (r : Fin 1024) (k : Fin 2048) :
    reduces_S1024x2048_S1024.lift (ix1 r) k = ix2 r k := by
  funext c
  match c with
  | ⟨0, _⟩ => rfl
  | ⟨1, _⟩ => rfl

/-- The f32 pattern 0xFF800000 denotes −∞. -/
theorem neg_inf_lit : (FloatOps.ofBits (F := Ideal) .f32 0xFF800000#32 : EReal) = ⊥ := by
  simp [Ideal.ofBits, Ideal.ieee]

/-- A product into the zero accumulator whose contraction has ONE axis, of extent K, read at an index: the sum over
    that axis's coordinate of the operands at the indices the dimension numbers name. -/
theorem matmul_zero_sum {sl sr so : Shape} {φ₁ φ₂ : FTy} (D : DotDims sl sr so) (K : Nat) (hr : D.contr.rank = 1)
    (hs : D.contr.size ⟨0, by omega⟩ = K) (lhs : FVec Ideal sl φ₁) (rhs : FVec Ideal sr φ₂) (j : so.Idx)
    (L : Fin K → sl.Idx) (R : Fin K → sr.Idx)
    (hl : ∀ k, D.lhsIdx j ((contrEquiv1 D K hr hs).symm k) = L k)
    (hR : ∀ k, D.rhsIdx j ((contrEquiv1 D K hr hs).symm k) = R k) :
    matmul D none lhs rhs (constant so .f32 0x00000000#32) j = ∑ k : Fin K, lhs (L k) * rhs (R k) := by
  simp only [matmul]
  rw [Ideal.matmul_constant_zero_apply, ← Equiv.sum_comp (contrEquiv1 D K hr hs).symm]
  exact Finset.sum_congr rfl fun k _ => by rw [hl k, hR k]

/-! ### The projection's product: rows of the left operand against columns of the right -/

theorem lhs_proj_0 (i : S2048x2048.Idx) (q : dot_S2048x1024_S1024x2048_S2048x2048_1_0_0_1_n_n.contr.Idx) :
    (dot_S2048x1024_S1024x2048_S2048x2048_1_0_0_1_n_n.lhsIdx i q 0).val = (i 0).val := by
  unfold DotDims.lhsIdx
  rw [dif_neg (show ¬(0 : Fin S2048x1024.rank) ∈ dot_S2048x1024_S1024x2048_S2048x2048_1_0_0_1_n_n.lhsBatch by decide),
    dif_pos (show (0 : Fin S2048x1024.rank) ∈ dot_S2048x1024_S1024x2048_S2048x2048_1_0_0_1_n_n.lhsNonContracting by decide)]
  rfl
theorem lhs_proj_1 (i : S2048x2048.Idx) (q : dot_S2048x1024_S1024x2048_S2048x2048_1_0_0_1_n_n.contr.Idx) :
    (dot_S2048x1024_S1024x2048_S2048x2048_1_0_0_1_n_n.lhsIdx i q 1).val = (q ⟨0, by decide⟩).val :=
  dot_S2048x1024_S1024x2048_S2048x2048_1_0_0_1_n_n.lhsIdx_val_of_single rfl i q
theorem rhs_proj_0 (i : S2048x2048.Idx) (q : dot_S2048x1024_S1024x2048_S2048x2048_1_0_0_1_n_n.contr.Idx) :
    (dot_S2048x1024_S1024x2048_S2048x2048_1_0_0_1_n_n.rhsIdx i q 0).val = (q ⟨0, by decide⟩).val :=
  dot_S2048x1024_S1024x2048_S2048x2048_1_0_0_1_n_n.rhsIdx_val_of_single rfl i q
theorem rhs_proj_1 (i : S2048x2048.Idx) (q : dot_S2048x1024_S1024x2048_S2048x2048_1_0_0_1_n_n.contr.Idx) :
    (dot_S2048x1024_S1024x2048_S2048x2048_1_0_0_1_n_n.rhsIdx i q 1).val = (i 1).val := by
  unfold DotDims.rhsIdx
  rw [dif_neg (show ¬(1 : Fin S1024x2048.rank) ∈ dot_S2048x1024_S1024x2048_S2048x2048_1_0_0_1_n_n.rhsBatch by decide),
    dif_pos (show (1 : Fin S1024x2048.rank) ∈ dot_S2048x1024_S1024x2048_S2048x2048_1_0_0_1_n_n.rhsNonContracting by decide)]
  rfl

/-- The projection's payload: the product of a block of memory rows with the concatenated weights. -/
theorem pay0_apply (v0 : Vec Ideal S2048x1024 .bf16) (v2 : Vec Ideal S1024x2048 .bf16) (n : Fin 2048) (j : Fin 2048) :
    k0_pay1 (F := Ideal) v0 v2 (ix2 n j) = ∑ e : Fin 1024, v0 (ix2 n e) * v2 (ix2 e j) := by
  unfold k0_pay1
  rw [truncf_apply, shapeCast_self, shapeCast_self]
  refine matmul_zero_sum dot_S2048x1024_S1024x2048_S2048x2048_1_0_0_1_n_n 1024 rfl rfl v0 v2 (ix2 n j)
    (fun e => ix2 n e) (fun e => ix2 e j) (fun e => ?_) (fun e => ?_)
  · have hk := contrEquiv1_symm_val dot_S2048x1024_S1024x2048_S2048x2048_1_0_0_1_n_n 1024 rfl rfl e
    exact funext fun a => Fin.ext (by
      match a with
      | ⟨0, _⟩ => exact lhs_proj_0 _ _
      | ⟨1, _⟩ => exact (lhs_proj_1 _ _).trans hk)
  · have hk := contrEquiv1_symm_val dot_S2048x1024_S1024x2048_S2048x2048_1_0_0_1_n_n 1024 rfl rfl e
    exact funext fun a => Fin.ext (by
      match a with
      | ⟨0, _⟩ => exact (rhs_proj_0 _ _).trans hk
      | ⟨1, _⟩ => exact rhs_proj_1 _ _)

/-- Narrowing the query block changes nothing over the extended reals. -/
theorem pay1_apply (x0 : Vec Ideal S1024x1024 .f32) (r d : Fin 1024) : k1_pay1 (F := Ideal) x0 (ix2 r d) = x0 (ix2 r d) := by
  unfold k1_pay1
  rw [shapeCast_self, truncf_apply, shapeCast_self]

/-! ### The logits: both operands contracted along their feature axis (axis 1) -/

theorem lhs_logit_0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide),
    dif_pos (show (0 : Fin S1024x1024.rank) ∈ dot_S1024x1024_S2048x1024_S1024x2048_1_1_0_0_n_n.lhsNonContracting by decide)]
  rfl
theorem lhs_logit_1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
theorem rhs_logit_0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide),
    dif_pos (show (0 : Fin S2048x1024.rank) ∈ dot_S1024x1024_S2048x1024_S1024x2048_1_1_0_0_n_n.rhsNonContracting by decide)]
  rfl
theorem rhs_logit_1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- The logits of a query block against a key block: both contracted along the feature axis. -/
theorem pay2_apply (v3 : Vec Ideal S1024x1024 .bf16) (v4 : Vec Ideal S2048x1024 .bf16) (r : Fin 1024) (n : Fin 2048) :
    k1_pay2 (F := Ideal) v3 v4 (ix2 r n) = ∑ d : Fin 1024, v3 (ix2 r d) * v4 (ix2 n d) := by
  unfold k1_pay2
  rw [shapeCast_self]
  refine matmul_zero_sum dot_S1024x1024_S2048x1024_S1024x2048_1_1_0_0_n_n 1024 rfl rfl v3 v4 (ix2 r n)
    (fun d => ix2 r d) (fun d => ix2 n d) (fun d => ?_) (fun d => ?_)
  · have hk := contrEquiv1_symm_val dot_S1024x1024_S2048x1024_S1024x2048_1_1_0_0_n_n 1024 rfl rfl d
    exact funext fun a => Fin.ext (by
      match a with
      | ⟨0, _⟩ => exact lhs_logit_0 _ _
      | ⟨1, _⟩ => exact (lhs_logit_1 _ _).trans hk)
  · have hk := contrEquiv1_symm_val dot_S1024x1024_S2048x1024_S1024x2048_1_1_0_0_n_n 1024 rfl rfl d
    exact funext fun a => Fin.ext (by
      match a with
      | ⟨0, _⟩ => exact rhs_logit_0 _ _
      | ⟨1, _⟩ => exact (rhs_logit_1 _ _).trans hk)

/-- The row maxima of the logits, from −∞. -/
theorem pay3_apply (v3 : Vec Ideal S1024x1024 .bf16) (v4 : Vec Ideal S2048x1024 .bf16) (r : Fin 1024) (z : Fin 1) :
    k1_pay3 (F := Ideal) v3 v4 (ix2 r z) = (Finset.univ : Finset (Fin 2048)).fold max ⊥ (fun n => k1_pay2 (F := Ideal) v3 v4 (ix2 r n)) := by
  unfold k1_pay3
  rw [shapeCast_self, castCol_apply]
  refine (Ideal.multiReduction_maximumf_single (k1_pay2 (F := Ideal) v3 v4) _ reduces_S1024x2048_S1024 _ _ (ix1 r)).trans ?_
  rw [neg_inf_lit]
  exact congrArg (fun f => (Finset.univ : Finset (Fin 2048)).fold max ⊥ f)
    (funext fun n => congrArg (k1_pay2 (F := Ideal) v3 v4) (lift_row r n))

/-- The exponentials of the logits shifted by the row's carried maximum. -/
theorem pay4_apply (v3 : Vec Ideal S1024x1024 .bf16) (v4 : Vec Ideal S2048x1024 .bf16) (v10 : Vec Ideal S1024x1 .f32) (r : Fin 1024) (n : Fin 2048) :
    k1_pay4 (F := Ideal) v3 v4 v10 (ix2 r n) = Ideal.exp (k1_pay2 (F := Ideal) v3 v4 (ix2 r n) - v10 (ix2 r (0 : Fin 1))) := by
  unfold k1_pay4
  show Ideal.exp (k1_pay2 (F := Ideal) v3 v4 (ix2 r n)
    - broadcastTo S1024x2048 v10 broadcasts_S1024x1_S1024x2048 (ix2 r n)) = _
  rw [bcastCol_apply]

/-- Their row sums. -/
theorem pay5_apply (v3 : Vec Ideal S1024x1024 .bf16) (v4 : Vec Ideal S2048x1024 .bf16) (v10 : Vec Ideal S1024x1 .f32) (r : Fin 1024) (z : Fin 1) :
    k1_pay5 (F := Ideal) v3 v4 v10 (ix2 r z) = ∑ n : Fin 2048, k1_pay4 (F := Ideal) v3 v4 v10 (ix2 r n) := by
  unfold k1_pay5
  rw [castCol_apply]
  refine (Ideal.multiReduction_add_single (k1_pay4 (F := Ideal) v3 v4 v10) _ reduces_S1024x2048_S1024 _ _ (ix1 r)).trans ?_
  show ∑ k : Fin 2048, k1_pay4 (F := Ideal) v3 v4 v10 (reduces_S1024x2048_S1024.lift (ix1 r) k) = _
  simp only [lift_row]

/-! ### The weighted values: rows of the exponentials against columns of the value block -/

theorem lhs_wv_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl
theorem lhs_wv_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem rhs_wv_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem rhs_wv_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-- The exponentials times a value block. -/
theorem pay6_apply (v3 : Vec Ideal S1024x1024 .bf16) (v4 : Vec Ideal S2048x1024 .bf16) (v10 : Vec Ideal S1024x1 .f32) (v17 : Vec Ideal S2048x1024 .bf16)
    (r d : Fin 1024) :
    k1_pay6 (F := Ideal) v3 v4 v10 v17 (ix2 r d) = ∑ n : Fin 2048, k1_pay4 (F := Ideal) v3 v4 v10 (ix2 r n) * v17 (ix2 n d) := by
  unfold k1_pay6
  rw [shapeCast_self]
  refine matmul_zero_sum dot_S1024x2048_S2048x1024_S1024x1024_1_0_0_1_n_n 2048 rfl rfl
    (truncf .bf16 (k1_pay4 (F := Ideal) v3 v4 v10) bitsLt_bf16_f32) v17 (ix2 r d)
    (fun n => ix2 r n) (fun n => ix2 n d) (fun n => ?_) (fun n => ?_)
  · have hk := contrEquiv1_symm_val dot_S1024x2048_S2048x1024_S1024x1024_1_0_0_1_n_n 2048 rfl rfl n
    exact funext fun a => Fin.ext (by
      match a with
      | ⟨0, _⟩ => exact lhs_wv_0 _ _
      | ⟨1, _⟩ => exact (lhs_wv_1 _ _).trans hk)
  · have hk := contrEquiv1_symm_val dot_S1024x2048_S2048x1024_S1024x1024_1_0_0_1_n_n 2048 rfl rfl n
    exact funext fun a => Fin.ext (by
      match a with
      | ⟨0, _⟩ => exact (rhs_wv_0 _ _).trans hk
      | ⟨1, _⟩ => exact rhs_wv_1 _ _)

/-- The first normaliser is the block's row sums; the first weighted sum is the block's product. -/
theorem pay7_apply (v3 : Vec Ideal S1024x1024 .bf16) (v4 : Vec Ideal S2048x1024 .bf16) (v10 : Vec Ideal S1024x1 .f32) (r : Fin 1024) (z : Fin 1) :
    k1_pay7 (F := Ideal) v3 v4 v10 (ix2 r z) = k1_pay5 (F := Ideal) v3 v4 v10 (ix2 r z) := by
  unfold k1_pay7
  rw [shapeCast_self]
theorem pay8_apply (v3 : Vec Ideal S1024x1024 .bf16) (v4 : Vec Ideal S2048x1024 .bf16) (v10 : Vec Ideal S1024x1 .f32) (v17 : Vec Ideal S2048x1024 .bf16)
    (r d : Fin 1024) :
    k1_pay8 (F := Ideal) v3 v4 v10 v17 (ix2 r d) = k1_pay6 (F := Ideal) v3 v4 v10 v17 (ix2 r d) := by
  unfold k1_pay8
  rw [shapeCast_self]

/-- A later block adds its row sums to the carried normaliser, and its product to the carried weighted sum. -/
theorem pay9_apply (v3 : Vec Ideal S1024x1024 .bf16) (v4 : Vec Ideal S2048x1024 .bf16) (v10 : Vec Ideal S1024x1 .f32) (v29 : Vec Ideal S1024x1 .f32)
    (r : Fin 1024) (z : Fin 1) :
    k1_pay9 (F := Ideal) v3 v4 v10 v29 (ix2 r z) = v29 (ix2 r z) + k1_pay5 (F := Ideal) v3 v4 v10 (ix2 r z) := by
  unfold k1_pay9
  rw [shapeCast_self, addf_apply]
theorem pay10_apply (v3 : Vec Ideal S1024x1024 .bf16) (v4 : Vec Ideal S2048x1024 .bf16) (v10 : Vec Ideal S1024x1 .f32) (v17 : Vec Ideal S2048x1024 .bf16)
    (v34 : Vec Ideal S1024x1024 .f32) (r d : Fin 1024) :
    k1_pay10 (F := Ideal) v3 v4 v10 v17 v34 (ix2 r d) = v34 (ix2 r d) + k1_pay6 (F := Ideal) v3 v4 v10 v17 (ix2 r d) := by
  unfold k1_pay10
  rw [shapeCast_self, addf_apply]

/-- The output block: the query block plus the weighted sum over the row's normaliser. -/
theorem pay11_apply (v29 v31 : Vec Ideal S1024x1024 .f32) (v32 : Vec Ideal S1024x1 .f32) (r d : Fin 1024) :
    k1_pay11 (F := Ideal) v29 v31 v32 (ix2 r d) = v29 (ix2 r d) + Ideal.div (v31 (ix2 r d)) (v32 (ix2 r (0 : Fin 1))) := by
  unfold k1_pay11
  rw [addf_apply, divf_apply, shapeCast_self, bcastCol_apply]

end Cert.KernelIdeal.Pay

end
-- ==== Proof.ProjValue.lean ====
/-
  The projection region's result, read at an index over the extended reals: the key/value array its write-backs leave is
  K = M·Wkᵀ in its columns 0 … 1023 and V = M·Wvᵀ in its columns 1024 … 2047. Each grid point writes back the product
  of its block of 2048 memory rows with the concatenated weights; the four blocks tile the array.
-/
import proofs.«100357_g33603824124095_fold_wed_c4_546_8_alg».proof.Proof.KI.Frame
import proofs.«100357_g33603824124095_fold_wed_c4_546_8_alg».proof.Proof.Pay
import proofs.«100357_g33603824124095_fold_wed_c4_546_8_alg».proof.Proof.HostVals
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (c : Dev nD)

/-- The zero offsets of a whole-buffer access. -/
theorem pv_hz : (![0, 0] : Fin 2 → Nat) = fun _ => 0 := funext fun a => by fin_cases a <;> rfl

/-- The product of a memory array with a weight array, entry by entry: row (i 0) against column (i 1). -/
def pv_G (A : S8192x1024.Idx → EReal) (B : S1024x2048.Idx → EReal) : S8192x2048.Idx → EReal :=
  fun i => ∑ e : Fin 1024, A (ix2 (⟨(i 0).val, (i 0).isLt⟩ : Fin 8192) e) * B (ix2 e (⟨(i 1).val, (i 1).isLt⟩ : Fin 2048))

/-- The printed index maps over the grid: the memory and the output move one block of rows per point, the weights stay. -/
theorem pv_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row 2048·t + n of the array, for a grid point t and a row n of its block. -/
def pv_row (t : Fin cfg0.N) (n : Fin 2048) : Fin 8192 :=
  ⟨2048 * t.val + n.val, by have h4 : cfg0.N = 4 := N_0; have := t.isLt; omega⟩

/-- The memory window's block at point t: its row n is row 2048·t + n of the memory array. -/
theorem pv_blkM_apply (t : Fin cfg0.N) (n : Fin 2048) (e : Fin 1024) :
    iblk0 (Vr1 m) c 0 t (ix2 n e) = Vr1 m c main_v5 (ix2 (pv_row t n) e) := by
  obtain ⟨e0, e1, -, -, -, -⟩ := pv_idx_facts t
  unfold iblk0
  rw [View.read_apply]
  show Vr1 m c main_v5 _ = Vr1 m c main_v5 _
  refine congrArg (Vr1 m c main_v5) (funext fun a => Fin.ext ?_)
  match a with
  | ⟨0, _⟩ => show win0_0.index t (0 : Fin 2) * 2048 + 1 * n.val = 2048 * t.val + n.val; omega
  | ⟨1, _⟩ => show win0_0.index t (1 : Fin 2) * 1024 + 1 * e.val = e.val; omega

/-- The weight window's block at every point is the whole weight array. -/
theorem pv_blkW_apply (t : Fin cfg0.N) (e : Fin 1024) (j : Fin 2048) :
    iblk0 (Vr1 m) c 1 t (ix2 e j) = Vr1 m c main_v4 (ix2 e j) := by
  obtain ⟨-, -, e2, e3, -, -⟩ := pv_idx_facts t
  unfold iblk0
  rw [View.read_apply]
  show Vr1 m c main_v4 _ = Vr1 m c main_v4 _
  refine congrArg (Vr1 m c main_v4) (funext fun a => Fin.ext ?_)
  match a with
  | ⟨0, _⟩ => show win0_1.index t (0 : Fin 2) * 1024 + 1 * e.val = e.val; omega
  | ⟨1, _⟩ => show win0_1.index t (1 : Fin 2) * 2048 + 1 * j.val = j.val; omega

/-- WHAT POINT t WRITES BACK is block t of the product of the memory array with the weight array. -/
theorem pv_flushed_eq (t : Fin cfg0.N) :
    (dat0 (Vr1 m) c).flushed 2 t
      = ((cfg0.win 2).blk t).view.read (Elt Ideal) (pv_G (Vr1 m c main_v5) (Vr1 m c main_v4)) := by
  show (cfg0.win 2).cut (grid0.coords t) ((dat0 (Vr1 m) c).after 2 t) = _
  rw [after0_2]
  unfold out0_2
  rw [View.canon_unit_zero pv_hz]
  simp only [View.ld_unit_zero (S := S2048x1024) pv_hz, View.ld_unit_zero (S := S1024x2048) pv_hz]
  funext j
  obtain ⟨p, q, rfl⟩ : ∃ (p : Fin 2048) (q : Fin 2048), j = ix2 p q := ⟨j 0, j 1, eq_ix2 j⟩
  obtain ⟨-, -, -, -, e4, e5⟩ := pv_idx_facts t
  -- inside the staging buffer the index is (p, q); in the array it is (2048·t + p, q)
  have hx : (win0 2).xinj (grid0.coords t) (ix2 p q) = ix2 p q :=
    funext fun a => Fin.ext (by match a with | ⟨0, _⟩ => rfl | ⟨1, _⟩ => rfl)
  have he : ((View.whole main_v6).slice ((win0 2).rect t)).emb (ix2 p q) = ix2 (pv_row t p) q :=
    funext fun a => Fin.ext (by
      match a with
      | ⟨0, _⟩ => show win0_2.index t (0 : Fin 2) * 2048 + 1 * p.val = 2048 * t.val + p.val; omega
      | ⟨1, _⟩ => show win0_2.index t (1 : Fin 2) * 2048 + 1 * q.val = q.val; omega)
  rw [View.read_apply, he]
  show k0_pay1 (F := Ideal) _ _ ((win0 2).xinj (grid0.coords t) (ix2 p q)) = _
  rw [hx]
  refine (Pay.pay0_apply (iblk0 (Vr1 m) c 0 t) (iblk0 (Vr1 m) c 1 t) p q).trans ?_
  unfold pv_G
  refine Finset.sum_congr rfl fun e _ => ?_
  rw [pv_blkM_apply, pv_blkW_apply]

/-- An index of the array is in point t's block iff each coordinate is in the block's range on its axis. -/
theorem pv_mem_blk (t : Fin cfg0.N) (i : S8192x2048.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v6).slice (win0_2.rect t)).set ↔ _
  rw [View.set_slice_whole, Rect.mem_set_unit]
  exact Iff.rfl

/-- The four blocks tile the array: row r lies in the block of point r / 2048, and every column in every block. -/
theorem pv_cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ : ∃ t : Fin cfg0.N, t.val = (i 0).val / 2048 :=
    ⟨⟨(i 0).val / 2048, by rw [show cfg0.N = 4 from N_0]; omega⟩, rfl⟩
  obtain ⟨-, -, -, -, e4, e5⟩ := pv_idx_facts t
  refine ⟨t, flush0_2 t, ?_⟩
  rw [pv_mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 2048 ≤ (i 1).val ∧ (i 1).val < win0_2.index t (1 : Fin 2) * 2048 + 2048
    omega

/-- THE ARRAY the projection region leaves: the product of the memory array with the concatenated weights. -/
theorem pv_final : kvArr m c = pv_G (Vr1 m c main_v5) (Vr1 m c main_v4) := by
  unfold kvArr
  exact (dat0 (Vr1 m) c).arrAt_eq_of_cover 2 _ (fun t _ => pv_flushed_eq m c t) pv_cover

/-- The product array at (n, d), d < 1024: the memory row n against the key weights' row d. -/
theorem pv_G_keys (n : Fin 8192) (d : Fin 1024) :
    pv_G (Vr1 m c main_v5) (Vr1 m c main_v4) (ix2 n (⟨d.val, by omega⟩ : Fin 2048))
      = kK (mOf (m ((c : Thread nD τ).loc main_arg1))) (wOf (m ((c : Thread nD τ).loc main_arg2))) n d := by
  unfold pv_G kK
  refine Finset.sum_congr rfl fun e _ => ?_
  exact congrArg₂ (fun a b : EReal => a * b) (HostVals.v5_apply m c n e) (HostVals.v4_apply_k m c e d)

/-- The product array at (n, 1024 + d): the memory row n against the value weights' row d. -/
theorem pv_G_values (n : Fin 8192) (d : Fin 1024) :
    pv_G (Vr1 m c main_v5) (Vr1 m c main_v4) (ix2 n (⟨1024 + d.val, by omega⟩ : Fin 2048))
      = kV (mOf (m ((c : Thread nD τ).loc main_arg1))) (wOf (m ((c : Thread nD τ).loc main_arg3))) n d := by
  unfold pv_G kV
  refine Finset.sum_congr rfl fun e _ => ?_
  exact congrArg₂ (fun a b : EReal => a * b) (HostVals.v5_apply m c n e) (HostVals.v4_apply_v m c e d)

/-- The key half: column d < 1024 of row n is K[n, d]. -/
theorem kv_K (n : Fin 8192) (d : Fin 1024) :
    kvArr m c (ix2 n (⟨d.val, by omega⟩ : Fin 2048))
      = kK (mOf (m ((c : Thread nD τ).loc main_arg1))) (wOf (m ((c : Thread nD τ).loc main_arg2))) n d := by
  exact (congrFun (pv_final m c) (ix2 n (⟨d.val, by omega⟩ : Fin 2048))).trans (pv_G_keys m c n d)

/-- The value half: column 1024 + d of row n is V[n, d]. -/
theorem kv_V (n : Fin 8192) (d : Fin 1024) :
    kvArr m c (ix2 n (⟨1024 + d.val, by omega⟩ : Fin 2048))
      = kV (mOf (m ((c : Thread nD τ).loc main_arg1))) (wOf (m ((c : Thread nD τ).loc main_arg3))) n d := by
  exact (congrFun (pv_final m c) (ix2 n (⟨1024 + d.val, by omega⟩ : Fin 2048))).trans (pv_G_values m c n d)

end Cert.KernelIdeal.Hand

end
-- ==== Proof.AttnValue.lean ====
/-
  The attention region's result, read at an index over the extended reals: the output array its write-backs leave is, at
  row R and column d, the BLOCKED reading of the specification — the query row plus the weighted sum over the normaliser,
  both accumulated over the four key blocks with the first block's row maximum as the exponent shift. Query block i is
  rows 1024·i …; its output block is written back after the point (i, 3); the eight blocks tile the array.
-/
import proofs.«100357_g33603824124095_fold_wed_c4_546_8_alg».proof.Proof.KI.AttnFold
import proofs.«100357_g33603824124095_fold_wed_c4_546_8_alg».proof.Proof.KI.Frame
import proofs.«100357_g33603824124095_fold_wed_c4_546_8_alg».proof.Proof.Pay
import proofs.«100357_g33603824124095_fold_wed_c4_546_8_alg».proof.Proof.HostVals
import proofs.«100357_g33603824124095_fold_wed_c4_546_8_alg».proof.Proof.ProjValue
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (c : Dev nD)

/-- The index maps of the four windows, decided over the grid: the point t is (t / 4, t % 4). -/
theorem av_idx : ∀ t : Fin cfg1.N, win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val % 4 ∧ win1_2.index t (1 : Fin 2) = 1
    ∧ win1_3.index t (0 : Fin 2) = t.val / 4 ∧ win1_3.index t (1 : Fin 2) = 0 :=
  (by decide +kernel : ∀ t : Fin grid1.N, win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val % 4 ∧ win1_2.index t (1 : Fin 2) = 1
    ∧ win1_3.index t (0 : Fin 2) = t.val / 4 ∧ win1_3.index t (1 : Fin 2) = 0)

/-- The query block at the point (i, j): rows 1024·i … of the flattened queries. -/
theorem av_hB (i : Fin 8) (j : Fin 4) (r d : Fin 1024) :
    hB (Vr2 m) c i j (ix2 r d)
      = hOf (m ((c : Thread nD τ).loc main_arg0)) (⟨1024 * i.val + r.val, by omega⟩ : Fin 8192) d := by
  obtain ⟨e0, e1, -⟩ := av_idx (pt i j)
  have hv : (pt i j).val = 4 * i.val + j.val := rfl
  show Vr2 m c main_v0 (((cfg1.win 0).blk (pt i j)).view.emb (ix2 r d)) = _
  rw [W2_of_ne m c main_v0 (by decide)]
  refine Eq.trans (congrArg (Gen.V1 m c main_v0) ?_)
    (HostVals.v0_apply m c (⟨1024 * i.val + r.val, by omega⟩ : Fin 8192) d)
  funext a; apply Fin.ext
  match a with
  | ⟨0, _⟩ => show win1_0.index (pt i j) (0 : Fin 2) * 1024 + 1 * r.val = 1024 * i.val + r.val; omega
  | ⟨1, _⟩ => show win1_0.index (pt i j) (1 : Fin 2) * 1024 + 1 * d.val = d.val; omega

/-- The key block at the point (i, j): rows 2048·j … of the key half (columns 0 … 1023) of the key/value array. -/
theorem av_kB (i : Fin 8) (j : Fin 4) (n : Fin 2048) (d : Fin 1024) :
    kB (Vr2 m) c i j (ix2 n d)
      = kK (mOf (m ((c : Thread nD τ).loc main_arg1))) (wOf (m ((c : Thread nD τ).loc main_arg2))) (blk j n) d := by
  obtain ⟨-, -, e2, e3, -⟩ := av_idx (pt i j)
  have hv : (pt i j).val = 4 * i.val + j.val := rfl
  show Vr2 m c main_v6 (((cfg1.win 1).blk (pt i j)).view.emb (ix2 n d)) = _
  rw [W2_v6 m c]
  refine Eq.trans (congrArg (kvArr m c) ?_) (kv_K m c (blk j n) d)
  funext a; apply Fin.ext
  match a with
  | ⟨0, _⟩ => show win1_1.index (pt i j) (0 : Fin 2) * 2048 + 1 * n.val = 2048 * j.val + n.val; omega
  | ⟨1, _⟩ => show win1_1.index (pt i j) (1 : Fin 2) * 1024 + 1 * d.val = d.val; omega

/-- The value block at the point (i, j): the same rows of the value half (columns 1024 … 2047). -/
theorem av_vB (i : Fin 8) (j : Fin 4) (n : Fin 2048) (d : Fin 1024) :
    vB (Vr2 m) c i j (ix2 n d)
      = kV (mOf (m ((c : Thread nD τ).loc main_arg1))) (wOf (m ((c : Thread nD τ).loc main_arg3))) (blk j n) d := by
  obtain ⟨-, -, -, -, e4, e5, -⟩ := av_idx (pt i j)
  have hv : (pt i j).val = 4 * i.val + j.val := rfl
  show Vr2 m c main_v6 (((cfg1.win 2).blk (pt i j)).view.emb (ix2 n d)) = _
  rw [W2_v6 m c]
  refine Eq.trans (congrArg (kvArr m c) ?_) (kv_V m c (blk j n) d)
  funext a; apply Fin.ext
  match a with
  | ⟨0, _⟩ => show win1_2.index (pt i j) (0 : Fin 2) * 2048 + 1 * n.val = 2048 * j.val + n.val; omega
  | ⟨1, _⟩ => show win1_2.index (pt i j) (1 : Fin 2) * 1024 + 1 * d.val = 1024 + d.val; omega

section Chain
set_option quotPrecheck false in
local notation "hS" => hOf (m ((c : Thread nD τ).loc main_arg0))
set_option quotPrecheck false in
local notation "mS" => mOf (m ((c : Thread nD τ).loc main_arg1))
set_option quotPrecheck false in
local notation "wkS" => wOf (m ((c : Thread nD τ).loc main_arg2))
set_option quotPrecheck false in
local notation "wvS" => wOf (m ((c : Thread nD τ).loc main_arg3))

/-- Row r of query block i is row 1024·i + r of the array. -/
abbrev av_row (i : Fin 8) (r : Fin 1024) : Fin 8192 := ⟨1024 * i.val + r.val, by omega⟩

/-- The narrowed query block is the query rows. -/
theorem av_q0 (i : Fin 8) (r d : Fin 1024) : q0 (Vr2 m) c i (ix2 r d) = hS (av_row i r) d := by
  unfold q0
  exact (Pay.pay1_apply (hB (Vr2 m) c i 0) r d).trans (av_hB m c i 0 r d)

/-- The logits of query block i against key block j are the specification's logits at the keys of block j. -/
theorem av_S (i : Fin 8) (j : Fin 4) (r : Fin 1024) (n : Fin 2048) :
    k1_pay2 (q0 (Vr2 m) c i) (kB (Vr2 m) c i j) (ix2 r n) = kS hS mS wkS (av_row i r) (blk j n) := by
  refine (Pay.pay2_apply (q0 (Vr2 m) c i) (kB (Vr2 m) c i j) r n).trans ?_
  unfold kS
  exact Finset.sum_congr rfl fun d _ => by rw [av_q0 m c i r d, av_kB m c i j n d]

/-- The carried shift is the maximum of the row's logits over the first key block. -/
theorem av_m0 (i : Fin 8) (r : Fin 1024) (z : Fin 1) :
    m0 (Vr2 m) c i (ix2 r z) = kM0 hS mS wkS (av_row i r) := by
  unfold m0
  refine (Pay.pay3_apply (q0 (Vr2 m) c i) (kB (Vr2 m) c i 0) r z).trans ?_
  unfold kM0
  exact congrArg (fun f => (Finset.univ : Finset (Fin 2048)).fold max ⊥ f) (funext fun n => av_S m c i 0 r n)

/-- The shifted exponentials. -/
theorem av_P (i : Fin 8) (j : Fin 4) (r : Fin 1024) (n : Fin 2048) :
    k1_pay4 (q0 (Vr2 m) c i) (kB (Vr2 m) c i j) (m0 (Vr2 m) c i) (ix2 r n) = kP hS mS wkS (av_row i r) (blk j n) := by
  refine (Pay.pay4_apply (q0 (Vr2 m) c i) (kB (Vr2 m) c i j) (m0 (Vr2 m) c i) r n).trans ?_
  unfold kP
  rw [av_S m c i j r n, av_m0 m c i r 0]

/-- One block's share of the normaliser. -/
theorem av_L (i : Fin 8) (j : Fin 4) (r : Fin 1024) (z : Fin 1) :
    k1_pay5 (q0 (Vr2 m) c i) (kB (Vr2 m) c i j) (m0 (Vr2 m) c i) (ix2 r z) = kLb hS mS wkS (av_row i r) j := by
  refine (Pay.pay5_apply (q0 (Vr2 m) c i) (kB (Vr2 m) c i j) (m0 (Vr2 m) c i) r z).trans ?_
  unfold kLb
  exact Finset.sum_congr rfl fun n _ => av_P m c i j r n

/-- One block's share of the weighted sum. -/
theorem av_A (i : Fin 8) (j : Fin 4) (r d : Fin 1024) :
    k1_pay6 (q0 (Vr2 m) c i) (kB (Vr2 m) c i j) (m0 (Vr2 m) c i) (vB (Vr2 m) c i j) (ix2 r d)
      = kAb hS mS wkS wvS (av_row i r) d j := by
  refine (Pay.pay6_apply (q0 (Vr2 m) c i) (kB (Vr2 m) c i j) (m0 (Vr2 m) c i) (vB (Vr2 m) c i j) r d).trans ?_
  unfold kAb
  exact Finset.sum_congr rfl fun n _ => by rw [av_P m c i j r n, av_vB m c i j n d]

/-! The normaliser after each of the four points. -/
theorem av_l0 (i : Fin 8) (r : Fin 1024) (z : Fin 1) :
    l0 (Vr2 m) c i (ix2 r z) = kLb hS mS wkS (av_row i r) 0 := by
  unfold l0
  exact (Pay.pay7_apply (q0 (Vr2 m) c i) (kB (Vr2 m) c i 0) (m0 (Vr2 m) c i) r z).trans (av_L m c i 0 r z)
theorem av_l1 (i : Fin 8) (r : Fin 1024) (z : Fin 1) :
    l1 (Vr2 m) c i (ix2 r z) = kLb hS mS wkS (av_row i r) 0 + kLb hS mS wkS (av_row i r) 1 := by
  unfold l1
  refine (Pay.pay9_apply (q0 (Vr2 m) c i) (kB (Vr2 m) c i 1) (m0 (Vr2 m) c i) (l0 (Vr2 m) c i) r z).trans ?_
  rw [av_l0 m c i r z, av_L m c i 1 r z]
theorem av_l2 (i : Fin 8) (r : Fin 1024) (z : Fin 1) :
    l2 (Vr2 m) c i (ix2 r z)
      = (kLb hS mS wkS (av_row i r) 0 + kLb hS mS wkS (av_row i r) 1) + kLb hS mS wkS (av_row i r) 2 := by
  unfold l2
  refine (Pay.pay9_apply (q0 (Vr2 m) c i) (kB (Vr2 m) c i 2) (m0 (Vr2 m) c i) (l1 (Vr2 m) c i) r z).trans ?_
  rw [av_l1 m c i r z, av_L m c i 2 r z]
theorem av_l3 (i : Fin 8) (r : Fin 1024) (z : Fin 1) :
    l3 (Vr2 m) c i (ix2 r z)
      = ((kLb hS mS wkS (av_row i r) 0 + kLb hS mS wkS (av_row i r) 1) + kLb hS mS wkS (av_row i r) 2)
          + kLb hS mS wkS (av_row i r) 3 := by
  unfold l3
  refine (Pay.pay9_apply (q0 (Vr2 m) c i) (kB (Vr2 m) c i 3) (m0 (Vr2 m) c i) (l2 (Vr2 m) c i) r z).trans ?_
  rw [av_l2 m c i r z, av_L m c i 3 r z]

/-! The weighted sum after each of the four points. -/
theorem av_a0 (i : Fin 8) (r d : Fin 1024) :
    a0 (Vr2 m) c i (ix2 r d) = kAb hS mS wkS wvS (av_row i r) d 0 := by
  unfold a0
  exact (Pay.pay8_apply (q0 (Vr2 m) c i) (kB (Vr2 m) c i 0) (m0 (Vr2 m) c i) (vB (Vr2 m) c i 0) r d).trans
    (av_A m c i 0 r d)
theorem av_a1 (i : Fin 8) (r d : Fin 1024) :
    a1 (Vr2 m) c i (ix2 r d) = kAb hS mS wkS wvS (av_row i r) d 0 + kAb hS mS wkS wvS (av_row i r) d 1 := by
  unfold a1
  refine (Pay.pay10_apply (q0 (Vr2 m) c i) (kB (Vr2 m) c i 1) (m0 (Vr2 m) c i) (vB (Vr2 m) c i 1) (a0 (Vr2 m) c i) r d).trans ?_
  rw [av_a0 m c i r d, av_A m c i 1 r d]
theorem av_a2 (i : Fin 8) (r d : Fin 1024) :
    a2 (Vr2 m) c i (ix2 r d)
      = (kAb hS mS wkS wvS (av_row i r) d 0 + kAb hS mS wkS wvS (av_row i r) d 1) + kAb hS mS wkS wvS (av_row i r) d 2 := by
  unfold a2
  refine (Pay.pay10_apply (q0 (Vr2 m) c i) (kB (Vr2 m) c i 2) (m0 (Vr2 m) c i) (vB (Vr2 m) c i 2) (a1 (Vr2 m) c i) r d).trans ?_
  rw [av_a1 m c i r d, av_A m c i 2 r d]
theorem av_a3 (i : Fin 8) (r d : Fin 1024) :
    a3 (Vr2 m) c i (ix2 r d)
      = ((kAb hS mS wkS wvS (av_row i r) d 0 + kAb hS mS wkS wvS (av_row i r) d 1) + kAb hS mS wkS wvS (av_row i r) d 2)
          + kAb hS mS wkS wvS (av_row i r) d 3 := by
  unfold a3
  refine (Pay.pay10_apply (q0 (Vr2 m) c i) (kB (Vr2 m) c i 3) (m0 (Vr2 m) c i) (vB (Vr2 m) c i 3) (a2 (Vr2 m) c i) r d).trans ?_
  rw [av_a2 m c i r d, av_A m c i 3 r d]

/-- The output block of query block i is the blocked reading at its rows. -/
theorem av_oB (i : Fin 8) (r d : Fin 1024) :
    oB (Vr2 m) c i (ix2 r d) = kOut hS mS wkS wvS (av_row i r) d := by
  unfold oB
  refine (Pay.pay11_apply (hB (Vr2 m) c i 3) (a3 (Vr2 m) c i) (l3 (Vr2 m) c i) r d).trans ?_
  unfold kOut
  rw [av_hB m c i 3 r d, av_a3 m c i r d, av_l3 m c i r 0]

end Chain

/-! ## From the blocks to the array -/

/-- The output array by coordinates: the blocked reading at (row, column). -/
def av_G : S8192x1024.Idx → EReal := fun i =>
  kOut (hOf (m ((c : Thread nD τ).loc main_arg0))) (mOf (m ((c : Thread nD τ).loc main_arg1)))
    (wOf (m ((c : Thread nD τ).loc main_arg2))) (wOf (m ((c : Thread nD τ).loc main_arg3)))
    ⟨(i 0).val, idx2_lt0 i⟩ ⟨(i 1).val, idx2_lt1 i⟩

/-- A point whose output block is written back is the last point (i, 3) of some query block i. -/
theorem av_pt_of_flush (t : Fin cfg1.N) (hf : (cfg1.win 3).flush t = true) : ∃ i : Fin 8, t = pt i 3 := by
  have h3 : t.val % 4 = 3 := (flush1_3 t).mp hf
  have hN : cfg1.N = 32 := N_1
  have hlt : t.val < 32 := hN ▸ t.isLt
  exact ⟨⟨t.val / 4, by omega⟩, Fin.ext (by show t.val = 4 * (t.val / 4) + 3; omega)⟩

/-- What the point (i, 3) writes back is block i of that array. -/
theorem av_flushed (t : Fin cfg1.N) (hf : (cfg1.win 3).flush t = true) :
    (dat1 (Vr2 m) c).flushed 3 t = ((cfg1.win 3).blk t).view.read (Elt Ideal) (av_G m c) := by
  obtain ⟨i, rfl⟩ := av_pt_of_flush t hf
  show (cfg1.win 3).cut (grid1.coords (pt i 3)) ((dat1 (Vr2 m) c).after 3 (pt i 3)) = _
  rw [after_flush]
  obtain ⟨-, -, -, -, -, -, e6, e7⟩ := av_idx (pt i 3)
  have hv : (pt i 3).val = 4 * i.val + 3 := rfl
  refine funext fun (y : S1024x1024.Idx) => ?_
  obtain ⟨r, d, rfl⟩ : ∃ (r d : Fin 1024), y = ix2 r d := ⟨y 0, y 1, eq_ix2 y⟩
  show oB (Vr2 m) c i (ix2 r d) = av_G m c (((cfg1.win 3).blk (pt i 3)).view.emb (ix2 r d))
  rw [av_oB m c i r d]
  unfold av_G
  refine congrArg₂ _ (Fin.ext ?_) (Fin.ext ?_)
  · show 1024 * i.val + r.val = win1_3.index (pt i 3) (0 : Fin 2) * 1024 + 1 * r.val
    omega
  · show d.val = win1_3.index (pt i 3) (1 : Fin 2) * 1024 + 1 * d.val
    omega

/-- An index of the array is in the output block of the point t iff each coordinate is in the block's range. -/
theorem av_mem_blk (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v7).slice (win1_3.rect t)).set ↔ _
  rw [View.set_slice_whole, Rect.mem_set_unit]
  exact Iff.rfl

/-- The eight output blocks tile the array: row R lies in the block written back after the point (R / 1024, 3). -/
theorem av_cover (i : S8192x1024.Idx) :
    ∃ t : Fin cfg1.N, (cfg1.win 3).flush t = true ∧ i ∈ ((cfg1.win 3).blk t).view.set := by
  have h0 : (i 0).val < 8192 := idx2_lt0 i
  have h1 : (i 1).val < 1024 := idx2_lt1 i
  refine ⟨pt ⟨(i 0).val / 1024, by omega⟩ 3, (flush1_3 _).mpr (by rw [pt_val]; omega), ?_⟩
  obtain ⟨-, -, -, -, -, -, e6, e7⟩ := av_idx (pt ⟨(i 0).val / 1024, by omega⟩ 3)
  have hv : (pt ⟨(i 0).val / 1024, by omega⟩ 3).val = 4 * ((i 0).val / 1024) + 3 := rfl
  rw [av_mem_blk]
  intro a
  match a with
  | ⟨0, _⟩ =>
    show win1_3.index (pt ⟨(i 0).val / 1024, _⟩ 3) (0 : Fin 2) * 1024 ≤ (i 0).val
      ∧ (i 0).val < win1_3.index (pt ⟨(i 0).val / 1024, _⟩ 3) (0 : Fin 2) * 1024 + 1024
    omega
  | ⟨1, _⟩ =>
    show win1_3.index (pt ⟨(i 0).val / 1024, _⟩ 3) (1 : Fin 2) * 1024 ≤ (i 1).val
      ∧ (i 1).val < win1_3.index (pt ⟨(i 0).val / 1024, _⟩ 3) (1 : Fin 2) * 1024 + 1024
    omega

/-- So the output array is that array. -/
theorem av_final : outArr m c = av_G m c := by
  unfold outArr
  exact (dat1 (Vr2 m) c).arrAt_eq_of_cover 3 (av_G m c) (av_flushed m c) av_cover

/-- The attention output array at (R, d) is the blocked reading of the specification at the argument arrays. -/
theorem out_eq (R : Fin 8192) (d : Fin 1024) :
    outArr m c (ix2 R d)
      = kOut (hOf (m ((c : Thread nD τ).loc main_arg0))) (mOf (m ((c : Thread nD τ).loc main_arg1)))
          (wOf (m ((c : Thread nD τ).loc main_arg2))) (wOf (m ((c : Thread nD τ).loc main_arg3))) R d := by
  rw [av_final m c]
  rfl

end Cert.KernelIdeal.Hand

end
-- ==== Proof.lean ====
/-
  The certificate of a memory-attention kernel against its jnp reference, over the extended reals.

  The programs. The reference computes  H + softmax(H·Kᵀ)·V  with K = M·Wkᵀ and V = M·Wvᵀ: the softmax's exponent shift
  is the row maximum over all 8192 keys and every weight is divided by the normaliser before it meets the values. The
  kernel is two pipelined regions. The first projects the memory once: KV = M·[Wkᵀ | Wvᵀ], a block of 2048 rows per grid
  point. The second walks a grid of 8 query blocks × 4 key blocks and keeps, in scratch, the narrowed query block, the row
  maxima of the logits against the FIRST key block as the exponent shift for the whole row, and the normaliser and the
  weighted sum accumulated block by block; after the last key block it stores the query block plus their quotient.

  Why they agree. On finite inputs every intermediate is a real number. A softmax does not depend on its shift:
  exp(s − c) = exp(s − c′)·exp(c′ − c), the positive factor exp(c′ − c) leaves the weighted sum and the normaliser
  together and cancels in their quotient; and a sum over 8192 keys is the sum of its four blocks of 2048 in any grouping.
  Changes of float format are the identity over the extended reals, and a matrix product on the chip and on the host is
  the same sum. That law is Proof/Spec.lean. The rest reads each side down to that law's two readings: the reference
  operation by operation (Proof/RefValue.lean); the kernel from its runs — what each region's write-backs leave in its
  output array, block by block (Proof/ProjValue.lean, Proof/AttnValue.lean), over the body's arithmetic read at an index
  (Proof/Pay.lean) and the host operations around the regions (Proof/HostVals.lean).

  The frames. Each kernel program runs to the end, faults nowhere and leaves its arguments unchanged: the two regions as
  segments of @main between its host stretches (Proof/KI/…: the projection region, the attention region with its three
  control cases and the scratch carried from point to point, the key/value array held as two half shares by the two
  windows that read it), once for the idealized program and once, by the same text, for the word-level one (Proof/K/…).
  The reference's frame is its run with the result dropped; the idealization rewrote nothing.
-/
import proofs.«100357_g33603824124095_fold_wed_c4_546_8_alg».proof.Defs
import proofs.«100357_g33603824124095_fold_wed_c4_546_8_alg».proof.Proof.Gen.Kernel
import proofs.«100357_g33603824124095_fold_wed_c4_546_8_alg».proof.Proof.Gen.KernelIdeal
import proofs.«100357_g33603824124095_fold_wed_c4_546_8_alg».proof.Proof.Gen.ReferenceIdeal
import proofs.«100357_g33603824124095_fold_wed_c4_546_8_alg».proof.Proof.Gen.ReferenceIdeal.Run
import proofs.«100357_g33603824124095_fold_wed_c4_546_8_alg».proof.Proof.Gen.ReferenceIdeal.Read
import proofs.«100357_g33603824124095_fold_wed_c4_546_8_alg».proof.Proof.Gen.Pre_finite_inputs
import proofs.«100357_g33603824124095_fold_wed_c4_546_8_alg».proof.Proof.K.Run
import proofs.«100357_g33603824124095_fold_wed_c4_546_8_alg».proof.Proof.KI.Run
import proofs.«100357_g33603824124095_fold_wed_c4_546_8_alg».proof.Proof.Spec
import proofs.«100357_g33603824124095_fold_wed_c4_546_8_alg».proof.Proof.Finite
import proofs.«100357_g33603824124095_fold_wed_c4_546_8_alg».proof.Proof.RefValue
import proofs.«100357_g33603824124095_fold_wed_c4_546_8_alg».proof.Proof.HostVals
import proofs.«100357_g33603824124095_fold_wed_c4_546_8_alg».proof.Proof.AttnValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and keeps its arguments. -/
theorem frame_k : Cert.frame_Kernel := fun m ρ _ => Cert.Kernel.Hand.frame m ρ

/-- The idealized kernel program runs and keeps its arguments. -/
theorem frame_ki : Cert.frame_KernelIdeal := fun m ρ _ => Cert.KernelIdeal.Hand.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel program's result at (b, s, d): the blocked reading of the specification at row 2048·b + s. -/
theorem kernel_result (m : (ℓ : Loc Cert.KernelIdeal.nD Cert.KernelIdeal.τ Cert.KernelIdeal.sig) → Buf (Elt Ideal) ℓ)
    (c : Dev Cert.KernelIdeal.nD) (b : Fin 4) (s : Fin 2048) (d : Fin 1024) :
    Cert.KernelIdeal.Gen.V4 m (Cert.KernelIdeal.Hand.outs m) c Cert.KernelIdeal.main_v8 (ix3 b s d)
      = Cert.Spec.kOut (Cert.Spec.hOf (m ((c.tc : Thread Cert.KernelIdeal.nD Cert.KernelIdeal.τ).loc Cert.KernelIdeal.main_arg0))) (Cert.Spec.mOf (m ((c.tc : Thread Cert.KernelIdeal.nD Cert.KernelIdeal.τ).loc Cert.KernelIdeal.main_arg1)))
          (Cert.Spec.wOf (m ((c.tc : Thread Cert.KernelIdeal.nD Cert.KernelIdeal.τ).loc Cert.KernelIdeal.main_arg2))) (Cert.Spec.wOf (m ((c.tc : Thread Cert.KernelIdeal.nD Cert.KernelIdeal.τ).loc Cert.KernelIdeal.main_arg3))) (Cert.Spec.row b s) d := by
  unfold Cert.KernelIdeal.Gen.V4
  rw [Cert.KernelIdeal.HostVals.v8_apply, Cert.KernelIdeal.Hand.V3_eq]
  exact (congrFun (Cert.KernelIdeal.Hand.W3_v7 m c) _).trans (Cert.KernelIdeal.Hand.out_eq m c _ d)

/-- Over the extended reals, from memories agreeing on the arguments, the kernel program and the reference end with the
    same result, entry by entry: the blocked and the plain reading of one specification, equal on finite inputs. -/
theorem algebraic : Cert.algebraic_KernelIdeal_ReferenceIdeal := by
  intro m ρ m' ρ' hpre hagree
  refine ⟨fun c => Cert.KernelIdeal.Gen.V4 m (Cert.KernelIdeal.Hand.outs m) c Cert.KernelIdeal.main_v8, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v17_eq]
  obtain ⟨h0, h1, h2, h3⟩ := Cert.Finite.real_of_pre _ _ _ _ (hpre c)
  funext i
  obtain ⟨b, s, d, rfl⟩ : ∃ (b : Fin 4) (s : Fin 2048) (d : Fin 1024), i = ix3 b s d := ⟨i 0, i 1, i 2, eq_ix3 i⟩
  rw [Cert.ReferenceIdeal.RefValue.ref_eq]
  exact ((kernel_result m c b s d).trans
    (Cert.Spec.kOut_eq_rOut _ _ _ _ (fun r d => h0 _) (fun n e => h1 _) (fun d e => h2 _) (fun d e => h3 _) _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
